-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x64 : Shape := ⟨2, ![400000, 64]⟩
abbrev S8x128x64 : Shape := ⟨3, ![8, 128, 64]⟩
abbrev S64 : Shape := ⟨1, ![64]⟩
abbrev S128x64 : Shape := ⟨2, ![128, 64]⟩
abbrev S8x100000 : Shape := ⟨2, ![8, 100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S8x128x64 : S_.BroadcastsInDim S8x128x64 (![] : Fin 0 → Fin S8x128x64.rank)
  reducesTo_S8x128x64_S_d0_1_2 : S8x128x64.ReducesTo [0, 1, 2] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S64 .f32) (main_arg5 : FVec F S128x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  main_v28

def fn {F : FTy → Type} [FloatOps F] (main_arg0 : FVec F S100000x128 .f32) (main_arg1 : FVec F S400000x64 .f32) (main_arg2 : FVec F S8x128x64 .f32) (main_arg3 : FVec F S64 .f32) (main_arg4 : FVec F S64 .f32) (main_arg5 : FVec F S128x64 .f32) (main_arg6 : IVec S8x100000 32) (main_arg7 : IVec S8x100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S8x128x64 .f32 := Host.absf main_arg2
  let main_cst_2 : FVec F S_ .f32 := constant S_ .f32 0x7F800000#32
  let main_v10 : FVec F S8x128x64 .f32 := broadcastInDim S8x128x64 ![] bcast_S_S8x128x64 main_cst_2
  let main_v11 : IVec S8x128x64 1 := cmpf .olt main_v9 main_v10
  let main_c_3 : IVec S_ 1 := constantI S_ 1 1#1
  let main_v12 : IVec S_ 1 := (fun x v => Host.reduce IntOp.andi x v reducesTo_S8x128x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x128 : Shape := ⟨2, ![100000, 128]⟩
abbrev S400000x64 : Shape := ⟨2, ![400000, 64]⟩
abbrev S8x128x64 : Shape := ⟨3, ![8, 128, 64]⟩
abbrev S64 : Shape := ⟨1, ![64]⟩
abbrev S128x64 : Shape := ⟨2, ![128, 64]⟩
abbrev S8x100000 : Shape := ⟨2, ![8, 100000]⟩
abbrev S128x8x64 : Shape := ⟨3, ![128, 8, 64]⟩
abbrev S128x512 : Shape := ⟨2, ![128, 512]⟩
abbrev S100000x512 : Shape := ⟨2, ![100000, 512]⟩
abbrev S5000x128 : Shape := ⟨2, ![5000, 128]⟩
abbrev S5000x512 : Shape := ⟨2, ![5000, 512]⟩
abbrev S100000x8x64 : Shape := ⟨3, ![100000, 8, 64]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x2 : Shape := ⟨2, ![100000, 2]⟩
abbrev S100000x64 : Shape := ⟨2, ![100000, 64]⟩
abbrev S1x100000x64 : Shape := ⟨3, ![1, 100000, 64]⟩
abbrev S8x100000x64 : Shape := ⟨3, ![8, 100000, 64]⟩
abbrev S800000 : Shape := ⟨1, ![800000]⟩
abbrev S800000x64 : Shape := ⟨2, ![800000, 64]⟩
abbrev S800000x1 : Shape := ⟨2, ![800000, 1]⟩
abbrev S1x64 : Shape := ⟨2, ![1, 64]⟩
abbrev S20000x64 : Shape := ⟨2, ![20000, 64]⟩
abbrev S64x64 : Shape := ⟨2, ![64, 64]⟩

abbrev nBuf : Space → Nat
  | .hbm => 184
  | .vmem => 19
  | .smem => 0
  | _ => 0

abbrev hbmTy0_0 (i : Nat) : BufTy := match i % 128 with
  | 0 => ⟨S100000x128, .f32⟩
  | 1 => ⟨S400000x64, .f32⟩
  | 2 => ⟨S8x128x64, .f32⟩
  | 3 => ⟨S64, .f32⟩
  | 4 => ⟨S64, .f32⟩
  | 5 => ⟨S128x64, .f32⟩
  | 6 => ⟨S8x100000, .i32⟩
  | 7 => ⟨S8x100000, .i32⟩
  | 8 => ⟨S128x8x64, .f32⟩
  | 9 => ⟨S128x512, .f32⟩
  | 10 => ⟨S100000x512, .f32⟩
  | 11 => ⟨S100000x8x64, .f32⟩
  | 12 => ⟨S1x100000, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S_, .i32⟩
  | 22 => ⟨S100000, .i32⟩
  | 23 => ⟨S100000, .i32⟩
  | 24 => ⟨S100000x1, .i32⟩
  | 25 => ⟨S100000x1, .i32⟩
  | 26 => ⟨S100000x2, .i32⟩
  | 27 => ⟨S100000x64, .f32⟩
  | 28 => ⟨S1x100000, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S_, .i32⟩
  | 38 => ⟨S100000, .i32⟩
  | 39 => ⟨S100000, .i32⟩
  | 40 => ⟨S100000x1, .i32⟩
  | 41 => ⟨S100000x1, .i32⟩
  | 42 => ⟨S100000x2, .i32⟩
  | 43 => ⟨S100000x64, .f32⟩
  | 44 => ⟨S1x100000, .i32⟩
  | 45 => ⟨S100000, .i32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S_, .i32⟩
  | 54 => ⟨S100000, .i32⟩
  | 55 => ⟨S100000, .i32⟩
  | 56 => ⟨S100000x1, .i32⟩
  | 57 => ⟨S100000x1, .i32⟩
  | 58 => ⟨S100000x2, .i32⟩
  | 59 => ⟨S100000x64, .f32⟩
  | 60 => ⟨S1x100000, .i32⟩
  | 61 => ⟨S100000, .i32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S_, .i32⟩
  | 70 => ⟨S100000, .i32⟩
  | 71 => ⟨S100000, .i32⟩
  | 72 => ⟨S100000x1, .i32⟩
  | 73 => ⟨S100000x1, .i32⟩
  | 74 => ⟨S100000x2, .i32⟩
  | 75 => ⟨S100000x64, .f32⟩
  | 76 => ⟨S1x100000, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S_, .i32⟩
  | 86 => ⟨S100000, .i32⟩
  | 87 => ⟨S100000, .i32⟩
  | 88 => ⟨S100000x1, .i32⟩
  | 89 => ⟨S100000x1, .i32⟩
  | 90 => ⟨S100000x2, .i32⟩
  | 91 => ⟨S100000x64, .f32⟩
  | 92 => ⟨S1x100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S_, .i32⟩
  | 102 => ⟨S100000, .i32⟩
  | 103 => ⟨S100000, .i32⟩
  | 104 => ⟨S100000x1, .i32⟩
  | 105 => ⟨S100000x1, .i32⟩
  | 106 => ⟨S100000x2, .i32⟩
  | 107 => ⟨S100000x64, .f32⟩
  | 108 => ⟨S1x100000, .i32⟩
  | 109 => ⟨S100000, .i32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S_, .i32⟩
  | 118 => ⟨S100000, .i32⟩
  | 119 => ⟨S100000, .i32⟩
  | 120 => ⟨S100000x1, .i32⟩
  | 121 => ⟨S100000x1, .i32⟩
  | 122 => ⟨S100000x2, .i32⟩
  | 123 => ⟨S100000x64, .f32⟩
  | 124 => ⟨S1x100000, .i32⟩
  | 125 => ⟨S100000, .i32⟩
  | 126 => ⟨S_, .i32⟩
  | 127 => ⟨S100000, .i32⟩
  | _ => ⟨S100000x128, .f32⟩

abbrev hbmTy0_1 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S_, .i32⟩
  | 6 => ⟨S100000, .i32⟩
  | 7 => ⟨S100000, .i32⟩
  | 8 => ⟨S100000x1, .i32⟩
  | 9 => ⟨S100000x1, .i32⟩
  | 10 => ⟨S100000x2, .i32⟩
  | 11 => ⟨S100000x64, .f32⟩
  | 12 => ⟨S1x100000x64, .f32⟩
  | 13 => ⟨S1x100000x64, .f32⟩
  | 14 => ⟨S1x100000x64, .f32⟩
  | 15 => ⟨S1x100000x64, .f32⟩
  | 16 => ⟨S1x100000x64, .f32⟩
  | 17 => ⟨S1x100000x64, .f32⟩
  | 18 => ⟨S1x100000x64, .f32⟩
  | 19 => ⟨S1x100000x64, .f32⟩
  | 20 => ⟨S8x100000x64, .f32⟩
  | 21 => ⟨S_, .f32⟩
  | 22 => ⟨S400000x64, .f32⟩
  | 23 => ⟨S800000, .i32⟩
  | 24 => ⟨S800000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S400000x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S1x64, .f32⟩
  | 50 => ⟨S1x64, .f32⟩
  | 51 => ⟨S1x64, .f32⟩
  | 52 => ⟨S1x64, .f32⟩
  | 53 => ⟨S64x64, .f32⟩
  | 54 => ⟨S64x64, .f32⟩
  | 55 => ⟨S400000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S5000x512, .f32⟩
  | .local _ .vmem, ⟨4, _⟩ => ⟨S5000x512, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S1x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S1x64, .f32⟩
  | .local _ .vmem, ⟨14, _⟩ => ⟨S1x64, .f32⟩
  | .local _ .vmem, ⟨15, _⟩ => ⟨S64x64, .f32⟩
  | .local _ .vmem, ⟨16, _⟩ => ⟨S64x64, .f32⟩
  | .local _ .vmem, ⟨17, _⟩ => ⟨S20000x64, .f32⟩
  | .local _ .vmem, ⟨18, _⟩ => ⟨S20000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_17 : Ref sig .tc := ⟨.hbm, 110, rfl⟩
abbrev main_v84 : Ref sig .tc := ⟨.hbm, 111, rfl⟩
abbrev main_v85 : Ref sig .tc := ⟨.hbm, 112, rfl⟩
abbrev main_c_18 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_19 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_20 : Ref sig .tc := ⟨.hbm, 126, rfl⟩
abbrev main_v97 : Ref sig .tc := ⟨.hbm, 127, rfl⟩
abbrev main_v98 : Ref sig .tc := ⟨.hbm, 128, rfl⟩
abbrev main_c_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_23 : Ref sig .tc := ⟨.hbm, 153, rfl⟩
abbrev main_v120 : Ref sig .tc := ⟨.hbm, 154, rfl⟩
abbrev main_v121 : Ref sig .tc := ⟨.hbm, 155, rfl⟩
abbrev main_c_24 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127_0 : Ref sig .tc := ⟨.hbm, 162, rfl⟩
abbrev main_v127_1 : Ref sig .tc := ⟨.hbm, 163, rfl⟩
abbrev main_cst_25 : Ref sig .tc := ⟨.hbm, 164, rfl⟩
abbrev main_v128 : Ref sig .tc := ⟨.hbm, 165, rfl⟩
abbrev main_v129 : Ref sig .tc := ⟨.hbm, 166, rfl⟩
abbrev main_cst_26 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_27 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S20000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S8x128x64_S128x8x64_1_0_2 : S8x128x64.Transposes [1, 0, 2] S128x8x64
  shapeCasts_S128x8x64_S128x512 : S128x8x64.ShapeCasts S128x512
  inb_S5000x128_S5000x128_0_0 : ∀ a, (![0, 0] : Fin 2 → Nat) a + S5000x128.size a ≤ S5000x128.size a
  h_S5000x128 : 0 < S5000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S5000x512_S5000x512_0_0 : ∀ a, (![0, 0] : Fin 2 → Nat) a + S5000x512.size a ≤ S5000x512.size a
  h_S5000x512 : 0 < S5000x512.numel
  shapeCasts_S100000x512_S100000x8x64 : S100000x512.ShapeCasts S100000x8x64
  slices_S8x100000_S1x100000_0_0 : S8x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  slices_S8x100000_S1x100000_1_0 : S8x100000.Slices ![1, 0] S1x100000
  slices_S8x100000_S1x100000_2_0 : S8x100000.Slices ![2, 0] S1x100000
  slices_S8x100000_S1x100000_3_0 : S8x100000.Slices ![3, 0] S1x100000
  slices_S8x100000_S1x100000_4_0 : S8x100000.Slices ![4, 0] S1x100000
  slices_S8x100000_S1x100000_5_0 : S8x100000.Slices ![5, 0] S1x100000
  slices_S8x100000_S1x100000_6_0 : S8x100000.Slices ![6, 0] S1x100000
  slices_S8x100000_S1x100000_7_0 : S8x100000.Slices ![7, 0] S1x100000
  bcast_S100000x64_S1x100000x64_1_2 : S100000x64.BroadcastsInDim S1x100000x64 (![1, 2] : Fin 2 → Fin S1x100000x64.rank)
  concatenates_S1x100000x64_S1x100000x64_S1x100000x64_S1x100000x64_S1x100000x64_S1x100000x64_S1x100000x64_S1x100000x64_S8x100000x64_d0 : Shape.Concatenates [S1x100000x64, S1x100000x64, S1x100000x64, S1x100000x64, S1x100000x64, S1x100000x64, S1x100000x64, S1x100000x64] S8x100000x64 0
  bcast_S_S400000x64 : S_.BroadcastsInDim S400000x64 (![] : Fin 0 → Fin S400000x64.rank)
  shapeCasts_S8x100000_S800000 : S8x100000.ShapeCasts S800000
  shapeCasts_S8x100000x64_S800000x64 : S8x100000x64.ShapeCasts S800000x64
  bcast_S_S800000 : S_.BroadcastsInDim S800000 (![] : Fin 0 → Fin S800000.rank)
  bcast_S800000_S800000x1_0 : S800000.BroadcastsInDim S800000x1 (![0] : Fin 1 → Fin S800000x1.rank)
  inb_S1x64_S1x64_0_0 : ∀ a, (![0, 0] : Fin 2 → Nat) a + S1x64.size a ≤ S1x64.size a
  h_S1x64 : 0 < S1x64.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  shapeCasts_S1x64_S1x64 : S1x64.ShapeCasts S1x64
  reduces_S20000x64_S64 : S20000x64.Reduces [0] S64
  shapeCasts_S64_S1x64 : S64.ShapeCasts S1x64
  bcast_S_S1x64 : S_.BroadcastsInDim S1x64 (![] : Fin 0 → Fin S1x64.rank)
  slices_S128x64_S64x64_0_0 : S128x64.Slices ![0, 0] S64x64
  slices_S128x64_S64x64_64_0 : S128x64.Slices ![64, 0] S64x64
  broadcasts_S1x64_S20000x64 : S1x64.Broadcasts S20000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S5000x128_S128x512_S5000x512_1_0_0_1_n_n_wf : DotDims.WF S5000x128 S128x512 S5000x512 [1] [0] [0] [1] [] []
  gather_S100000x8x64_S100000x2_S100000x64_1_01_n_n_01_1_1164_wf : GatherDims.WF S100000x8x64 S100000x2 S100000x64 [1] [0, 1] [] [0, 1] [] 1 ![1, 1, 64]
  scatter_S400000x64_S800000x1_S800000x64_1_0_0_1_wf : ScatterDims.WF S400000x64 S800000x1 S800000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S100000x512.size a
  hwx0_2 : ∀ i : grid0.Coords, EltTy.bits .f32 = 32 ∨ (Rect.block (s := S100000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S400000x64.size a
  hwx1_0 : ∀ i : grid1.Coords, EltTy.bits .f32 = 32 ∨ (Rect.block (s := S400000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S400000x64.size a
  hwx2_0 : ∀ i : grid2.Coords, EltTy.bits .f32 = 32 ∨ (Rect.block (s := S400000x64) S20000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x64.size a ≤ S400000x64.size a
  hwx2_1 : ∀ i : grid2.Coords, EltTy.bits .f32 = 32 ∨ (Rect.block (s := S400000x64) S20000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S20000x64.size a ≤ S400000x64.size a
  hwx2_6 : ∀ i : grid2.Coords, EltTy.bits .f32 = 32 ∨ (Rect.block (s := S400000x64) S20000x64.size (cc2_transform_6 i) (hinb2_6 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S100000x8x64_S100000x2_S100000x64_1_01_n_n_01_1_1164 : GatherDims S100000x8x64 S100000x2 S100000x64 where
  offsetDims := [1]
  collapsedSliceDims := [0, 1]
  operandBatchingDims := []
  startIndicesBatchingDims := []
  startIndexMap := [0, 1]
  indexVectorDim := 1
  sliceSizes := ![1, 1, 64]
  wf := gather_S100000x8x64_S100000x2_S100000x64_1_01_n_n_01_1_1164_wf
def scatter_S400000x64_S800000x1_S800000x64_1_0_0_1 : ScatterDims S400000x64 S800000x1 S800000x64 where
  updateWindowDims := [1]
  insertedWindowDims := [0]
  scatterDimsToOperandDims := [0]
  indexVectorDim := 1
  wf := scatter_S400000x64_S800000x1_S800000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v126) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v127_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v127_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v126) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S20000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v138) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v141) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v142) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v143) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v144) S20000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S400000x64 : Shape := ⟨2, ![400000, 64]⟩
abbrev S8x128x64 : Shape := ⟨3, ![8, 128, 64]⟩
abbrev S64 : Shape := ⟨1, ![64]⟩
abbrev S128x64 : Shape := ⟨2, ![128, 64]⟩
abbrev S8x100000 : Shape := ⟨2, ![8, 100000]⟩
abbrev S_ : Shape := ⟨0, ![]⟩
abbrev S8x100000x1 : Shape := ⟨3, ![8, 100000, 1]⟩
abbrev S8x100000x128 : Shape := ⟨3, ![8, 100000, 128]⟩
abbrev S8x100000x64 : Shape := ⟨3, ![8, 100000, 64]⟩
abbrev S800000 : Shape := ⟨1, ![800000]⟩
abbrev S800000x64 : Shape := ⟨2, ![800000, 64]⟩
abbrev S800000x1 : Shape := ⟨2, ![800000, 1]⟩
abbrev S1x64 : Shape := ⟨2, ![1, 64]⟩
abbrev S400000x128 : Shape := ⟨2, ![400000, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x64, .f32⟩
  | .hbm, ⟨2, _⟩ => ⟨S8x128x64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S8x100000, .i32⟩
  | .hbm, ⟨7, _⟩ => ⟨S8x100000, .i32⟩
  | .hbm, ⟨8, _⟩ => ⟨S_, .i32⟩
  | .hbm, ⟨9, _⟩ => ⟨S8x100000, .i32⟩
  | .hbm, ⟨10, _⟩ => ⟨S8x100000, .i1⟩
  | .hbm, ⟨11, _⟩ => ⟨S_, .i32⟩
  | .hbm, ⟨12, _⟩ => ⟨S8x100000, .i32⟩
  | .hbm, ⟨13, _⟩ => ⟨S8x100000, .i32⟩
  | .hbm, ⟨14, _⟩ => ⟨S8x100000, .i32⟩
  | .hbm, ⟨15, _⟩ => ⟨S8x100000x1, .i32⟩
  | .hbm, ⟨16, _⟩ => ⟨S8x100000x128, .f32⟩
  | .hbm, ⟨17, _⟩ => ⟨S8x100000x64, .f32⟩
  | .hbm, ⟨18, _⟩ => ⟨S_, .f32⟩
  | .hbm, ⟨19, _⟩ => ⟨S400000x64, .f32⟩
  | .hbm, ⟨20, _⟩ => ⟨S800000, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S400000x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S1x64, .f32⟩
  | .hbm, ⟨37, _⟩ => ⟨S400000x64, .f32⟩
  | .hbm, ⟨38, _⟩ => ⟨S400000x64, .f32⟩
  | .hbm, ⟨39, _⟩ => ⟨S400000x64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S400000x64, .f32⟩
  | .hbm, ⟨47, _⟩ => ⟨S400000x64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S400000x64, .f32⟩
  | .hbm, ⟨54, _⟩ => ⟨S400000x64, .f32⟩
  | .hbm, ⟨55, _⟩ => ⟨S1x64, .f32⟩
  | .hbm, ⟨56, _⟩ => ⟨S400000x64, .f32⟩
  | .hbm, ⟨57, _⟩ => ⟨S400000x64, .f32⟩
  | .hbm, ⟨58, _⟩ => ⟨S1x64, .f32⟩
  | .hbm, ⟨59, _⟩ => ⟨S400000x64, .f32⟩
  | .hbm, ⟨60, _⟩ => ⟨S400000x64, .f32⟩
  | .hbm, ⟨61, _⟩ => ⟨S_, .f32⟩
  | .hbm, ⟨62, _⟩ => ⟨S400000x64, .f32⟩
  | .hbm, ⟨63, _⟩ => ⟨S400000x64, .f32⟩
  | .hbm, ⟨64, _⟩ => ⟨S400000x128, .f32⟩
  | .hbm, ⟨65, _⟩ => ⟨S400000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S8x100000 : S_.BroadcastsInDim S8x100000 (![] : Fin 0 → Fin S8x100000.rank)
  bcast_S8x100000_S8x100000x1_0_1 : S8x100000.BroadcastsInDim S8x100000x1 (![0, 1] : Fin 2 → Fin S8x100000x1.rank)
  bcast_S_S400000x64 : S_.BroadcastsInDim S400000x64 (![] : Fin 0 → Fin S400000x64.rank)
  shapeCasts_S8x100000_S800000 : S8x100000.ShapeCasts S800000
  shapeCasts_S8x100000x64_S800000x64 : S8x100000x64.ShapeCasts S800000x64
  bcast_S_S800000 : S_.BroadcastsInDim S800000 (![] : Fin 0 → Fin S800000.rank)
  bcast_S800000_S800000x1_0 : S800000.BroadcastsInDim S800000x1 (![0] : Fin 1 → Fin S800000x1.rank)
  reducesTo_S400000x64_S64_d0 : S400000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  concatenates_S400000x64_S400000x64_S400000x128_d1 : Shape.Concatenates [S400000x64, S400000x64] S400000x128 1
  gather_S100000x128_S8x100000x1_S8x100000x128_2_0_n_n_0_2_1128_wf : GatherDims.WF S100000x128 S8x100000x1 S8x100000x128 [2] [0] [] [0] [] 2 ![1, 128]
  dot_S8x100000x128_S8x128x64_S8x100000x64_2_1_1_2_0_0_wf : DotDims.WF S8x100000x128 S8x128x64 S8x100000x64 [2] [1] [1] [2] [0] [0]
  scatter_S400000x64_S800000x1_S800000x64_1_0_0_1_wf : ScatterDims.WF S400000x64 S800000x1 S800000x64 [1] [0] [0] 1
  dot_S400000x128_S128x64_S400000x64_1_0_0_1_n_n_wf : DotDims.WF S400000x128 S128x64 S400000x64 [1] [0] [0] [1] [] []

variable [Facts₀]

def gather_S100000x128_S8x100000x1_S8x100000x128_2_0_n_n_0_2_1128 : GatherDims S100000x128 S8x100000x1 S8x100000x128 where
  offsetDims := [2]
  collapsedSliceDims := [0]
  operandBatchingDims := []
  startIndicesBatchingDims := []
  startIndexMap := [0]
  indexVectorDim := 2
  sliceSizes := ![1, 128]
  wf := gather_S100000x128_S8x100000x1_S8x100000x128_2_0_n_n_0_2_1128_wf
def dot_S8x100000x128_S8x128x64_S8x100000x64_2_1_1_2_0_0 : DotDims S8x100000x128 S8x128x64 S8x100000x64 where
  lhsContracting := [2]
  rhsContracting := [1]
  lhsNonContracting := [1]
  rhsNonContracting := [2]
  lhsBatch := [0]
  rhsBatch := [0]
  wf := dot_S8x100000x128_S8x128x64_S8x100000x64_2_1_1_2_0_0_wf
def scatter_S400000x64_S800000x1_S800000x64_1_0_0_1 : ScatterDims S400000x64 S800000x1 S800000x64 where
  updateWindowDims := [1]
  insertedWindowDims := [0]
  scatterDimsToOperandDims := [0]
  indexVectorDim := 1
  wf := scatter_S400000x64_S800000x1_S800000x64_1_0_0_1_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf

class Facts : Prop extends Facts₀ where

variable [Facts]
-- ==== Proof.KB.R0.lean ====
import proofs.«105424_j83674552861285_1_alg».proof.Proof.Gen.Kernel.Launch
import proofs.«105424_j83674552861285_1_alg».proof.Proof.Gen.Kernel.Skeleton
import proofs.«105424_j83674552861285_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call: one row block of the product `x · Wflat` per grid point

Entry contents `V` are a parameter: the run instantiates them at what the host prefix leaves. -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: its current staging buffer holds its block of the entry array at every point,
    whether the pipeline fetched it there or the block index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: its current staging buffer holds its block of the entry array at every point,
    whether the pipeline fetched it there or the block index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x128 := Rect.unit (s := S5000x128) ![0, 0] S5000x128.size inb_S5000x128_S5000x128_0_0
abbrev r0_1 : Rect S128x512 := Rect.unit (s := S128x512) ![0, 0] S128x512.size inb_S128x512_S128x512_0_0
abbrev r0_2 : Rect S5000x512 := Rect.unit (s := S5000x512) ![0, 0] S5000x512.size inb_S5000x512_S5000x512_0_0

/-- The output buffer after the body: the one store's payload, the 5000×128 row block times the 128×512 weights. -/
def out0_2 (x0 : Vec F S5000x128 .f32) (x1 : Vec F S128x512 .f32) : Vec F S5000x512 .f32 :=
  View.canon [⟨r0_2, k0_pay1 (View.ld x0 r0_0) (View.ld x1 r0_1)⟩]

/-- The one store covers the output buffer. -/
theorem cover0_2 (p0 : Vec F S5000x512 .f32) (y : S5000x512.Idx) :
    ∃ pc ∈ ([⟨r0_2, p0⟩] : List (View.Piece (Elt F) S5000x512 .f32)), y ∈ pc.1.set :=
  View.cover_of_tiled [⟨r0_2, p0⟩] S5000x512.size (by rfl) y

set_option maxHeartbeats 1000000 in
/-- The body's triple: from the two inputs at `x0`, `x1` and the output at anything, to the inputs unchanged and the
    output at `out0_2 x0 x1`. -/
theorem sound_kernel0 (c : Dev nD) (E : Set ℕ) (i : grid0.Coords) (arg1 : Memref sig .tc .vmem S5000x128 .f32) (harg1 : arg1.IsWhole) (arg2 : Memref sig .tc .vmem S128x512 .f32) (harg2 : arg2.IsWhole) (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first call on core `c`: the arrays as found; each input's buffer left at its block, the output's
    at the product of the two input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.R1A.lean ====
import proofs.«105424_j83674552861285_1_alg».proof.Proof.Gen.Kernel.Launch
import proofs.«105424_j83674552861285_1_alg».proof.Proof.Gen.Kernel.Skeleton
import proofs.«105424_j83674552861285_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: per-channel sums of `y` and of `y²`, accumulated over the 20 row blocks

Its two outputs keep one 1×64 block for the whole grid: the first point zeroes them and adds its block's sums, every later
point adds to what the point before left. This module holds what the two cases share and the first case's run. -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: its current staging buffer holds its block of the entry array at every point,
    whether the pipeline fetched it there or the block index stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "this is the first row block". -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- One staging buffer of each output window, through which its contents are stated. -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, and its wholeness. -/
abbrev ms1_0 (t : Fin cfg1.N) : Memref sig .tc .vmem S20000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)

set_option maxHeartbeats 1000000 in
/-- The first point's run: the stores each output buffer ends with, as pieces (last first), with the proof that from the
    input block at `x0` and the outputs at anything the body runs to the input unchanged and each output with its pieces written. -/
noncomputable def kernelRun1_A (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K } := by
  refine ⟨?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Fr

end
-- ==== Proof.KB.R1B.lean ====
import proofs.«105424_j83674552861285_1_alg».proof.Proof.Gen.Kernel.Launch
import proofs.«105424_j83674552861285_1_alg».proof.Proof.Gen.Kernel.Skeleton
import proofs.«105424_j83674552861285_1_alg».proof.Proof.Gen.Kernel.Points
import proofs.«105424_j83674552861285_1_alg».proof.Proof.KB.R1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call, at a later point: both outputs are read before they are stored, so they enter at what the point
before left (`xo1`, `xo2`). -/

set_option maxHeartbeats 1000000 in
noncomputable def kernelRun1_B (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K } := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Fr

end
-- ==== Proof.KB.R1.lean ====
import proofs.«105424_j83674552861285_1_alg».proof.Proof.Gen.Kernel.Launch
import proofs.«105424_j83674552861285_1_alg».proof.Proof.Gen.Kernel.Skeleton
import proofs.«105424_j83674552861285_1_alg».proof.Proof.Gen.Kernel.Points
import proofs.«105424_j83674552861285_1_alg».proof.Proof.KB.R1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: what its two accumulators hold after each point, its proof data and its body obligation -/

variable (V : (c : Dev nD) → (b : Ref sig .tc) → Buf (Elt F) ((c : Thread nD τ).loc b))

/-- The first point's pieces tile each output block, so they cover it. -/
theorem cover1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) (y : S1x64.Idx) :
    ∃ pc ∈ (kernelRun1_A c i arg1 harg1 arg2 harg2 arg3 harg3 hc0 x0).1, y ∈ pc.1.set :=
  View.cover_of_tiledL (kernelRun1_A c i arg1 harg1 arg2 harg2 arg3 harg3 hc0 x0).1 S1x64.size (by sl_kernel_rfl) y
theorem cover1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) (y : S1x64.Idx) :
    ∃ pc ∈ (kernelRun1_A c i arg1 harg1 arg2 harg2 arg3 harg3 hc0 x0).2.1, y ∈ pc.1.set :=
  View.cover_of_tiledL (kernelRun1_A c i arg1 harg1 arg2 harg2 arg3 harg3 hc0 x0).2.1 S1x64.size (by sl_kernel_rfl) y

/-- What the first point leaves in each output's staging buffer: its pieces read back. -/
def out1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) : Vec F S1x64 .f32 :=
  VO1_1.read (Elt F) (VO1_1.writes (Elt F) VO1_1.junk (kernelRun1_A c i arg1 harg1 arg2 harg2 arg3 harg3 hc0 x0).1)
def out1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) : Vec F S1x64 .f32 :=
  VO1_2.read (Elt F) (VO1_2.writes (Elt F) VO1_2.junk (kernelRun1_A c i arg1 harg1 arg2 harg2 arg3 harg3 hc0 x0).2.1)

/-- A later point's pieces tile each output block, so they cover it. -/
theorem cover1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) (y : S1x64.Idx) :
    ∃ pc ∈ (kernelRun1_B c i arg1 harg1 arg2 harg2 arg3 harg3 hc0 x0 xo1 xo2).1, y ∈ pc.1.set :=
  View.cover_of_tiledL (kernelRun1_B c i arg1 harg1 arg2 harg2 arg3 harg3 hc0 x0 xo1 xo2).1 S1x64.size (by sl_kernel_rfl) y
theorem cover1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) (y : S1x64.Idx) :
    ∃ pc ∈ (kernelRun1_B c i arg1 harg1 arg2 harg2 arg3 harg3 hc0 x0 xo1 xo2).2.1, y ∈ pc.1.set :=
  View.cover_of_tiledL (kernelRun1_B c i arg1 harg1 arg2 harg2 arg3 harg3 hc0 x0 xo1 xo2).2.1 S1x64.size (by sl_kernel_rfl) y

/-- What a later point leaves in each output's staging buffer, over what the point before left (`xo1`, `xo2`). -/
def out1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) : Vec F S1x64 .f32 :=
  VO1_1.read (Elt F) (VO1_1.writes (Elt F) VO1_1.junk (kernelRun1_B c i arg1 harg1 arg2 harg2 arg3 harg3 hc0 x0 xo1 xo2).1)
def out1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) : Vec F S1x64 .f32 :=
  VO1_2.read (Elt F) (VO1_2.writes (Elt F) VO1_2.junk (kernelRun1_B c i arg1 harg1 arg2 harg2 arg3 harg3 hc0 x0 xo1 xo2).2.1)

/-- THE ACCUMULATION. What the two outputs' staging buffers hold after the body at position `n`: the first point's
    contents at `n = 0`, a later point's over what position `n - 1` left. -/
def outsAt1 (c : Dev nD) : (n : ℕ) → n < cfg1.N → Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩),
              out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩))
  | n + 1, hn =>
    if h0 : (n + 1) % 20 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩),
       out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2,
       out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2)

/-- `outsAt1` at the first point. -/
theorem outsAt1_A (c : Dev nD) (t : Fin cfg1.N) (h0 : t.val % 20 = 0) :
    outsAt1 V c t.val t.isLt = (out1_A_1 c (grid1.coords t) (ms1_0 t) (hs1_0 t) (ms1_1 t) (hs1_1 t) (ms1_2 t) (hs1_2 t) ((hcond1_0 t).mpr h0) (iblk1 V c 0 t),
      out1_A_2 c (grid1.coords t) (ms1_0 t) (hs1_0 t) (ms1_1 t) (hs1_1 t) (ms1_2 t) (hs1_2 t) ((hcond1_0 t).mpr h0) (iblk1 V c 0 t)) := by
  obtain ⟨n, hn⟩ := t
  cases n with
  | zero => exact rfl
  | succ n => exact (dif_pos h0).trans rfl

/-- `outsAt1` at a later point: over what the point before left. -/
theorem outsAt1_B (c : Dev nD) (t : Fin cfg1.N) (h0 : ¬t.val % 20 = 0) :
    outsAt1 V c t.val t.isLt = (out1_B_1 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2,
      out1_B_2 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of the second call on core `c`: the array as found; the input's buffer left at its block, the two
    outputs' at the running sums `outsAt1`; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
/-- At a later point each output's staging buffer holds what the body left at the point before: it is written back only
    after the last point. -/
theorem before1_1_B (c : Dev nD) (t : Fin cfg1.N) (h0 : ¬t.val % 20 = 0) (d) :
    (dat1 V c).before 1 t d = (outsAt1 V c (t.val - 1) (Nat.lt_of_le_of_lt (Nat.sub_le _ _) t.isLt)).1 := by
  have hN : t.val < 20 := lt_of_lt_of_eq t.isLt (show cfg1.N = 20 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_B (c : Dev nD) (t : Fin cfg1.N) (h0 : ¬t.val % 20 = 0) (d) :
    (dat1 V c).before 2 t d = (outsAt1 V c (t.val - 1) (Nat.lt_of_le_of_lt (Nat.sub_le _ _) t.isLt)).2 := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 20 = 0
  · rw [outsAt1_A V c t h0]
    dsimp only
    unfold out1_A_1 out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _)
    unfold owns; iexists _; isplitr
    swap; · iexact H2
    ipureintro; exact View.read_writes_of_cover _ _ _ _ _ (cover1_A_2 c _ _ _ _ _ _ _ _ _)
  · rw [outsAt1_B V c t h0]
    dsimp only
    simp only [before1_1_B V c t h0, before1_2_B V c t h0]
    unfold out1_B_1 out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_B_1 c _ _ _ _ _ _ _ _ _ _ _)
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.R2.lean ====
import proofs.«105424_j83674552861285_1_alg».proof.Proof.Gen.Kernel.Launch
import proofs.«105424_j83674552861285_1_alg».proof.Proof.Gen.Kernel.Skeleton
import proofs.«105424_j83674552861285_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third call: one 20000-row block of `max(y · scale + shift, 0) · Wy + skip · Ws` per grid point

Entry contents `V` are a parameter: the run instantiates them at what the host operations before the call leave. -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of call 2: its current staging buffer holds its block of the entry array at every point,
    whether the pipeline fetched it there or the block index stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of call 2: its current staging buffer holds its block of the entry array at every point,
    whether the pipeline fetched it there or the block index stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of call 2: its current staging buffer holds its block of the entry array at every point,
    whether the pipeline fetched it there or the block index stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of call 2: its current staging buffer holds its block of the entry array at every point,
    whether the pipeline fetched it there or the block index stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 of call 2: its current staging buffer holds its block of the entry array at every point,
    whether the pipeline fetched it there or the block index stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 of call 2: its current staging buffer holds its block of the entry array at every point,
    whether the pipeline fetched it there or the block index stood still since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S20000x64 := Rect.unit (s := S20000x64) ![0, 0] S20000x64.size inb_S20000x64_S20000x64_0_0
abbrev r2_1 : Rect S20000x64 := Rect.unit (s := S20000x64) ![0, 0] S20000x64.size inb_S20000x64_S20000x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S64x64 := Rect.unit (s := S64x64) ![0, 0] S64x64.size inb_S64x64_S64x64_0_0
abbrev r2_5 : Rect S64x64 := Rect.unit (s := S64x64) ![0, 0] S64x64.size inb_S64x64_S64x64_0_0
abbrev r2_6 : Rect S20000x64 := Rect.unit (s := S20000x64) ![0, 0] S20000x64.size inb_S20000x64_S20000x64_0_0

/-- The output buffer after the body: the one store's payload over the loaded input blocks. -/
def out2_6 (x0 : Vec F S20000x64 .f32) (x1 : Vec F S20000x64 .f32) (x2 : Vec F S1x64 .f32) (x3 : Vec F S1x64 .f32) (x4 : Vec F S64x64 .f32) (x5 : Vec F S64x64 .f32) : Vec F S20000x64 .f32 :=
  View.canon [⟨r2_6, k2_pay1 (View.ld x0 r2_0) (View.ld x2 r2_2) (View.ld x3 r2_3) (View.ld x4 r2_4) (View.ld x1 r2_1) (View.ld x5 r2_5)⟩]

/-- The one store covers the output buffer. -/
theorem cover2_6 (p0 : Vec F S20000x64 .f32) (y : S20000x64.Idx) :
    ∃ pc ∈ ([⟨r2_6, p0⟩] : List (View.Piece (Elt F) S20000x64 .f32)), y ∈ pc.1.set :=
  View.cover_of_tiled [⟨r2_6, p0⟩] S20000x64.size (by rfl) y

set_option maxHeartbeats 1000000 in
/-- The body's triple: from the inputs at `x·` and the output at anything, to the inputs unchanged and the output at
    `out2_6` of them. -/
theorem sound_kernel2 (c : Dev nD) (E : Set ℕ) (i : grid2.Coords) (arg1 : Memref sig .tc .vmem S20000x64 .f32) (harg1 : arg1.IsWhole) (arg2 : Memref sig .tc .vmem S20000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S20000x64 .f32) (harg7 : arg7.IsWhole)
    (x0 : Vec F S20000x64 .f32) (x1 : Vec F S20000x64 .f32) (x2 : Vec F S1x64 .f32) (x3 : Vec F S1x64 .f32) (x4 : Vec F S64x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__fuse_kernel i arg1 harg1 arg2 harg2 arg3 harg3 arg4 harg4 arg5 harg5 arg6 harg6 arg7 harg7) K := by
  simp only [cc2__fuse_kernel_eq_skeleton]; unfold cc2__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2_6 _)

/-- The proof data of this call on core `c`: the arrays as found; each input's buffer left at its block, the output's at
    `out2_6` of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Run.lean ====
import proofs.«105424_j83674552861285_1_alg».proof.Proof.Gen.Kernel.Launch
import proofs.«105424_j83674552861285_1_alg».proof.Proof.Gen.Kernel.Skeleton
import proofs.«105424_j83674552861285_1_alg».proof.Proof.Gen.Kernel.Points
import proofs.«105424_j83674552861285_1_alg».proof.Proof.KB.R0
import proofs.«105424_j83674552861285_1_alg».proof.Proof.KB.R1
import proofs.«105424_j83674552861285_1_alg».proof.Proof.KB.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host operations, the three calls, and what every buffer holds at each boundary

The contents of the core's buffers are followed from the launch memory through the six stretches of the program: a
stretch of host operations applies them in order; a call leaves its arrays at what its write-backs fold to and every
other buffer alone. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the weight slabs laid side by side): the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (gathers, the join, the scatter): the second call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After call 1: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (scale and shift from the sums; the two halves of the fuse matrix): the third call's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After call 2: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg0) = W0 m ρ c (Proc.devRef .tc main_arg0)).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0)) : W2 m ρ c (Proc.devRef .tc main_arg0) = W1 m ρ c (Proc.devRef .tc main_arg0)).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg0) = W2 m ρ c (Proc.devRef .tc main_arg0)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg0) = W4 m ρ c (Proc.devRef .tc main_arg0)).trans (W4_main_arg0 m ρ c)
theorem W6_main_arg0 (c : Dev nD) : W6 m ρ c (Proc.devRef .tc main_arg0) = m ((c : Thread nD τ).loc main_arg0) :=
  (W6_of_ne m ρ c main_arg0 (by decide) : W6 m ρ c (Proc.devRef .tc main_arg0) = W5 m ρ c (Proc.devRef .tc main_arg0)).trans (W5_main_arg0 m ρ c)

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg1) = W0 m ρ c (Proc.devRef .tc main_arg1)).trans rfl
theorem W2_main_arg1 (c : Dev nD) : W2 m ρ c (Proc.devRef .tc main_arg1) = m ((c : Thread nD τ).loc main_arg1) :=
  (W2_of_ne m ρ c main_arg1 (by decide) : W2 m ρ c (Proc.devRef .tc main_arg1) = W1 m ρ c (Proc.devRef .tc main_arg1)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg1) = W2 m ρ c (Proc.devRef .tc main_arg1)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg1) = W4 m ρ c (Proc.devRef .tc main_arg1)).trans (W4_main_arg1 m ρ c)
theorem W6_main_arg1 (c : Dev nD) : W6 m ρ c (Proc.devRef .tc main_arg1) = m ((c : Thread nD τ).loc main_arg1) :=
  ((W6_arr m ρ c 1).trans (((dat2 (V5 m ρ) c).arrAt_in 1 rfl _).trans (A_eq2 (V5 m ρ) c 1)) : W6 m ρ c (Proc.devRef .tc main_arg1) = W5 m ρ c (Proc.devRef .tc main_arg1)).trans (W5_main_arg1 m ρ c)

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg2) = W0 m ρ c (Proc.devRef .tc main_arg2)).trans rfl
theorem W2_main_arg2 (c : Dev nD) : W2 m ρ c (Proc.devRef .tc main_arg2) = m ((c : Thread nD τ).loc main_arg2) :=
  (W2_of_ne m ρ c main_arg2 (by decide) : W2 m ρ c (Proc.devRef .tc main_arg2) = W1 m ρ c (Proc.devRef .tc main_arg2)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg2) = W2 m ρ c (Proc.devRef .tc main_arg2)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg2) = W4 m ρ c (Proc.devRef .tc main_arg2)).trans (W4_main_arg2 m ρ c)
theorem W6_main_arg2 (c : Dev nD) : W6 m ρ c (Proc.devRef .tc main_arg2) = m ((c : Thread nD τ).loc main_arg2) :=
  (W6_of_ne m ρ c main_arg2 (by decide) : W6 m ρ c (Proc.devRef .tc main_arg2) = W5 m ρ c (Proc.devRef .tc main_arg2)).trans (W5_main_arg2 m ρ c)

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg3) = W0 m ρ c (Proc.devRef .tc main_arg3)).trans rfl
theorem W2_main_arg3 (c : Dev nD) : W2 m ρ c (Proc.devRef .tc main_arg3) = m ((c : Thread nD τ).loc main_arg3) :=
  (W2_of_ne m ρ c main_arg3 (by decide) : W2 m ρ c (Proc.devRef .tc main_arg3) = W1 m ρ c (Proc.devRef .tc main_arg3)).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg3) = W2 m ρ c (Proc.devRef .tc main_arg3)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg3) = W4 m ρ c (Proc.devRef .tc main_arg3)).trans (W4_main_arg3 m ρ c)
theorem W6_main_arg3 (c : Dev nD) : W6 m ρ c (Proc.devRef .tc main_arg3) = m ((c : Thread nD τ).loc main_arg3) :=
  (W6_of_ne m ρ c main_arg3 (by decide) : W6 m ρ c (Proc.devRef .tc main_arg3) = W5 m ρ c (Proc.devRef .tc main_arg3)).trans (W5_main_arg3 m ρ c)

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg4) = W0 m ρ c (Proc.devRef .tc main_arg4)).trans rfl
theorem W2_main_arg4 (c : Dev nD) : W2 m ρ c (Proc.devRef .tc main_arg4) = m ((c : Thread nD τ).loc main_arg4) :=
  (W2_of_ne m ρ c main_arg4 (by decide) : W2 m ρ c (Proc.devRef .tc main_arg4) = W1 m ρ c (Proc.devRef .tc main_arg4)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg4) = W2 m ρ c (Proc.devRef .tc main_arg4)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg4) = W4 m ρ c (Proc.devRef .tc main_arg4)).trans (W4_main_arg4 m ρ c)
theorem W6_main_arg4 (c : Dev nD) : W6 m ρ c (Proc.devRef .tc main_arg4) = m ((c : Thread nD τ).loc main_arg4) :=
  (W6_of_ne m ρ c main_arg4 (by decide) : W6 m ρ c (Proc.devRef .tc main_arg4) = W5 m ρ c (Proc.devRef .tc main_arg4)).trans (W5_main_arg4 m ρ c)

theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg5) = W0 m ρ c (Proc.devRef .tc main_arg5)).trans rfl
theorem W2_main_arg5 (c : Dev nD) : W2 m ρ c (Proc.devRef .tc main_arg5) = m ((c : Thread nD τ).loc main_arg5) :=
  (W2_of_ne m ρ c main_arg5 (by decide) : W2 m ρ c (Proc.devRef .tc main_arg5) = W1 m ρ c (Proc.devRef .tc main_arg5)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg5) = W2 m ρ c (Proc.devRef .tc main_arg5)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg5) = W4 m ρ c (Proc.devRef .tc main_arg5)).trans (W4_main_arg5 m ρ c)
theorem W6_main_arg5 (c : Dev nD) : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (W5_main_arg5 m ρ c)

theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg6) = W0 m ρ c (Proc.devRef .tc main_arg6)).trans rfl
theorem W2_main_arg6 (c : Dev nD) : W2 m ρ c (Proc.devRef .tc main_arg6) = m ((c : Thread nD τ).loc main_arg6) :=
  (W2_of_ne m ρ c main_arg6 (by decide) : W2 m ρ c (Proc.devRef .tc main_arg6) = W1 m ρ c (Proc.devRef .tc main_arg6)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg6) = W2 m ρ c (Proc.devRef .tc main_arg6)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg6) = W4 m ρ c (Proc.devRef .tc main_arg6)).trans (W4_main_arg6 m ρ c)
theorem W6_main_arg6 (c : Dev nD) : W6 m ρ c (Proc.devRef .tc main_arg6) = m ((c : Thread nD τ).loc main_arg6) :=
  (W6_of_ne m ρ c main_arg6 (by decide) : W6 m ρ c (Proc.devRef .tc main_arg6) = W5 m ρ c (Proc.devRef .tc main_arg6)).trans (W5_main_arg6 m ρ c)

theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg7) = W0 m ρ c (Proc.devRef .tc main_arg7)).trans rfl
theorem W2_main_arg7 (c : Dev nD) : W2 m ρ c (Proc.devRef .tc main_arg7) = m ((c : Thread nD τ).loc main_arg7) :=
  (W2_of_ne m ρ c main_arg7 (by decide) : W2 m ρ c (Proc.devRef .tc main_arg7) = W1 m ρ c (Proc.devRef .tc main_arg7)).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg7) = W2 m ρ c (Proc.devRef .tc main_arg7)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg7) = W4 m ρ c (Proc.devRef .tc main_arg7)).trans (W4_main_arg7 m ρ c)
theorem W6_main_arg7 (c : Dev nD) : W6 m ρ c (Proc.devRef .tc main_arg7) = m ((c : Thread nD τ).loc main_arg7) :=
  (W6_of_ne m ρ c main_arg7 (by decide) : W6 m ρ c (Proc.devRef .tc main_arg7) = W5 m ρ c (Proc.devRef .tc main_arg7)).trans (W5_main_arg7 m ρ c)

/-! ## The proof data family and the thread state -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment: entered with every unscoped buffer at the contents the segment before left, its arrays split out and
    put back at what its write-backs leave, the generator register lent to the body and returned, nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents the segment before left, its arrays split out and
    put back at what its write-backs leave, the generator register lent to the body and returned, nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at the contents the segment before left, its arrays split out and
    put back at what its write-backs leave, the generator register lent to the body and returned, nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
set_option maxHeartbeats 4000000 in
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result array ends at what the third call's write-backs fold to. -/
theorem W6_main_v144 (c : Dev nD) : W6 m ρ c (Proc.devRef .tc main_v144) = (dat2 (V5 m ρ) c).arrAt 6 cfg2.N :=
  W6_arr m ρ c 6

/-- THE FRAME with the result named: the run ends with the result array at the third call's folded write-backs and
    every argument array as launched. -/
theorem run_named : θ_run defs (onTc (τ := τ) (main (F := F))) ⟨m, fun _ => 0, ρ⟩ (fun r => ∀ c : Dev nD,
      r.2.mem ((c.tc : Thread nD τ).loc main_v144) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨(h c _ (mem_uc main_v144 (by decide))).trans (W6_main_v144 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c => (h c).2) (run_named m ρ)

end Cert.Kernel.Fr

end
-- ==== Proof.KI.R0.lean ====
import proofs.«105424_j83674552861285_1_alg».proof.Proof.Gen.KernelIdeal.Launch
import proofs.«105424_j83674552861285_1_alg».proof.Proof.Gen.KernelIdeal.Skeleton
import proofs.«105424_j83674552861285_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call: one row block of the product `x · Wflat` per grid point

Entry contents `V` are a parameter: the run instantiates them at what the host prefix leaves. -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: its current staging buffer holds its block of the entry array at every point,
    whether the pipeline fetched it there or the block index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of call 0: its current staging buffer holds its block of the entry array at every point,
    whether the pipeline fetched it there or the block index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x128 := Rect.unit (s := S5000x128) ![0, 0] S5000x128.size inb_S5000x128_S5000x128_0_0
abbrev r0_1 : Rect S128x512 := Rect.unit (s := S128x512) ![0, 0] S128x512.size inb_S128x512_S128x512_0_0
abbrev r0_2 : Rect S5000x512 := Rect.unit (s := S5000x512) ![0, 0] S5000x512.size inb_S5000x512_S5000x512_0_0

/-- The output buffer after the body: the one store's payload, the 5000×128 row block times the 128×512 weights. -/
def out0_2 (x0 : Vec F S5000x128 .f32) (x1 : Vec F S128x512 .f32) : Vec F S5000x512 .f32 :=
  View.canon [⟨r0_2, k0_pay1 (View.ld x0 r0_0) (View.ld x1 r0_1)⟩]

/-- The one store covers the output buffer. -/
theorem cover0_2 (p0 : Vec F S5000x512 .f32) (y : S5000x512.Idx) :
    ∃ pc ∈ ([⟨r0_2, p0⟩] : List (View.Piece (Elt F) S5000x512 .f32)), y ∈ pc.1.set :=
  View.cover_of_tiled [⟨r0_2, p0⟩] S5000x512.size (by rfl) y

set_option maxHeartbeats 1000000 in
/-- The body's triple: from the two inputs at `x0`, `x1` and the output at anything, to the inputs unchanged and the
    output at `out0_2 x0 x1`. -/
theorem sound_kernel0 (c : Dev nD) (E : Set ℕ) (i : grid0.Coords) (arg1 : Memref sig .tc .vmem S5000x128 .f32) (harg1 : arg1.IsWhole) (arg2 : Memref sig .tc .vmem S128x512 .f32) (harg2 : arg2.IsWhole) (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first call on core `c`: the arrays as found; each input's buffer left at its block, the output's
    at the product of the two input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1A.lean ====
import proofs.«105424_j83674552861285_1_alg».proof.Proof.Gen.KernelIdeal.Launch
import proofs.«105424_j83674552861285_1_alg».proof.Proof.Gen.KernelIdeal.Skeleton
import proofs.«105424_j83674552861285_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: per-channel sums of `y` and of `y²`, accumulated over the 20 row blocks

Its two outputs keep one 1×64 block for the whole grid: the first point zeroes them and adds its block's sums, every later
point adds to what the point before left. This module holds what the two cases share and the first case's run. -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: its current staging buffer holds its block of the entry array at every point,
    whether the pipeline fetched it there or the block index stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "this is the first row block". -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- One staging buffer of each output window, through which its contents are stated. -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, and its wholeness. -/
abbrev ms1_0 (t : Fin cfg1.N) : Memref sig .tc .vmem S20000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)

set_option maxHeartbeats 1000000 in
/-- The first point's run: the stores each output buffer ends with, as pieces (last first), with the proof that from the
    input block at `x0` and the outputs at anything the body runs to the input unchanged and each output with its pieces written. -/
noncomputable def kernelRun1_A (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K } := by
  refine ⟨?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Fr

end
-- ==== Proof.KI.R1B.lean ====
import proofs.«105424_j83674552861285_1_alg».proof.Proof.Gen.KernelIdeal.Launch
import proofs.«105424_j83674552861285_1_alg».proof.Proof.Gen.KernelIdeal.Skeleton
import proofs.«105424_j83674552861285_1_alg».proof.Proof.Gen.KernelIdeal.Points
import proofs.«105424_j83674552861285_1_alg».proof.Proof.KI.R1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call, at a later point: both outputs are read before they are stored, so they enter at what the point
before left (`xo1`, `xo2`). -/

set_option maxHeartbeats 1000000 in
noncomputable def kernelRun1_B (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K } := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Fr

end
-- ==== Proof.KI.R1.lean ====
import proofs.«105424_j83674552861285_1_alg».proof.Proof.Gen.KernelIdeal.Launch
import proofs.«105424_j83674552861285_1_alg».proof.Proof.Gen.KernelIdeal.Skeleton
import proofs.«105424_j83674552861285_1_alg».proof.Proof.Gen.KernelIdeal.Points
import proofs.«105424_j83674552861285_1_alg».proof.Proof.KI.R1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: what its two accumulators hold after each point, its proof data and its body obligation -/

variable (V : (c : Dev nD) → (b : Ref sig .tc) → Buf (Elt F) ((c : Thread nD τ).loc b))

/-- The first point's pieces tile each output block, so they cover it. -/
theorem cover1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) (y : S1x64.Idx) :
    ∃ pc ∈ (kernelRun1_A c i arg1 harg1 arg2 harg2 arg3 harg3 hc0 x0).1, y ∈ pc.1.set :=
  View.cover_of_tiledL (kernelRun1_A c i arg1 harg1 arg2 harg2 arg3 harg3 hc0 x0).1 S1x64.size (by sl_kernel_rfl) y
theorem cover1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) (y : S1x64.Idx) :
    ∃ pc ∈ (kernelRun1_A c i arg1 harg1 arg2 harg2 arg3 harg3 hc0 x0).2.1, y ∈ pc.1.set :=
  View.cover_of_tiledL (kernelRun1_A c i arg1 harg1 arg2 harg2 arg3 harg3 hc0 x0).2.1 S1x64.size (by sl_kernel_rfl) y

/-- What the first point leaves in each output's staging buffer: its pieces read back. -/
def out1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) : Vec F S1x64 .f32 :=
  VO1_1.read (Elt F) (VO1_1.writes (Elt F) VO1_1.junk (kernelRun1_A c i arg1 harg1 arg2 harg2 arg3 harg3 hc0 x0).1)
def out1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1_0 i)
    (x0 : Vec F S20000x64 .f32) : Vec F S1x64 .f32 :=
  VO1_2.read (Elt F) (VO1_2.writes (Elt F) VO1_2.junk (kernelRun1_A c i arg1 harg1 arg2 harg2 arg3 harg3 hc0 x0).2.1)

/-- A later point's pieces tile each output block, so they cover it. -/
theorem cover1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) (y : S1x64.Idx) :
    ∃ pc ∈ (kernelRun1_B c i arg1 harg1 arg2 harg2 arg3 harg3 hc0 x0 xo1 xo2).1, y ∈ pc.1.set :=
  View.cover_of_tiledL (kernelRun1_B c i arg1 harg1 arg2 harg2 arg3 harg3 hc0 x0 xo1 xo2).1 S1x64.size (by sl_kernel_rfl) y
theorem cover1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) (y : S1x64.Idx) :
    ∃ pc ∈ (kernelRun1_B c i arg1 harg1 arg2 harg2 arg3 harg3 hc0 x0 xo1 xo2).2.1, y ∈ pc.1.set :=
  View.cover_of_tiledL (kernelRun1_B c i arg1 harg1 arg2 harg2 arg3 harg3 hc0 x0 xo1 xo2).2.1 S1x64.size (by sl_kernel_rfl) y

/-- What a later point leaves in each output's staging buffer, over what the point before left (`xo1`, `xo2`). -/
def out1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) : Vec F S1x64 .f32 :=
  VO1_1.read (Elt F) (VO1_1.writes (Elt F) VO1_1.junk (kernelRun1_B c i arg1 harg1 arg2 harg2 arg3 harg3 hc0 x0 xo1 xo2).1)
def out1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1_0 i)
    (x0 : Vec F S20000x64 .f32) (xo1 xo2 : Vec F S1x64 .f32) : Vec F S1x64 .f32 :=
  VO1_2.read (Elt F) (VO1_2.writes (Elt F) VO1_2.junk (kernelRun1_B c i arg1 harg1 arg2 harg2 arg3 harg3 hc0 x0 xo1 xo2).2.1)

/-- THE ACCUMULATION. What the two outputs' staging buffers hold after the body at position `n`: the first point's
    contents at `n = 0`, a later point's over what position `n - 1` left. -/
def outsAt1 (c : Dev nD) : (n : ℕ) → n < cfg1.N → Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩),
              out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩))
  | n + 1, hn =>
    if h0 : (n + 1) % 20 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩),
       out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2,
       out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2)

/-- `outsAt1` at the first point. -/
theorem outsAt1_A (c : Dev nD) (t : Fin cfg1.N) (h0 : t.val % 20 = 0) :
    outsAt1 V c t.val t.isLt = (out1_A_1 c (grid1.coords t) (ms1_0 t) (hs1_0 t) (ms1_1 t) (hs1_1 t) (ms1_2 t) (hs1_2 t) ((hcond1_0 t).mpr h0) (iblk1 V c 0 t),
      out1_A_2 c (grid1.coords t) (ms1_0 t) (hs1_0 t) (ms1_1 t) (hs1_1 t) (ms1_2 t) (hs1_2 t) ((hcond1_0 t).mpr h0) (iblk1 V c 0 t)) := by
  obtain ⟨n, hn⟩ := t
  cases n with
  | zero => exact rfl
  | succ n => exact (dif_pos h0).trans rfl

/-- `outsAt1` at a later point: over what the point before left. -/
theorem outsAt1_B (c : Dev nD) (t : Fin cfg1.N) (h0 : ¬t.val % 20 = 0) :
    outsAt1 V c t.val t.isLt = (out1_B_1 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2,
      out1_B_2 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of the second call on core `c`: the array as found; the input's buffer left at its block, the two
    outputs' at the running sums `outsAt1`; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
/-- At a later point each output's staging buffer holds what the body left at the point before: it is written back only
    after the last point. -/
theorem before1_1_B (c : Dev nD) (t : Fin cfg1.N) (h0 : ¬t.val % 20 = 0) (d) :
    (dat1 V c).before 1 t d = (outsAt1 V c (t.val - 1) (Nat.lt_of_le_of_lt (Nat.sub_le _ _) t.isLt)).1 := by
  have hN : t.val < 20 := lt_of_lt_of_eq t.isLt (show cfg1.N = 20 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_B (c : Dev nD) (t : Fin cfg1.N) (h0 : ¬t.val % 20 = 0) (d) :
    (dat1 V c).before 2 t d = (outsAt1 V c (t.val - 1) (Nat.lt_of_le_of_lt (Nat.sub_le _ _) t.isLt)).2 := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 20 = 0
  · rw [outsAt1_A V c t h0]
    dsimp only
    unfold out1_A_1 out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _)
    unfold owns; iexists _; isplitr
    swap; · iexact H2
    ipureintro; exact View.read_writes_of_cover _ _ _ _ _ (cover1_A_2 c _ _ _ _ _ _ _ _ _)
  · rw [outsAt1_B V c t h0]
    dsimp only
    simp only [before1_1_B V c t h0, before1_2_B V c t h0]
    unfold out1_B_1 out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_B_1 c _ _ _ _ _ _ _ _ _ _ _)
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
import proofs.«105424_j83674552861285_1_alg».proof.Proof.Gen.KernelIdeal.Launch
import proofs.«105424_j83674552861285_1_alg».proof.Proof.Gen.KernelIdeal.Skeleton
import proofs.«105424_j83674552861285_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third call: one 20000-row block of `max(y · scale + shift, 0) · Wy + skip · Ws` per grid point

Entry contents `V` are a parameter: the run instantiates them at what the host operations before the call leave. -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of call 2: its current staging buffer holds its block of the entry array at every point,
    whether the pipeline fetched it there or the block index stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of call 2: its current staging buffer holds its block of the entry array at every point,
    whether the pipeline fetched it there or the block index stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of call 2: its current staging buffer holds its block of the entry array at every point,
    whether the pipeline fetched it there or the block index stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of call 2: its current staging buffer holds its block of the entry array at every point,
    whether the pipeline fetched it there or the block index stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 of call 2: its current staging buffer holds its block of the entry array at every point,
    whether the pipeline fetched it there or the block index stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 of call 2: its current staging buffer holds its block of the entry array at every point,
    whether the pipeline fetched it there or the block index stood still since the last fetch. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S20000x64 := Rect.unit (s := S20000x64) ![0, 0] S20000x64.size inb_S20000x64_S20000x64_0_0
abbrev r2_1 : Rect S20000x64 := Rect.unit (s := S20000x64) ![0, 0] S20000x64.size inb_S20000x64_S20000x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S64x64 := Rect.unit (s := S64x64) ![0, 0] S64x64.size inb_S64x64_S64x64_0_0
abbrev r2_5 : Rect S64x64 := Rect.unit (s := S64x64) ![0, 0] S64x64.size inb_S64x64_S64x64_0_0
abbrev r2_6 : Rect S20000x64 := Rect.unit (s := S20000x64) ![0, 0] S20000x64.size inb_S20000x64_S20000x64_0_0

/-- The output buffer after the body: the one store's payload over the loaded input blocks. -/
def out2_6 (x0 : Vec F S20000x64 .f32) (x1 : Vec F S20000x64 .f32) (x2 : Vec F S1x64 .f32) (x3 : Vec F S1x64 .f32) (x4 : Vec F S64x64 .f32) (x5 : Vec F S64x64 .f32) : Vec F S20000x64 .f32 :=
  View.canon [⟨r2_6, k2_pay1 (View.ld x0 r2_0) (View.ld x2 r2_2) (View.ld x3 r2_3) (View.ld x4 r2_4) (View.ld x1 r2_1) (View.ld x5 r2_5)⟩]

/-- The one store covers the output buffer. -/
theorem cover2_6 (p0 : Vec F S20000x64 .f32) (y : S20000x64.Idx) :
    ∃ pc ∈ ([⟨r2_6, p0⟩] : List (View.Piece (Elt F) S20000x64 .f32)), y ∈ pc.1.set :=
  View.cover_of_tiled [⟨r2_6, p0⟩] S20000x64.size (by rfl) y

set_option maxHeartbeats 1000000 in
/-- The body's triple: from the inputs at `x·` and the output at anything, to the inputs unchanged and the output at
    `out2_6` of them. -/
theorem sound_kernel2 (c : Dev nD) (E : Set ℕ) (i : grid2.Coords) (arg1 : Memref sig .tc .vmem S20000x64 .f32) (harg1 : arg1.IsWhole) (arg2 : Memref sig .tc .vmem S20000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S20000x64 .f32) (harg7 : arg7.IsWhole)
    (x0 : Vec F S20000x64 .f32) (x1 : Vec F S20000x64 .f32) (x2 : Vec F S1x64 .f32) (x3 : Vec F S1x64 .f32) (x4 : Vec F S64x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__fuse_kernel i arg1 harg1 arg2 harg2 arg3 harg3 arg4 harg4 arg5 harg5 arg6 harg6 arg7 harg7) K := by
  simp only [cc2__fuse_kernel_eq_skeleton]; unfold cc2__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2_6 _)

/-- The proof data of this call on core `c`: the arrays as found; each input's buffer left at its block, the output's at
    `out2_6` of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
import proofs.«105424_j83674552861285_1_alg».proof.Proof.Gen.KernelIdeal.Launch
import proofs.«105424_j83674552861285_1_alg».proof.Proof.Gen.KernelIdeal.Skeleton
import proofs.«105424_j83674552861285_1_alg».proof.Proof.Gen.KernelIdeal.Points
import proofs.«105424_j83674552861285_1_alg».proof.Proof.KI.R0
import proofs.«105424_j83674552861285_1_alg».proof.Proof.KI.R1
import proofs.«105424_j83674552861285_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host operations, the three calls, and what every buffer holds at each boundary

The contents of the core's buffers are followed from the launch memory through the six stretches of the program: a
stretch of host operations applies them in order; a call leaves its arrays at what its write-backs fold to and every
other buffer alone. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the weight slabs laid side by side): the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (gathers, the join, the scatter): the second call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After call 1: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (scale and shift from the sums; the two halves of the fuse matrix): the third call's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After call 2: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg0) = W0 m ρ c (Proc.devRef .tc main_arg0)).trans rfl
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0)) : W2 m ρ c (Proc.devRef .tc main_arg0) = W1 m ρ c (Proc.devRef .tc main_arg0)).trans (W1_main_arg0 m ρ c)
theorem W3_main_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg0) = W2 m ρ c (Proc.devRef .tc main_arg0)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg0) = W4 m ρ c (Proc.devRef .tc main_arg0)).trans (W4_main_arg0 m ρ c)
theorem W6_main_arg0 (c : Dev nD) : W6 m ρ c (Proc.devRef .tc main_arg0) = m ((c : Thread nD τ).loc main_arg0) :=
  (W6_of_ne m ρ c main_arg0 (by decide) : W6 m ρ c (Proc.devRef .tc main_arg0) = W5 m ρ c (Proc.devRef .tc main_arg0)).trans (W5_main_arg0 m ρ c)

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg1) = W0 m ρ c (Proc.devRef .tc main_arg1)).trans rfl
theorem W2_main_arg1 (c : Dev nD) : W2 m ρ c (Proc.devRef .tc main_arg1) = m ((c : Thread nD τ).loc main_arg1) :=
  (W2_of_ne m ρ c main_arg1 (by decide) : W2 m ρ c (Proc.devRef .tc main_arg1) = W1 m ρ c (Proc.devRef .tc main_arg1)).trans (W1_main_arg1 m ρ c)
theorem W3_main_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg1) = W2 m ρ c (Proc.devRef .tc main_arg1)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg1) = W4 m ρ c (Proc.devRef .tc main_arg1)).trans (W4_main_arg1 m ρ c)
theorem W6_main_arg1 (c : Dev nD) : W6 m ρ c (Proc.devRef .tc main_arg1) = m ((c : Thread nD τ).loc main_arg1) :=
  ((W6_arr m ρ c 1).trans (((dat2 (V5 m ρ) c).arrAt_in 1 rfl _).trans (A_eq2 (V5 m ρ) c 1)) : W6 m ρ c (Proc.devRef .tc main_arg1) = W5 m ρ c (Proc.devRef .tc main_arg1)).trans (W5_main_arg1 m ρ c)

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg2) = W0 m ρ c (Proc.devRef .tc main_arg2)).trans rfl
theorem W2_main_arg2 (c : Dev nD) : W2 m ρ c (Proc.devRef .tc main_arg2) = m ((c : Thread nD τ).loc main_arg2) :=
  (W2_of_ne m ρ c main_arg2 (by decide) : W2 m ρ c (Proc.devRef .tc main_arg2) = W1 m ρ c (Proc.devRef .tc main_arg2)).trans (W1_main_arg2 m ρ c)
theorem W3_main_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg2) = W2 m ρ c (Proc.devRef .tc main_arg2)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg2) = W4 m ρ c (Proc.devRef .tc main_arg2)).trans (W4_main_arg2 m ρ c)
theorem W6_main_arg2 (c : Dev nD) : W6 m ρ c (Proc.devRef .tc main_arg2) = m ((c : Thread nD τ).loc main_arg2) :=
  (W6_of_ne m ρ c main_arg2 (by decide) : W6 m ρ c (Proc.devRef .tc main_arg2) = W5 m ρ c (Proc.devRef .tc main_arg2)).trans (W5_main_arg2 m ρ c)

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg3) = W0 m ρ c (Proc.devRef .tc main_arg3)).trans rfl
theorem W2_main_arg3 (c : Dev nD) : W2 m ρ c (Proc.devRef .tc main_arg3) = m ((c : Thread nD τ).loc main_arg3) :=
  (W2_of_ne m ρ c main_arg3 (by decide) : W2 m ρ c (Proc.devRef .tc main_arg3) = W1 m ρ c (Proc.devRef .tc main_arg3)).trans (W1_main_arg3 m ρ c)
theorem W3_main_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg3) = W2 m ρ c (Proc.devRef .tc main_arg3)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg3) = W4 m ρ c (Proc.devRef .tc main_arg3)).trans (W4_main_arg3 m ρ c)
theorem W6_main_arg3 (c : Dev nD) : W6 m ρ c (Proc.devRef .tc main_arg3) = m ((c : Thread nD τ).loc main_arg3) :=
  (W6_of_ne m ρ c main_arg3 (by decide) : W6 m ρ c (Proc.devRef .tc main_arg3) = W5 m ρ c (Proc.devRef .tc main_arg3)).trans (W5_main_arg3 m ρ c)

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg4) = W0 m ρ c (Proc.devRef .tc main_arg4)).trans rfl
theorem W2_main_arg4 (c : Dev nD) : W2 m ρ c (Proc.devRef .tc main_arg4) = m ((c : Thread nD τ).loc main_arg4) :=
  (W2_of_ne m ρ c main_arg4 (by decide) : W2 m ρ c (Proc.devRef .tc main_arg4) = W1 m ρ c (Proc.devRef .tc main_arg4)).trans (W1_main_arg4 m ρ c)
theorem W3_main_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg4) = W2 m ρ c (Proc.devRef .tc main_arg4)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg4) = W4 m ρ c (Proc.devRef .tc main_arg4)).trans (W4_main_arg4 m ρ c)
theorem W6_main_arg4 (c : Dev nD) : W6 m ρ c (Proc.devRef .tc main_arg4) = m ((c : Thread nD τ).loc main_arg4) :=
  (W6_of_ne m ρ c main_arg4 (by decide) : W6 m ρ c (Proc.devRef .tc main_arg4) = W5 m ρ c (Proc.devRef .tc main_arg4)).trans (W5_main_arg4 m ρ c)

theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg5) = W0 m ρ c (Proc.devRef .tc main_arg5)).trans rfl
theorem W2_main_arg5 (c : Dev nD) : W2 m ρ c (Proc.devRef .tc main_arg5) = m ((c : Thread nD τ).loc main_arg5) :=
  (W2_of_ne m ρ c main_arg5 (by decide) : W2 m ρ c (Proc.devRef .tc main_arg5) = W1 m ρ c (Proc.devRef .tc main_arg5)).trans (W1_main_arg5 m ρ c)
theorem W3_main_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg5) = W2 m ρ c (Proc.devRef .tc main_arg5)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg5) = W4 m ρ c (Proc.devRef .tc main_arg5)).trans (W4_main_arg5 m ρ c)
theorem W6_main_arg5 (c : Dev nD) : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (W5_main_arg5 m ρ c)

theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg6) = W0 m ρ c (Proc.devRef .tc main_arg6)).trans rfl
theorem W2_main_arg6 (c : Dev nD) : W2 m ρ c (Proc.devRef .tc main_arg6) = m ((c : Thread nD τ).loc main_arg6) :=
  (W2_of_ne m ρ c main_arg6 (by decide) : W2 m ρ c (Proc.devRef .tc main_arg6) = W1 m ρ c (Proc.devRef .tc main_arg6)).trans (W1_main_arg6 m ρ c)
theorem W3_main_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg6) = W2 m ρ c (Proc.devRef .tc main_arg6)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg6) = W4 m ρ c (Proc.devRef .tc main_arg6)).trans (W4_main_arg6 m ρ c)
theorem W6_main_arg6 (c : Dev nD) : W6 m ρ c (Proc.devRef .tc main_arg6) = m ((c : Thread nD τ).loc main_arg6) :=
  (W6_of_ne m ρ c main_arg6 (by decide) : W6 m ρ c (Proc.devRef .tc main_arg6) = W5 m ρ c (Proc.devRef .tc main_arg6)).trans (W5_main_arg6 m ρ c)

theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W1 m ρ c (Proc.devRef .tc main_arg7) = W0 m ρ c (Proc.devRef .tc main_arg7)).trans rfl
theorem W2_main_arg7 (c : Dev nD) : W2 m ρ c (Proc.devRef .tc main_arg7) = m ((c : Thread nD τ).loc main_arg7) :=
  (W2_of_ne m ρ c main_arg7 (by decide) : W2 m ρ c (Proc.devRef .tc main_arg7) = W1 m ρ c (Proc.devRef .tc main_arg7)).trans (W1_main_arg7 m ρ c)
theorem W3_main_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W3 m ρ c (Proc.devRef .tc main_arg7) = W2 m ρ c (Proc.devRef .tc main_arg7)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide))) : W5 m ρ c (Proc.devRef .tc main_arg7) = W4 m ρ c (Proc.devRef .tc main_arg7)).trans (W4_main_arg7 m ρ c)
theorem W6_main_arg7 (c : Dev nD) : W6 m ρ c (Proc.devRef .tc main_arg7) = m ((c : Thread nD τ).loc main_arg7) :=
  (W6_of_ne m ρ c main_arg7 (by decide) : W6 m ρ c (Proc.devRef .tc main_arg7) = W5 m ρ c (Proc.devRef .tc main_arg7)).trans (W5_main_arg7 m ρ c)

/-! ## The proof data family and the thread state -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment: entered with every unscoped buffer at the contents the segment before left, its arrays split out and
    put back at what its write-backs leave, the generator register lent to the body and returned, nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents the segment before left, its arrays split out and
    put back at what its write-backs leave, the generator register lent to the body and returned, nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at the contents the segment before left, its arrays split out and
    put back at what its write-backs leave, the generator register lent to the body and returned, nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
set_option maxHeartbeats 4000000 in
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result array ends at what the third call's write-backs fold to. -/
theorem W6_main_v144 (c : Dev nD) : W6 m ρ c (Proc.devRef .tc main_v144) = (dat2 (V5 m ρ) c).arrAt 6 cfg2.N :=
  W6_arr m ρ c 6

/-- THE FRAME with the result named: the run ends with the result array at the third call's folded write-backs and
    every argument array as launched. -/
theorem run_named : θ_run defs (onTc (τ := τ) (main (F := F))) ⟨m, fun _ => 0, ρ⟩ (fun r => ∀ c : Dev nD,
      r.2.mem ((c.tc : Thread nD τ).loc main_v144) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨(h c _ (mem_uc main_v144 (by decide))).trans (W6_main_v144 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c => (h c).2) (run_named m ρ)

end Cert.KernelIdeal.Fr

end
-- ==== Proof.KI.Val0.lean ====
/-
  The first call's result array as one function of the core's arrays at entry, over the extended reals: the grid's
  twenty points each write one block of 5000 rows, point `t` the rows `5000·t … 5000·t + 4999`, and each block is the
  product of that row block of `x` with the whole 128×512 weight matrix; the blocks tile the 100000 rows, so the array
  ends holding `x · Wflat`, entry `(r, n)` the sum over `i : Fin 128` of `x (r, i) · Wflat (i, n)`.
-/
import proofs.«105424_j83674552861285_1_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The payload at an index: a row of the block times a column of the weights -/

theorem lhs_mm0_0 (i : S5000x512.Idx) (q : dot_S5000x128_S128x512_S5000x512_1_0_0_1_n_n.contr.Idx) :
    (dot_S5000x128_S128x512_S5000x512_1_0_0_1_n_n.lhsIdx i q 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
theorem lhs_mm0_1 (i : S5000x512.Idx) (q : dot_S5000x128_S128x512_S5000x512_1_0_0_1_n_n.contr.Idx) :
    (dot_S5000x128_S128x512_S5000x512_1_0_0_1_n_n.lhsIdx i q 1).val = (q ⟨0, by decide⟩).val :=
  dot_S5000x128_S128x512_S5000x512_1_0_0_1_n_n.lhsIdx_val_of_single rfl i q
theorem rhs_mm0_0 (i : S5000x512.Idx) (q : dot_S5000x128_S128x512_S5000x512_1_0_0_1_n_n.contr.Idx) :
    (dot_S5000x128_S128x512_S5000x512_1_0_0_1_n_n.rhsIdx i q 0).val = (q ⟨0, by decide⟩).val :=
  dot_S5000x128_S128x512_S5000x512_1_0_0_1_n_n.rhsIdx_val_of_single rfl i q
theorem rhs_mm0_1 (i : S5000x512.Idx) (q : dot_S5000x128_S128x512_S5000x512_1_0_0_1_n_n.contr.Idx) :
    (dot_S5000x128_S128x512_S5000x512_1_0_0_1_n_n.rhsIdx i q 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-- The body's payload at row `p`, column `q` of the block: the matmul into the zero splat is the plain sum of products. -/
theorem pay0_apply (x0 : FVec Ideal S5000x128 .f32) (x1 : FVec Ideal S128x512 .f32) (j : S5000x512.Idx) :
    k0_pay1 (F := Ideal) x0 x1 j
      = ∑ k : Fin 128, x0 (ValueIdx.ix2 (⟨(j 0).val, ValueIdx.idx2_lt0 j⟩ : Fin 5000) k) * x1 (ValueIdx.ix2 k (⟨(j 1).val, ValueIdx.idx2_lt1 j⟩ : Fin 512)) := by
  unfold k0_pay1
  dsimp only
  rw [shapeCast_self]
  refine (Ideal.matmul_constant_zero_apply dot_S5000x128_S128x512_S5000x512_1_0_0_1_n_n none x0 x1 j).trans ?_
  rw [← Equiv.sum_comp (ValueIdx.contrEquiv1 dot_S5000x128_S128x512_S5000x512_1_0_0_1_n_n 128 rfl rfl).symm]
  refine Finset.sum_congr rfl fun k _ => ?_
  have hk := ValueIdx.contrEquiv1_symm_val dot_S5000x128_S128x512_S5000x512_1_0_0_1_n_n 128 rfl rfl k
  have el : dot_S5000x128_S128x512_S5000x512_1_0_0_1_n_n.lhsIdx j ((ValueIdx.contrEquiv1 dot_S5000x128_S128x512_S5000x512_1_0_0_1_n_n 128 rfl rfl).symm k)
      = ValueIdx.ix2 (⟨(j 0).val, ValueIdx.idx2_lt0 j⟩ : Fin 5000) k := funext fun a => Fin.ext (by
    match a with
    | ⟨0, _⟩ => exact lhs_mm0_0 _ _
    | ⟨1, _⟩ => exact (lhs_mm0_1 _ _).trans hk)
  have er : dot_S5000x128_S128x512_S5000x512_1_0_0_1_n_n.rhsIdx j ((ValueIdx.contrEquiv1 dot_S5000x128_S128x512_S5000x512_1_0_0_1_n_n 128 rfl rfl).symm k)
      = ValueIdx.ix2 k (⟨(j 1).val, ValueIdx.idx2_lt1 j⟩ : Fin 512) := funext fun a => Fin.ext (by
    match a with
    | ⟨0, _⟩ => exact (rhs_mm0_0 _ _).trans hk
    | ⟨1, _⟩ => exact rhs_mm0_1 _ _)
  rw [el, er]

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The product `x · Wflat`, entry by entry. -/
def prod0 (a : S100000x128.Idx → EReal) (w : S128x512.Idx → EReal) : S100000x512.Idx → EReal :=
  fun j => ∑ i : Fin 128, a (ValueIdx.ix2 (⟨(j 0).val, ValueIdx.idx2_lt0 j⟩ : Fin 100000) i) * w (ValueIdx.ix2 i (⟨(j 1).val, ValueIdx.idx2_lt1 j⟩ : Fin 512))

theorem prod0_apply (a : S100000x128.Idx → EReal) (w : S128x512.Idx → EReal) (j : S100000x512.Idx) :
    prod0 a w j = ∑ i : Fin 128, a (ValueIdx.ix2 (⟨(j 0).val, ValueIdx.idx2_lt0 j⟩ : Fin 100000) i) * w (ValueIdx.ix2 i (⟨(j 1).val, ValueIdx.idx2_lt1 j⟩ : Fin 512)) := rfl

/-- The printed index maps, decided over the twenty points: the row-block windows sit at block row `t`, block column `0`;
    the weights' window is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- Point `t`'s block of `x` at `(p, k)` is `x` at row `5000·t + p`. -/
theorem iblk0_0_apply (c : Dev nD) (t : Fin cfg0.N) (y : S5000x128.Idx) (i : S100000x128.Idx)
    (h0 : (i 0).val = t.val * 5000 + (y 0).val) (h1 : (i 1).val = (y 1).val) :
    (iblk0 (F := Ideal) V c 0 t : S5000x128.Idx → EReal) y = (V c main_arg0 : S100000x128.Idx → EReal) i := by
  obtain ⟨e0, e1, e2, e3, e4, e5⟩ := idx_facts0 t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Every point's block of the weights is the weight matrix. -/
theorem iblk0_1_apply (c : Dev nD) (t : Fin cfg0.N) (y : S128x512.Idx) (i : S128x512.Idx)
    (h0 : (i 0).val = (y 0).val) (h1 : (i 1).val = (y 1).val) :
    (iblk0 (F := Ideal) V c 1 t : S128x512.Idx → EReal) y = (V c main_v1 : S128x512.Idx → EReal) i := by
  obtain ⟨e0, e1, e2, e3, e4, e5⟩ := idx_facts0 t
  show V c main_v1 (((cfg0.win 1).blk t).view.emb y) = V c main_v1 i
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 512 + 1 * (y 1).val = (i 1).val; omega

/-- What point `t` writes back is block `t` of the product of the arrays as the call finds them. -/
theorem flushed0_2_eq (c : Dev nD) (t : Fin cfg0.N) :
    (dat0 (F := Ideal) V c).flushed 2 t
      = ((cfg0.win 2).blk t).view.read (Elt Ideal) (prod0 (V c main_arg0) (V c main_v1)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x512) hz0]
  obtain ⟨e0, e1, e2, e3, e4, e5⟩ := idx_facts0 t
  funext y
  show k0_pay1 (F := Ideal) (iblk0 (F := Ideal) V c 0 t) (iblk0 (F := Ideal) V c 1 t) y
    = prod0 (V c main_arg0) (V c main_v1) (((cfg0.win 2).blk t).view.emb y)
  refine (pay0_apply _ _ y).trans ?_
  have hy0 : ((((cfg0.win 2).blk t).view.emb y) 0).val = t.val * 5000 + (y 0).val := by
    show win0_2.index t (0 : Fin 2) * 5000 + 1 * (y 0).val = _; omega
  have hy1 : ((((cfg0.win 2).blk t).view.emb y) 1).val = (y 1).val := by
    show win0_2.index t (1 : Fin 2) * 512 + 1 * (y 1).val = _; omega
  refine Finset.sum_congr rfl fun k _ => ?_
  exact congrArg₂ (· * ·) (iblk0_0_apply V c t _ _ hy0 rfl) (iblk0_1_apply V c t _ _ rfl hy1)

/-- An index of the array is in point `t`'s block iff each coordinate is in the block's range on its axis. -/
theorem mem_blk0_2 (t : Fin cfg0.N) (i : S100000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v2).slice (win0_2.rect t)).set ↔ _
  rw [View.set_slice_whole, Rect.mem_set_unit]
  exact Iff.rfl

/-- The twenty row blocks tile the array: row `r` is in the block of point `r / 5000`. -/
theorem cover0_2_arr (i : S100000x512.Idx) :
    ∃ t : Fin cfg0.N, (cfg0.win 2).flush t = true ∧ i ∈ ((cfg0.win 2).blk t).view.set := by
  have hi0 : (i 0).val < 100000 := (i 0).isLt
  have hi1 : (i 1).val < 512 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 512 ≤ (i 1).val ∧ (i 1).val < win0_2.index t (1 : Fin 2) * 512 + 512; omega

/-- The result array after the whole grid: the product `x · Wflat` of the arrays the call finds. -/
theorem arrAt0_2 (c : Dev nD) :
    (dat0 (F := Ideal) V c).arrAt 2 cfg0.N
      = prod0 (V c main_arg0) (V c main_v1) :=
  (dat0 (F := Ideal) V c).arrAt_eq_of_cover 2 (prod0 (V c main_arg0) (V c main_v1)) (fun t _ => flushed0_2_eq V c t) cover0_2_arr

end Cert.KernelIdeal.Fr

end
-- ==== Proof.KI.Val1.lean ====
import proofs.«105424_j83674552861285_1_alg».proof.Proof.KI.R1
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Algebra.BigOperators.Fin

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # The second call's two results: the column sums of `y` and of `y²` over all 400000 rows -/

section pieces

variable {F : FTy → Type} [FloatOps F]

/-- The zero offsets of a whole-buffer access. -/
theorem zeroOff1 : (![0, 0] : Fin 2 → Nat) = fun _ => 0 := funext fun a => by fin_cases a <;> rfl

/-- At a later point the first accumulator's buffer is left at the one covering store's payload: of the row block and
    of what the buffer held. -/
theorem out1_B_1_eq (c : Dev nD) (i : grid1.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S20000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero zeroOff1]
  simp only [View.readAt_eq_ld, h1.read_unread, h2.read_unread, h3.read_unread, View.ld_unit_zero (S := S20000x64) zeroOff1,
    View.ld_unit_zero (S := S1x64) zeroOff1]

/-- Likewise the second accumulator's. -/
theorem out1_B_2_eq (c : Dev nD) (i : grid1.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S20000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero zeroOff1]
  simp only [View.readAt_eq_ld, h1.read_unread, h2.read_unread, h3.read_unread, View.ld_unit_zero (S := S20000x64) zeroOff1,
    View.ld_unit_zero (S := S1x64) zeroOff1]

/-- At the first point the buffer is first stored the zero row, which the later load reads back: it is left at the
    payload of the row block and of the zero row. -/
theorem out1_A_1_eq (c : Dev nD) (i : grid1.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S20000x64 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) zeroOff1]
  simp only [View.readAt_eq_ld, h1.read_unread, View.ld_unit_zero (S := S20000x64) zeroOff1,
    View.ld_unit_zero (S := S1x64) zeroOff1, View.readCov_unit_zero (S := S1x64) _ zeroOff1]

theorem out1_A_2_eq (c : Dev nD) (i : grid1.Coords) (a1 : Memref sig .tc .vmem S20000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S20000x64 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) zeroOff1]
  simp only [View.readAt_eq_ld, h1.read_unread, View.ld_unit_zero (S := S20000x64) zeroOff1,
    View.ld_unit_zero (S := S1x64) zeroOff1, View.readCov_unit_zero (S := S1x64) _ zeroOff1]

end pieces

/-! ## The payloads at an index, over the extended reals -/

/-- The sum over the rows of a 20000-row block, at column `l`. -/
theorem colsum1_apply (x : FVec Ideal S20000x64 .f32) (hφ : FKind.Formats .f32) (hacc : (0x00000000#32 : BitVec 32) = 0x00000000#32) (l : Fin 64) :
    multiReduction (F := Ideal) .add [0] S64 x 0x00000000#32 reduces_S20000x64_S64 hφ hacc (ix1 l) = ∑ q : Fin 20000, x (ix2 q l) := by
  refine (Ideal.multiReduction_add_single x 0x00000000#32 reduces_S20000x64_S64 hφ hacc (ix1 l)).trans ?_
  show ∑ q : Fin 20000, x (reduces_S20000x64_S64.lift (ix1 l) q) = _
  refine Finset.sum_congr rfl fun q _ => congrArg x ?_
  funext a; apply Fin.ext
  match a with
  | ⟨0, _⟩ => rfl
  | ⟨1, _⟩ => rfl

/-- The first accumulator's update: what it held plus the block's column sums. -/
theorem k1_pay4_apply (x : FVec Ideal S20000x64 .f32) (a : FVec Ideal S1x64 .f32) (u : Fin 1) (l : Fin 64) :
    k1_pay4 (F := Ideal) x a (ix2 u l) = a (ix2 u l) + ∑ q : Fin 20000, x (ix2 q l) := by
  unfold k1_pay4 k1_pay3
  dsimp only
  refine (addf_apply _ _ _).trans ?_
  refine congrArg₂ (· + ·) (congrFun (shapeCast_self a _) _) ?_
  refine (shapeCast_a_1a_apply _ _ u l).trans ?_
  refine (congrArg (fun v => multiReduction (F := Ideal) .add [0] S64 v 0x00000000#32 reduces_S20000x64_S64 (.inl rfl) rfl (ix1 l)) (shapeCast_self x _)).trans ?_
  exact colsum1_apply x _ _ l

/-- The second accumulator's update: what it held plus the column sums of the block's squares. -/
theorem k1_pay5_apply (x : FVec Ideal S20000x64 .f32) (a : FVec Ideal S1x64 .f32) (u : Fin 1) (l : Fin 64) :
    k1_pay5 (F := Ideal) x a (ix2 u l) = a (ix2 u l) + ∑ q : Fin 20000, x (ix2 q l) * x (ix2 q l) := by
  unfold k1_pay5 k1_pay3
  dsimp only
  refine (addf_apply _ _ _).trans ?_
  refine congrArg₂ (· + ·) (congrFun (shapeCast_self a _) _) ?_
  refine (shapeCast_a_1a_apply _ _ u l).trans ?_
  refine (congrArg (fun v => multiReduction (F := Ideal) .add [0] S64 (mulf v v) 0x00000000#32 reduces_S20000x64_S64 (.inl rfl) rfl (ix1 l)) (shapeCast_self x _)).trans ?_
  refine (colsum1_apply (mulf x x) _ _ l).trans ?_
  rfl

/-- The zero row the first point stores. -/
theorem k1_pay1_apply (j : S1x64.Idx) : (k1_pay1 (F := Ideal)) j = 0 := Ideal.ofBits_zero_f32
theorem k1_pay2_apply (j : S1x64.Idx) : (k1_pay2 (F := Ideal)) j = 0 := Ideal.ofBits_zero_f32

/-! ## The accumulation over the grid -/

section value

variable (V : (c : Dev nD) → (b : Ref sig .tc) → Buf (Elt Ideal) ((c : Thread nD τ).loc b))

/-- The array `y` as the call finds it, and its block of 20000 rows at point `t`. -/
abbrev yarr1 (c : Dev nD) : FVec Ideal S400000x64 .f32 := V c main_v126
abbrev yblk1 (c : Dev nD) (t : Fin cfg1.N) : FVec Ideal S20000x64 .f32 := iblk1 (F := Ideal) V c 0 t

/-- Point `t` reads row block `t`; the two results keep their one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem ptLt1 (t : Fin cfg1.N) : t.val < 20 := lt_of_lt_of_eq t.isLt (show cfg1.N = 20 from N_1)

/-- Row `q` of block `t` is row `20000 t + q` of `y`. -/
theorem yblk1_apply (c : Dev nD) (t : Fin cfg1.N) (q : Fin 20000) (l : Fin 64) :
    yblk1 V c t (ix2 q l) = yarr1 V c (ix2 (⟨20000 * t.val + q.val, by have := ptLt1 t; have := q.isLt; omega⟩ : Fin 400000) l) := by
  obtain ⟨e0, e1, -⟩ := blockIdx1 t
  unfold yblk1 iblk1
  rw [View.read_apply]
  show V c main_v126 _ = V c main_v126 _
  congr 1
  funext a; apply Fin.ext
  match a with
  | ⟨0, _⟩ => show win1_0.index t (0 : Fin 2) * 20000 + 1 * q.val = 20000 * t.val + q.val; rw [e0]; omega
  | ⟨1, _⟩ => show win1_0.index t (1 : Fin 2) * 64 + 1 * l.val = l.val; rw [e1]; omega

/-- Column `l` of `y` under `g`, as a sequence over all naturals (zero past the last row): sums over row ranges are then
    sums over ranges of naturals. -/
def ycol1 (g : EReal → EReal) (c : Dev nD) (l : Fin 64) (r : ℕ) : EReal :=
  if h : r < 400000 then g (yarr1 V c (ix2 (⟨r, h⟩ : Fin 400000) l)) else 0

/-- A block's column sum is the sum of the column over the block's row range. -/
theorem blocksum1_eq (g : EReal → EReal) (c : Dev nD) (t : Fin cfg1.N) (l : Fin 64) :
    ∑ q : Fin 20000, g (yblk1 V c t (ix2 q l)) = ∑ q ∈ Finset.range 20000, ycol1 V g c l (20000 * t.val + q) := by
  rw [Finset.sum_range]
  refine Finset.sum_congr rfl fun q _ => ?_
  have ht := ptLt1 t
  have hq := q.isLt
  refine (congrArg g (yblk1_apply V c t q l)).trans ?_
  unfold ycol1
  rw [dif_pos (show 20000 * t.val + q.val < 400000 by omega)]

/-- The whole column's sum. -/
theorem total1_eq (g : EReal → EReal) (c : Dev nD) (l : Fin 64) :
    ∑ r ∈ Finset.range 400000, ycol1 V g c l r = ∑ r : Fin 400000, g (yarr1 V c (ix2 r l)) := by
  rw [Finset.sum_range]
  refine Finset.sum_congr rfl fun r _ => ?_
  unfold ycol1
  rw [dif_pos r.isLt]

/-- The first point leaves zero plus its block's column sums, -/
theorem outsAt1_first (c : Dev nD) (t : Fin cfg1.N) (h0 : t.val % 20 = 0) (u : Fin 1) (l : Fin 64) :
    (outsAt1 (F := Ideal) V c t.val t.isLt).1 (ix2 u l) = 0 + ∑ q : Fin 20000, yblk1 V c t (ix2 q l)
    ∧ (outsAt1 (F := Ideal) V c t.val t.isLt).2 (ix2 u l) = 0 + ∑ q : Fin 20000, yblk1 V c t (ix2 q l) * yblk1 V c t (ix2 q l) := by
  rw [outsAt1_A V c t h0]
  dsimp only
  constructor
  · refine (congrFun (out1_A_1_eq (F := Ideal) c (grid1.coords t) (ms1_0 t) (hs1_0 t) (ms1_1 t) (hs1_1 t) (ms1_2 t) (hs1_2 t) ((hcond1_0 t).mpr h0) (yblk1 V c t)) (ix2 u l)).trans ?_
    refine (k1_pay4_apply (yblk1 V c t) (k1_pay1 (F := Ideal)) u l).trans ?_
    rw [k1_pay1_apply]
  · refine (congrFun (out1_A_2_eq (F := Ideal) c (grid1.coords t) (ms1_0 t) (hs1_0 t) (ms1_1 t) (hs1_1 t) (ms1_2 t) (hs1_2 t) ((hcond1_0 t).mpr h0) (yblk1 V c t)) (ix2 u l)).trans ?_
    refine (k1_pay5_apply (yblk1 V c t) (k1_pay2 (F := Ideal)) u l).trans ?_
    rw [k1_pay2_apply]

/-- and a later point adds its block's to what the point before left. -/
theorem outsAt1_later (c : Dev nD) (t : Fin cfg1.N) (h0 : ¬t.val % 20 = 0) (u : Fin 1) (l : Fin 64) :
    (outsAt1 (F := Ideal) V c t.val t.isLt).1 (ix2 u l)
      = (outsAt1 (F := Ideal) V c (t.val - 1) (Nat.lt_of_le_of_lt (Nat.sub_le _ _) t.isLt)).1 (ix2 u l) + ∑ q : Fin 20000, yblk1 V c t (ix2 q l)
    ∧ (outsAt1 (F := Ideal) V c t.val t.isLt).2 (ix2 u l)
      = (outsAt1 (F := Ideal) V c (t.val - 1) (Nat.lt_of_le_of_lt (Nat.sub_le _ _) t.isLt)).2 (ix2 u l) + ∑ q : Fin 20000, yblk1 V c t (ix2 q l) * yblk1 V c t (ix2 q l) := by
  rw [outsAt1_B V c t h0]
  dsimp only
  constructor
  · refine (congrFun (out1_B_1_eq (F := Ideal) c (grid1.coords t) (ms1_0 t) (hs1_0 t) (ms1_1 t) (hs1_1 t) (ms1_2 t) (hs1_2 t) (fun h => h0 ((hcond1_0 t).mp h)) (yblk1 V c t)
      (outsAt1 (F := Ideal) V c (t.val - 1) (Nat.lt_of_le_of_lt (Nat.sub_le _ _) t.isLt)).1 (outsAt1 (F := Ideal) V c (t.val - 1) (Nat.lt_of_le_of_lt (Nat.sub_le _ _) t.isLt)).2) (ix2 u l)).trans ?_
    exact k1_pay4_apply (yblk1 V c t) _ u l
  · refine (congrFun (out1_B_2_eq (F := Ideal) c (grid1.coords t) (ms1_0 t) (hs1_0 t) (ms1_1 t) (hs1_1 t) (ms1_2 t) (hs1_2 t) (fun h => h0 ((hcond1_0 t).mp h)) (yblk1 V c t)
      (outsAt1 (F := Ideal) V c (t.val - 1) (Nat.lt_of_le_of_lt (Nat.sub_le _ _) t.isLt)).1 (outsAt1 (F := Ideal) V c (t.val - 1) (Nat.lt_of_le_of_lt (Nat.sub_le _ _) t.isLt)).2) (ix2 u l)).trans ?_
    exact k1_pay5_apply (yblk1 V c t) _ u l

/-- THE INVARIANT: after point `n` the accumulators hold, at column `l`, the sums of `y` and of `y²` over the first
    `20000 (n + 1)` rows. -/
theorem outsAt1_eq (c : Dev nD) : ∀ (n : ℕ) (h : n < cfg1.N) (u : Fin 1) (l : Fin 64),
    (outsAt1 (F := Ideal) V c n h).1 (ix2 u l) = ∑ r ∈ Finset.range (20000 * (n + 1)), ycol1 V (fun v => v) c l r
    ∧ (outsAt1 (F := Ideal) V c n h).2 (ix2 u l) = ∑ r ∈ Finset.range (20000 * (n + 1)), ycol1 V (fun v => v * v) c l r
  | 0, h, u, l => by
    obtain ⟨e1, e2⟩ := outsAt1_first V c ⟨0, h⟩ (Nat.zero_mod _) u l
    refine ⟨e1.trans ?_, e2.trans ?_⟩
    · rw [zero_add, blocksum1_eq V (fun v => v) c ⟨0, h⟩ l]
      refine Finset.sum_congr rfl fun q _ => ?_
      show ycol1 V _ c l (20000 * 0 + q) = _
      rw [Nat.mul_zero, Nat.zero_add]
    · rw [zero_add, blocksum1_eq V (fun v => v * v) c ⟨0, h⟩ l]
      refine Finset.sum_congr rfl fun q _ => ?_
      show ycol1 V _ c l (20000 * 0 + q) = _
      rw [Nat.mul_zero, Nat.zero_add]
  | n + 1, h, u, l => by
    have hN : n + 1 < 20 := ptLt1 ⟨n + 1, h⟩
    have hB : ¬(⟨n + 1, h⟩ : Fin cfg1.N).val % 20 = 0 := by dsimp only; omega
    obtain ⟨e1, e2⟩ := outsAt1_later V c ⟨n + 1, h⟩ hB u l
    obtain ⟨i1, i2⟩ := outsAt1_eq c n (Nat.lt_of_succ_lt h) u l
    refine ⟨e1.trans ?_, e2.trans ?_⟩
    · show (outsAt1 (F := Ideal) V c n _).1 (ix2 u l) + _ = _
      rw [i1, blocksum1_eq V (fun v => v) c ⟨n + 1, h⟩ l, show 20000 * (n + 1 + 1) = 20000 * (n + 1) + 20000 by omega, Finset.sum_range_add]
    · show (outsAt1 (F := Ideal) V c n _).2 (ix2 u l) + _ = _
      rw [i2, blocksum1_eq V (fun v => v * v) c ⟨n + 1, h⟩ l, show 20000 * (n + 1 + 1) = 20000 * (n + 1) + 20000 by omega, Finset.sum_range_add]

end value

/-! ## The arrays after the grid -/

section arrays

variable (V : (c : Dev nD) → (b : Ref sig .tc) → Buf (Elt Ideal) ((c : Thread nD τ).loc b))

/-- The column sums of the squares of a 400000×64 array, as a 1×64 row. -/
abbrev colSqSum1 (y : S400000x64.Idx → EReal) : S1x64.Idx → EReal :=
  fun j => ∑ r : Fin 400000, y (ValueIdx.ix2 r (⟨(j 1).val, ValueIdx.idx2_lt1 j⟩ : Fin 64)) * y (ValueIdx.ix2 r (⟨(j 1).val, ValueIdx.idx2_lt1 j⟩ : Fin 64))

/-- The last point. -/
abbrev lastPt1 : Fin cfg1.N := ⟨19, by rw [show cfg1.N = 20 from N_1]; decide⟩

/-- The column sums of `g ∘ y`, as a 1×64 row. -/
abbrev colSums1 (g : EReal → EReal) (c : Dev nD) : S1x64.Idx → EReal :=
  fun j => ∑ r : Fin 400000, g (yarr1 V c (ix2 r (⟨(j 1).val, idx2_lt1 j⟩ : Fin 64)))

/-- After the last point the accumulators hold the whole columns' sums, whatever the unit coordinate. -/
theorem outsLast1_eq (c : Dev nD) (t : Fin cfg1.N) (h19 : t.val = 19) (i i' : S1x64.Idx) (hi : (i 1).val = (i' 1).val) :
    (outsAt1 (F := Ideal) V c t.val t.isLt).1 i = colSums1 V (fun v => v) c i'
    ∧ (outsAt1 (F := Ideal) V c t.val t.isLt).2 i = colSums1 V (fun v => v * v) c i' := by
  obtain ⟨tv, ht⟩ := t
  obtain rfl : tv = 19 := h19
  have hl : (⟨(i 1).val, idx2_lt1 i⟩ : Fin 64) = ⟨(i' 1).val, idx2_lt1 i'⟩ := Fin.ext hi
  obtain ⟨e1, e2⟩ := outsAt1_eq V c 19 ht (i 0) ⟨(i 1).val, idx2_lt1 i⟩
  have hix : i = ix2 (i 0) (⟨(i 1).val, idx2_lt1 i⟩ : Fin 64) := eq_ix2 i
  constructor
  · rw [hix]
    refine e1.trans ?_
    show ∑ r ∈ Finset.range 400000, ycol1 V (fun v => v) c _ r = _
    rw [total1_eq, hl]
  · rw [hix]
    refine e2.trans ?_
    show ∑ r ∈ Finset.range 400000, ycol1 V (fun v => v * v) c _ r = _
    rw [total1_eq, hl]

/-- So as rows they ARE the column sums. -/
theorem outsLast1_fst (c : Dev nD) (t : Fin cfg1.N) (h19 : t.val = 19) :
    (outsAt1 (F := Ideal) V c t.val t.isLt).1 = colSums1 V (fun v => v) c :=
  funext fun i => (outsLast1_eq V c t h19 i i rfl).1
theorem outsLast1_snd (c : Dev nD) (t : Fin cfg1.N) (h19 : t.val = 19) :
    (outsAt1 (F := Ideal) V c t.val t.isLt).2 = colSums1 V (fun v => v * v) c :=
  funext fun i => (outsLast1_eq V c t h19 i i rfl).2

/-- A row that depends on the column coordinate only, cut to the moved part of a result's block, is that row read
    through the block (the block is the whole 1×64 array, at zero offsets). -/
theorem cut_eq_read1_1 (G : S1x64.Idx → EReal) (hG : ∀ i i' : S1x64.Idx, (i 1).val = (i' 1).val → G i = G i') (t : Fin cfg1.N) :
    (cfg1.win 1).cut (grid1.coords t) G = ((cfg1.win 1).blk t).view.read (Elt Ideal) G := by
  obtain ⟨-, -, e0, e1, -⟩ := blockIdx1 t
  funext j
  rw [View.read_apply]
  refine hG _ _ ?_
  show (j 1).val = win1_1.index t (1 : Fin 2) * 64 + 1 * (j 1).val
  rw [e1]; omega
theorem cut_eq_read1_2 (G : S1x64.Idx → EReal) (hG : ∀ i i' : S1x64.Idx, (i 1).val = (i' 1).val → G i = G i') (t : Fin cfg1.N) :
    (cfg1.win 2).cut (grid1.coords t) G = ((cfg1.win 2).blk t).view.read (Elt Ideal) G := by
  obtain ⟨-, -, -, -, e0, e1⟩ := blockIdx1 t
  funext j
  rw [View.read_apply]
  refine hG _ _ ?_
  show (j 1).val = win1_2.index t (1 : Fin 2) * 64 + 1 * (j 1).val
  rw [e1]; omega

/-- The column sums depend on the column coordinate only. -/
theorem colSums1_congr (g : EReal → EReal) (c : Dev nD) (i i' : S1x64.Idx) (hi : (i 1).val = (i' 1).val) :
    colSums1 V g c i = colSums1 V g c i' := by
  have hl : (⟨(i 1).val, idx2_lt1 i⟩ : Fin 64) = ⟨(i' 1).val, idx2_lt1 i'⟩ := Fin.ext hi
  show ∑ r : Fin 400000, g (yarr1 V c (ix2 r (⟨(i 1).val, idx2_lt1 i⟩ : Fin 64))) = ∑ r : Fin 400000, g (yarr1 V c (ix2 r (⟨(i' 1).val, idx2_lt1 i'⟩ : Fin 64)))
  rw [hl]

/-- What the last point writes back of the first result is the column sums read through its one block. -/
theorem flushed1_1_eq (c : Dev nD) (t : Fin cfg1.N) (hf : (cfg1.win 1).flush t = true) :
    (dat1 (F := Ideal) V c).flushed 1 t = ((cfg1.win 1).blk t).view.read (Elt Ideal) (colSums1 V (fun v => v) c) := by
  have ht := ptLt1 t
  have h19 : t.val = 19 := by have := (flush1_1 t).mp hf; omega
  show (cfg1.win 1).cut (grid1.coords t) ((dat1 (F := Ideal) V c).after 1 t) = _
  rw [after1_1, outsLast1_fst V c t h19]
  exact cut_eq_read1_1 (colSums1 V (fun v => v) c) (colSums1_congr V (fun v => v) c) t

theorem flushed1_2_eq (c : Dev nD) (t : Fin cfg1.N) (hf : (cfg1.win 2).flush t = true) :
    (dat1 (F := Ideal) V c).flushed 2 t = ((cfg1.win 2).blk t).view.read (Elt Ideal) (colSums1 V (fun v => v * v) c) := by
  have ht := ptLt1 t
  have h19 : t.val = 19 := by have := (flush1_2 t).mp hf; omega
  show (cfg1.win 2).cut (grid1.coords t) ((dat1 (F := Ideal) V c).after 2 t) = _
  rw [after1_2, outsLast1_snd V c t h19]
  exact cut_eq_read1_2 (colSums1 V (fun v => v * v) c) (colSums1_congr V (fun v => v * v) c) t

/-- An index of a result is in point `t`'s block iff each coordinate is in the block's range on its axis. -/
theorem mem_blk1_1 (t : Fin cfg1.N) (i : S1x64.Idx) :
    i ∈ ((cfg1.win 1).blk t).view.set ↔ ∀ a : Fin 2, win1_1.index t a * S1x64.size a ≤ (i a).val ∧ (i a).val < win1_1.index t a * S1x64.size a + S1x64.size a := by
  show i ∈ ((View.whole main_v127_0).slice (win1_1.rect t)).set ↔ _
  rw [View.set_slice_whole, Rect.mem_set_unit]
  exact Iff.rfl
theorem mem_blk1_2 (t : Fin cfg1.N) (i : S1x64.Idx) :
    i ∈ ((cfg1.win 2).blk t).view.set ↔ ∀ a : Fin 2, win1_2.index t a * S1x64.size a ≤ (i a).val ∧ (i a).val < win1_2.index t a * S1x64.size a + S1x64.size a := by
  show i ∈ ((View.whole main_v127_1).slice (win1_2.rect t)).set ↔ _
  rw [View.set_slice_whole, Rect.mem_set_unit]
  exact Iff.rfl

/-- THE FIRST RESULT after the grid: column `c` holds the sum of `y(r, c)` over all rows. -/
theorem arrAt1_1 (c : Dev nD) :
    (dat1 (F := Ideal) V c).arrAt 1 cfg1.N
      = fun j : S1x64.Idx => (∑ r : Fin 400000, (V c main_v126 : S400000x64.Idx → EReal) (ValueIdx.ix2 r (⟨(j 1).val, ValueIdx.idx2_lt1 j⟩ : Fin 64)) : EReal) :=
  (dat1 (F := Ideal) V c).arrAt_eq_of_cover 1 (colSums1 V (fun v => v) c) (flushed1_1_eq V c) fun i =>
    ⟨lastPt1, (flush1_1 lastPt1).mpr rfl, by
      rw [mem_blk1_1]
      obtain ⟨-, -, e0, e1, -⟩ := blockIdx1 lastPt1
      have h0 : (i 0 : Nat) < 1 := (i 0).isLt
      have h1 : (i 1 : Nat) < 64 := (i 1).isLt
      intro a
      match a with
      | ⟨0, _⟩ => show win1_1.index lastPt1 (0 : Fin 2) * 1 ≤ (i 0).val ∧ (i 0).val < win1_1.index lastPt1 (0 : Fin 2) * 1 + 1; rw [e0]; omega
      | ⟨1, _⟩ => show win1_1.index lastPt1 (1 : Fin 2) * 64 ≤ (i 1).val ∧ (i 1).val < win1_1.index lastPt1 (1 : Fin 2) * 64 + 64; rw [e1]; omega⟩

/-- THE SECOND RESULT after the grid: column `c` holds the sum of `y(r, c)²` over all rows. -/
theorem arrAt1_2 (c : Dev nD) :
    (dat1 (F := Ideal) V c).arrAt 2 cfg1.N
      = colSqSum1 (V c main_v126) :=
  (dat1 (F := Ideal) V c).arrAt_eq_of_cover 2 (colSums1 V (fun v => v * v) c) (flushed1_2_eq V c) fun i =>
    ⟨lastPt1, (flush1_2 lastPt1).mpr rfl, by
      rw [mem_blk1_2]
      obtain ⟨-, -, -, -, e0, e1⟩ := blockIdx1 lastPt1
      have h0 : (i 0 : Nat) < 1 := (i 0).isLt
      have h1 : (i 1 : Nat) < 64 := (i 1).isLt
      intro a
      match a with
      | ⟨0, _⟩ => show win1_2.index lastPt1 (0 : Fin 2) * 1 ≤ (i 0).val ∧ (i 0).val < win1_2.index lastPt1 (0 : Fin 2) * 1 + 1; rw [e0]; omega
      | ⟨1, _⟩ => show win1_2.index lastPt1 (1 : Fin 2) * 64 ≤ (i 1).val ∧ (i 1).val < win1_2.index lastPt1 (1 : Fin 2) * 64 + 64; rw [e1]; omega⟩

end arrays

end Cert.KernelIdeal.Fr

end
-- ==== Proof.KI.Val2.lean ====
import proofs.«105424_j83674552861285_1_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The third call's result array, index by index

Row `r` of the result is `max(y[r] · scale + shift, 0) · Wy + skip[r] · Ws`: two 64-term sums. -/

/-! ## The dot's operand indices -/

theorem lhs2_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem lhs2_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
theorem rhs2_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
theorem rhs2_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- A [20000,64] × [64,64] product accumulated into zeros, read at `(p, q)`: the 64-term sum of products. -/
theorem matmul2_apply (a : FVec Ideal S20000x64 .f32) (b : FVec Ideal S64x64 .f32) (p : Fin 20000) (q : Fin 64) :
    matmul (F := Ideal) dot_S20000x64_S64x64_S20000x64_1_0_0_1_n_n none a b (constant (F := Ideal) S20000x64 .f32 0x00000000#32) (ix2 p q)
      = ∑ k : Fin 64, a (ix2 p k) * b (ix2 k q) := by
  simp only [matmul]
  rw [Ideal.matmul_constant_zero_apply, ← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 p q) ((contrEquiv1 dot_S20000x64_S64x64_S20000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S20000x64_S64x64_S20000x64_1_0_0_1_n_n.rhsIdx (ix2 p q) ((contrEquiv1 dot_S20000x64_S64x64_S20000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- The body's payload at `(p, q)` of its loaded blocks. -/
theorem pay2_apply (x0 : Vec Ideal S20000x64 .f32) (x2 x6 : Vec Ideal S1x64 .f32) (x12 : Vec Ideal S64x64 .f32)
    (x15 : Vec Ideal S20000x64 .f32) (x16 : Vec Ideal S64x64 .f32) (p : Fin 20000) (q : Fin 64) :
    k2_pay1 (F := Ideal) x0 x2 x6 x12 x15 x16 (ix2 p q)
      = (∑ k : Fin 64, max ((x0 : S20000x64.Idx → EReal) (ix2 p k) * (x2 : S1x64.Idx → EReal) (ix2 (0 : Fin 1) k) + (x6 : S1x64.Idx → EReal) (ix2 (0 : Fin 1) k)) 0 * (x12 : S64x64.Idx → EReal) (ix2 k q))
        + ∑ k : Fin 64, (x15 : S20000x64.Idx → EReal) (ix2 p k) * (x16 : S64x64.Idx → EReal) (ix2 k q) := by
  unfold k2_pay1
  simp only [shapeCast_self]
  rw [addf_apply, matmul2_apply, matmul2_apply]
  congr 1
  refine Finset.sum_congr rfl fun k _ => ?_
  rw [maximumf_apply, addf_apply, mulf_apply, broadcastTo_1b_ab_apply, broadcastTo_1b_ab_apply, broadcast_apply]
  show max _ (Ideal.ofBits .f32 0x00000000#32) * _ = _
  rw [Ideal.ofBits_zero_f32]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The result as one function of the six arrays the call reads. -/
def G2 (y sk : S400000x64.Idx → EReal) (sc sh : S1x64.Idx → EReal) (Wy Ws : S64x64.Idx → EReal) : S400000x64.Idx → EReal :=
  fun j => (∑ k : Fin 64, max (y (ix2 (⟨(j 0).val, idx2_lt0 j⟩ : Fin 400000) k) * sc (ix2 (0 : Fin 1) k) + sh (ix2 (0 : Fin 1) k)) 0
              * Wy (ix2 k (⟨(j 1).val, idx2_lt1 j⟩ : Fin 64)))
          + ∑ k : Fin 64, sk (ix2 (⟨(j 0).val, idx2_lt0 j⟩ : Fin 400000) k) * Ws (ix2 k (⟨(j 1).val, idx2_lt1 j⟩ : Fin 64))

/-- The printed index maps over the grid: the row-blocked windows sit at block `(t, 0)`, the whole windows at `(0, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The `y` block at point `t`, entry `(p, k)`: the array's row `20000 t + p`. -/
theorem yblk_apply (c : Dev nD) (t : Fin cfg2.N) (p : Fin 20000) (k : Fin 64) (r : Fin 400000) (hr : r.val = t.val * 20000 + p.val) :
    (iblk2 (F := Ideal) V c 0 t : S20000x64.Idx → EReal) (ix2 p k) = (V c main_v126 : S400000x64.Idx → EReal) (ix2 r k) := by
  obtain ⟨e0, e1, -⟩ := idx_facts2 t
  show (V c main_v126 : S400000x64.Idx → EReal) (((cfg2.win 0).blk t).view.emb (ix2 p k)) = _
  refine congrArg _ (funext fun a => Fin.ext ?_)
  match a with
  | ⟨0, _⟩ => show win2_0.index t (0 : Fin 2) * 20000 + 1 * p.val = r.val; omega
  | ⟨1, _⟩ => show win2_0.index t (1 : Fin 2) * 64 + 1 * k.val = k.val; omega

theorem skblk_apply (c : Dev nD) (t : Fin cfg2.N) (p : Fin 20000) (k : Fin 64) (r : Fin 400000) (hr : r.val = t.val * 20000 + p.val) :
    (iblk2 (F := Ideal) V c 1 t : S20000x64.Idx → EReal) (ix2 p k) = (V c main_arg1 : S400000x64.Idx → EReal) (ix2 r k) := by
  obtain ⟨-, -, e0, e1, -⟩ := idx_facts2 t
  show (V c main_arg1 : S400000x64.Idx → EReal) (((cfg2.win 1).blk t).view.emb (ix2 p k)) = _
  refine congrArg _ (funext fun a => Fin.ext ?_)
  match a with
  | ⟨0, _⟩ => show win2_1.index t (0 : Fin 2) * 20000 + 1 * p.val = r.val; omega
  | ⟨1, _⟩ => show win2_1.index t (1 : Fin 2) * 64 + 1 * k.val = k.val; omega

theorem scblk_eq (c : Dev nD) (t : Fin cfg2.N) : (iblk2 (F := Ideal) V c 2 t : S1x64.Idx → EReal) = (V c main_v138 : S1x64.Idx → EReal) := by
  obtain ⟨-, -, -, -, e0, e1, -⟩ := idx_facts2 t
  funext j
  show (V c main_v138 : S1x64.Idx → EReal) (((cfg2.win 2).blk t).view.emb j) = _
  refine congrArg _ (funext fun a => Fin.ext ?_)
  match a with
  | ⟨0, _⟩ => show win2_2.index t (0 : Fin 2) * 1 + 1 * (j 0).val = (j 0).val; omega
  | ⟨1, _⟩ => show win2_2.index t (1 : Fin 2) * 64 + 1 * (j 1).val = (j 1).val; omega

theorem shblk_eq (c : Dev nD) (t : Fin cfg2.N) : (iblk2 (F := Ideal) V c 3 t : S1x64.Idx → EReal) = (V c main_v141 : S1x64.Idx → EReal) := by
  obtain ⟨-, -, -, -, -, -, e0, e1, -⟩ := idx_facts2 t
  funext j
  show (V c main_v141 : S1x64.Idx → EReal) (((cfg2.win 3).blk t).view.emb j) = _
  refine congrArg _ (funext fun a => Fin.ext ?_)
  match a with
  | ⟨0, _⟩ => show win2_3.index t (0 : Fin 2) * 1 + 1 * (j 0).val = (j 0).val; omega
  | ⟨1, _⟩ => show win2_3.index t (1 : Fin 2) * 64 + 1 * (j 1).val = (j 1).val; omega

theorem wyblk_eq (c : Dev nD) (t : Fin cfg2.N) : (iblk2 (F := Ideal) V c 4 t : S64x64.Idx → EReal) = (V c main_v142 : S64x64.Idx → EReal) := by
  obtain ⟨-, -, -, -, -, -, -, -, e0, e1, -⟩ := idx_facts2 t
  funext j
  show (V c main_v142 : S64x64.Idx → EReal) (((cfg2.win 4).blk t).view.emb j) = _
  refine congrArg _ (funext fun a => Fin.ext ?_)
  match a with
  | ⟨0, _⟩ => show win2_4.index t (0 : Fin 2) * 64 + 1 * (j 0).val = (j 0).val; omega
  | ⟨1, _⟩ => show win2_4.index t (1 : Fin 2) * 64 + 1 * (j 1).val = (j 1).val; omega

theorem wsblk_eq (c : Dev nD) (t : Fin cfg2.N) : (iblk2 (F := Ideal) V c 5 t : S64x64.Idx → EReal) = (V c main_v143 : S64x64.Idx → EReal) := by
  obtain ⟨-, -, -, -, -, -, -, -, -, -, e0, e1, -⟩ := idx_facts2 t
  funext j
  show (V c main_v143 : S64x64.Idx → EReal) (((cfg2.win 5).blk t).view.emb j) = _
  refine congrArg _ (funext fun a => Fin.ext ?_)
  match a with
  | ⟨0, _⟩ => show win2_5.index t (0 : Fin 2) * 64 + 1 * (j 0).val = (j 0).val; omega
  | ⟨1, _⟩ => show win2_5.index t (1 : Fin 2) * 64 + 1 * (j 1).val = (j 1).val; omega

/-- `G2` at an index whose coordinates are `r` and `q`. -/
theorem G2_apply_of (y sk : S400000x64.Idx → EReal) (sc sh : S1x64.Idx → EReal) (Wy Ws : S64x64.Idx → EReal)
    (i : S400000x64.Idx) (r : Fin 400000) (q : Fin 64) (hr : (i 0).val = r.val) (hq : (i 1).val = q.val) :
    G2 y sk sc sh Wy Ws i
      = (∑ k : Fin 64, max (y (ix2 r k) * sc (ix2 (0 : Fin 1) k) + sh (ix2 (0 : Fin 1) k)) 0 * Wy (ix2 k q))
        + ∑ k : Fin 64, sk (ix2 r k) * Ws (ix2 k q) := by
  have e0 : (⟨(i 0).val, idx2_lt0 i⟩ : Fin 400000) = r := Fin.ext hr
  have e1 : (⟨(i 1).val, idx2_lt1 i⟩ : Fin 64) = q := Fin.ext hq
  unfold G2
  simp only [e0, e1]

/-- WHAT POINT `t` WRITES BACK is block `t` of `G2` of the arrays as the call finds them. -/
theorem flushed2_6_eq (c : Dev nD) (t : Fin cfg2.N) :
    (dat2 (F := Ideal) V c).flushed 6 t = ((cfg2.win 6).blk t).view.read (Elt Ideal)
      (G2 (V c main_v126) (V c main_arg1) (V c main_v138) (V c main_v141) (V c main_v142) (V c main_v143)) := by
  show (cfg2.win 6).cut (grid2.coords t) ((dat2 (F := Ideal) V c).after 6 t) = _
  rw [after2_6]
  unfold out2_6
  rw [View.canon_unit_zero hz2]
  simp only [View.ld_unit_zero (S := S20000x64) hz2, View.ld_unit_zero (S := S1x64) hz2, View.ld_unit_zero (S := S64x64) hz2]
  have ht : t.val < 20 := lt_of_lt_of_eq t.isLt N_2
  obtain ⟨-, -, -, -, -, -, -, -, -, -, -, -, e0, e1⟩ := idx_facts2 t
  refine funext fun (j : S20000x64.Idx) => ?_
  obtain ⟨p, q, rfl⟩ : ∃ (p : Fin 20000) (q : Fin 64), j = ix2 p q := ⟨j 0, j 1, eq_ix2 j⟩
  show k2_pay1 (F := Ideal) (iblk2 V c 0 t) (iblk2 V c 2 t) (iblk2 V c 3 t) (iblk2 V c 4 t) (iblk2 V c 1 t) (iblk2 V c 5 t) (ix2 p q)
     = G2 (V c main_v126) (V c main_arg1) (V c main_v138) (V c main_v141) (V c main_v142) (V c main_v143) (((cfg2.win 6).blk t).view.emb (ix2 p q))
  have hp := p.isLt
  have hrow : ((((cfg2.win 6).blk t).view.emb (ix2 p q)) 0).val = (⟨t.val * 20000 + p.val, by omega⟩ : Fin 400000).val := by
    show win2_6.index t (0 : Fin 2) * 20000 + 1 * p.val = t.val * 20000 + p.val; omega
  have hcol : ((((cfg2.win 6).blk t).view.emb (ix2 p q)) 1).val = q.val := by
    show win2_6.index t (1 : Fin 2) * 64 + 1 * q.val = q.val; omega
  refine (pay2_apply (iblk2 V c 0 t) (iblk2 V c 2 t) (iblk2 V c 3 t) (iblk2 V c 4 t) (iblk2 V c 1 t) (iblk2 V c 5 t) p q).trans ?_
  refine Eq.trans ?_ (G2_apply_of (V c main_v126) (V c main_arg1) (V c main_v138) (V c main_v141) (V c main_v142) (V c main_v143)
    (((cfg2.win 6).blk t).view.emb (ix2 p q)) ⟨t.val * 20000 + p.val, by omega⟩ q hrow hcol).symm
  rw [scblk_eq V c t, shblk_eq V c t, wyblk_eq V c t, wsblk_eq V c t]
  exact congrArg₂ (fun a b : EReal => a + b)
    (Finset.sum_congr rfl fun k _ => by rw [yblk_apply V c t p k ⟨t.val * 20000 + p.val, by omega⟩ rfl])
    (Finset.sum_congr rfl fun k _ => by rw [skblk_apply V c t p k ⟨t.val * 20000 + p.val, by omega⟩ rfl])

/-- An index of the array is in point `t`'s block iff each coordinate is in the block's range on its axis. -/
theorem mem_blk2_6 (t : Fin cfg2.N) (i : S400000x64.Idx) :
    i ∈ ((cfg2.win 6).blk t).view.set ↔ ∀ a : Fin 2, win2_6.index t a * S20000x64.size a ≤ (i a).val ∧ (i a).val < win2_6.index t a * S20000x64.size a + S20000x64.size a := by
  show i ∈ ((View.whole main_v144).slice (win2_6.rect t)).set ↔ _
  rw [View.set_slice_whole, Rect.mem_set_unit]
  exact Iff.rfl

/-- Row `r` of the array lies in the block of point `r / 20000`: the twenty blocks tile the array. -/
theorem covered2_6 (i : S400000x64.Idx) :
    ∃ t : Fin cfg2.N, (cfg2.win 6).flush t = true ∧ i ∈ ((cfg2.win 6).blk t).view.set := by
  have hi0 : (i 0).val < 400000 := (i 0).isLt
  have hi1 : (i 1).val < 64 := (i 1).isLt
  obtain ⟨t, ht⟩ : ∃ t : Fin cfg2.N, t.val = (i 0).val / 20000 :=
    ⟨⟨(i 0).val / 20000, lt_of_lt_of_eq (by omega : (i 0).val / 20000 < 20) N_2.symm⟩, rfl⟩
  obtain ⟨-, -, -, -, -, -, -, -, -, -, -, -, e0, e1⟩ := idx_facts2 t
  refine ⟨t, flush2_6 t, ?_⟩
  rw [mem_blk2_6]
  intro a
  match a with
  | ⟨0, _⟩ => show win2_6.index t (0 : Fin 2) * 20000 ≤ (i 0).val ∧ (i 0).val < win2_6.index t (0 : Fin 2) * 20000 + 20000; omega
  | ⟨1, _⟩ => show win2_6.index t (1 : Fin 2) * 64 ≤ (i 1).val ∧ (i 1).val < win2_6.index t (1 : Fin 2) * 64 + 64; omega

/-- THE RESULT ARRAY after the whole grid: `max(y · scale + shift, 0) · Wy + skip · Ws`, index by index. -/
theorem arrAt2_6 (V : (c : Dev nD) → (b : Ref sig .tc) → Buf (Elt Ideal) ((c : Thread nD τ).loc b)) (c : Dev nD) :
    (dat2 (F := Ideal) V c).arrAt 6 cfg2.N
      = G2 (V c main_v126) (V c main_arg1) (V c main_v138) (V c main_v141) (V c main_v142) (V c main_v143) :=
  (dat2 (F := Ideal) V c).arrAt_eq_of_cover 6
    (G2 (V c main_v126) (V c main_arg1) (V c main_v138) (V c main_v141) (V c main_v142) (V c main_v143))
    (fun t _ => flushed2_6_eq V c t) covered2_6

end Cert.KernelIdeal.Fr

end
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.Spec.lean ====
/-
  The mathematics both programs compute, as index-by-index functions over the extended reals.

  Edge `e = k · 100000 + p` of the rulebook takes input row `inRow e` (the index word, wrapped once if negative, clamped
  into the table), multiplies it by the k-th 128×64 weight slab, and adds the resulting 64-vector into output row
  `sidx e` (wrapped once if negative; out-of-range rows drop). The 400000×64 result `y` is then normalised per channel
  over its rows (batch statistics), passed through max(·, 0), joined with the skip features and multiplied by the 128×64
  fuse matrix. The reference normalises as `(y - μ) · rsqrt(σ² + ε) · γ + β` with `σ² = mean((y - μ)²)`; the kernel as
  `y · s + (β - μ · s)` with `s = γ · rsqrt(mean(y²) - μ² + ε)`, and splits the last product into its two 64-row halves.
-/
import Idealize.ShloMosaic.Lib.ValueIdx
import Idealize.ShloMosaic.PureOps.Ideal
import proofs.«105424_j83674552861285_1_alg».proof.Proof.LibGatherScatter

noncomputable section

namespace Cert.Spec

open Idealize.ShloMosaic Idealize.ShloMosaic.ValueIdx

abbrev Sx : Shape := ⟨2, ![100000, 128]⟩
abbrev Sy : Shape := ⟨2, ![400000, 64]⟩
abbrev Sw : Shape := ⟨3, ![8, 128, 64]⟩
abbrev Sc : Shape := ⟨1, ![64]⟩
abbrev Swf : Shape := ⟨2, ![128, 64]⟩
abbrev Si : Shape := ⟨2, ![8, 100000]⟩
abbrev Su : Shape := ⟨2, ![800000, 64]⟩
abbrev Ss : Shape := ⟨2, ![800000, 1]⟩

/-- An index word with a negative value wrapped once by the extent `N` (numpy's negative indexing). -/
def wrap (N : BitVec 32) (v : BitVec 32) : BitVec 32 := Scalar.select (IntOp.cmpi .slt v 0#32) (IntOp.addi v N) v

/-- Edge `e`'s kernel offset `k` and pair number `p`: `e = k · 100000 + p`. -/
def ek (e : Fin 800000) : Fin 8 := ⟨e.val / 100000, by have := e.isLt; omega⟩
def ep (e : Fin 800000) : Fin 100000 := ⟨e.val % 100000, Nat.mod_lt _ (by decide)⟩

/-- The input row edge `e` gathers: its word wrapped, read signed, clamped into `[0, 99999]`. -/
def inRow (iin : Si.Idx → BitVec 32) (e : Fin 800000) : Fin 100000 :=
  LibGatherScatter.clampRow 100000 (by decide) (wrap 100000#32 (iin (ix2 (ek e) (ep e))))

/-- The update rows of the scatter: edge `e`'s gathered input row times the `ek e`-th weight slab. -/
def upd (x : Sx.Idx → EReal) (W : Sw.Idx → EReal) (iin : Si.Idx → BitVec 32) : Su.Idx → EReal :=
  fun j => ∑ i : Fin 128, x (ix2 (inRow iin ⟨(j 0).val, idx2_lt0 j⟩) i) * W (ix3 (ek ⟨(j 0).val, idx2_lt0 j⟩) i (⟨(j 1).val, idx2_lt1 j⟩ : Fin 64))

/-- The scatter's index column: edge `e`'s output word, wrapped once if negative. -/
def sidx (iout : Si.Idx → BitVec 32) : IVec Ss 32 :=
  fun j => wrap 400000#32 (iout (ix2 (ek ⟨(j 0).val, idx2_lt0 j⟩) (ep ⟨(j 0).val, idx2_lt0 j⟩)))

theorem scat_wf : ScatterDims.WF Sy Ss Su [1] [0] [0] 1 := by decide
/-- The dimension numbers of the accumulating row scatter `y.at[idx].add(u)`. -/
abbrev scat : ScatterDims Sy Ss Su := LibGatherScatter.scatRowsDims 400000 800000 64 scat_wf

/-- The scattered grid: zeros plus every edge's update row added at its output row. -/
def yOf (iout : Si.Idx → BitVec 32) (u : Su.Idx → EReal) : Sy.Idx → EReal :=
  Ideal.hostScatterAdd scat (fun _ => (0 : EReal)) (sidx iout) u

/-- The row count 400000 and the variance floor 1e-5, as the float words both programs print. -/
def Nf : EReal := Ideal.ofBits .f32 0x48C35000#32
def epsf : EReal := Ideal.ofBits .f32 0x3727C5AC#32

def colsum (y : Sy.Idx → EReal) (c : Fin 64) : EReal := ∑ r : Fin 400000, y (ix2 r c)
def sqsum (y : Sy.Idx → EReal) (c : Fin 64) : EReal := ∑ r : Fin 400000, y (ix2 r c) * y (ix2 r c)
def mean (y : Sy.Idx → EReal) (c : Fin 64) : EReal := Ideal.div (colsum y c) Nf

/-! ## The reference's normalisation -/

def varR (y : Sy.Idx → EReal) (c : Fin 64) : EReal :=
  Ideal.div (∑ r : Fin 400000, (y (ix2 r c) - mean y c) * (y (ix2 r c) - mean y c)) Nf
def bnR (y : Sy.Idx → EReal) (γ β : Sc.Idx → EReal) (r : Fin 400000) (c : Fin 64) : EReal :=
  max ((y (ix2 r c) - mean y c) * Ideal.rsqrt (varR y c + epsf) * γ (ix1 c) + β (ix1 c)) 0
/-- Row `r` of the joined features `[relu(bn(y)), skip]`. -/
def zR (y sk : Sy.Idx → EReal) (γ β : Sc.Idx → EReal) (r : Fin 400000) (j : Fin 128) : EReal :=
  if h : j.val < 64 then bnR y γ β r ⟨j.val, h⟩ else sk (ix2 r (⟨j.val - 64, by have := j.isLt; omega⟩ : Fin 64))
def outR (y sk : Sy.Idx → EReal) (γ β : Sc.Idx → EReal) (Wf : Swf.Idx → EReal) : Sy.Idx → EReal :=
  fun i => ∑ j : Fin 128, zR y sk γ β ⟨(i 0).val, idx2_lt0 i⟩ j * Wf (ix2 j (⟨(i 1).val, idx2_lt1 i⟩ : Fin 64))

/-! ## The kernel's normalisation -/

def varK (y : Sy.Idx → EReal) (c : Fin 64) : EReal := Ideal.div (sqsum y c) Nf - mean y c * mean y c
def scaleK (y : Sy.Idx → EReal) (γ : Sc.Idx → EReal) (c : Fin 64) : EReal := γ (ix1 c) * Ideal.rsqrt (varK y c + epsf)
def shiftK (y : Sy.Idx → EReal) (γ β : Sc.Idx → EReal) (c : Fin 64) : EReal := β (ix1 c) - mean y c * scaleK y γ c
def bnK (y : Sy.Idx → EReal) (γ β : Sc.Idx → EReal) (r : Fin 400000) (c : Fin 64) : EReal :=
  max (y (ix2 r c) * scaleK y γ c + shiftK y γ β c) 0
def outK (y sk : Sy.Idx → EReal) (γ β : Sc.Idx → EReal) (Wf : Swf.Idx → EReal) : Sy.Idx → EReal :=
  fun i => (∑ j : Fin 64, bnK y γ β ⟨(i 0).val, idx2_lt0 i⟩ j * Wf (ix2 (⟨j.val, by have := j.isLt; omega⟩ : Fin 128) (⟨(i 1).val, idx2_lt1 i⟩ : Fin 64)))
    + ∑ j : Fin 64, sk (ix2 (⟨(i 0).val, idx2_lt0 i⟩ : Fin 400000) j) * Wf (ix2 (⟨64 + j.val, by have := j.isLt; omega⟩ : Fin 128) (⟨(i 1).val, idx2_lt1 i⟩ : Fin 64))

end Cert.Spec

end
-- ==== Proof.KI.Host1.lean ====
/-
  The host operations between the first and the second kernel launch, read at the ideal values.

  From the feature matrix x : [100000, 512], viewed as [100000, 8, 64], the input-row table iin : [8, 100000] and the
  output-row table iout : [8, 100000], the stretch computes: for each slab k and pair p the 64-vector
  x[r, k, :] at the row r = iin[k, p] wrapped once if negative and clamped into [0, 99999]; the eight [100000, 64]
  results joined along a new leading axis and flattened to [800000, 64], row e = k · 100000 + p; and that row added into
  row iout[k, p] (wrapped once if negative, dropped if out of range) of a zero [400000, 64] grid.
  So the grid is `yOf iout u` with u[e, c] = x[inRow e, 64 · ek e + c].

  The gather is read at an index through its dimension numbers; the accumulating scatter is not opened: both sides are
  the same exact sum once its zero operand, its index column and its update rows are identified.
-/
import proofs.«105424_j83674552861285_1_alg».proof.Proof.Gen.KernelIdeal.Launch
import proofs.«105424_j83674552861285_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Fr

open Cert.KernelIdeal.Gen Idealize.ShloMosaic Idealize.ShloMosaic.TcCoe
open Idealize.ShloMosaic.ValueIdx

/-- The dimension numbers of a gather of length-D rows out of a rank-3 operand, one (row, slab) index pair per result row. -/
abbrev pairDims (N K D E : Nat)
    (wf : GatherDims.WF ⟨3, ![N, K, D]⟩ ⟨2, ![E, 2]⟩ ⟨2, ![E, D]⟩ [1] [0, 1] [] [0, 1] [] 1 ![1, 1, D]) :
    GatherDims ⟨3, ![N, K, D]⟩ ⟨2, ![E, 2]⟩ ⟨2, ![E, D]⟩ where
  offsetDims := [1]
  collapsedSliceDims := [0, 1]
  operandBatchingDims := []
  startIndicesBatchingDims := []
  startIndexMap := [0, 1]
  indexVectorDim := 1
  sliceSizes := ![1, 1, D]
  wf := wf

theorem gather_pair_apply {α : Type} {N K D E w : Nat} (hN : 0 < N) (hK : 0 < K)
    (wf : GatherDims.WF ⟨3, ![N, K, D]⟩ ⟨2, ![E, 2]⟩ ⟨2, ![E, D]⟩ [1] [0, 1] [] [0, 1] [] 1 ![1, 1, D])
    (x : (⟨3, ![N, K, D]⟩ : Shape).Idx → α) (idx : IVec ⟨2, ![E, 2]⟩ w) (e : Fin E) (c : Fin D) :
    Host.gather (pairDims N K D E wf) x idx (ix2 e c)
      = x (ix3 (LibGatherScatter.clampRow N hN (idx (ix2 e (0 : Fin 2)))) (LibGatherScatter.clampRow K hK (idx (ix2 e (1 : Fin 2)))) c) := by
  unfold Host.gather
  congr 1
  funext a
  refine Fin.ext ?_
  match a with
  | ⟨0, _⟩ =>
    show (pairDims N K D E wf).start (ix2 e c) idx 0 + (pairDims N K D E wf).batchCoord (ix2 e c) 0
      + (pairDims N K D E wf).offCoord (ix2 e c) 0 = _
    rw [GatherDims.batchCoord_eq_zero _ _ _ List.not_mem_nil,
      GatherDims.offCoord_eq_zero _ _ _ (fun h => ((GatherDims.mem_sKept _ _).mp h).1 (by decide : (0 : Fin 3) ∈ ([0, 1] : List (Fin 3))))]
    simp only [Nat.add_zero]
    unfold GatherDims.start
    rw [dif_pos (show (0 : Fin 3) ∈ (pairDims N K D E wf).startIndexMap from (by decide : (0 : Fin 3) ∈ ([0, 1] : List (Fin 3))))]
    have hsi : (pairDims N K D E wf).siIdx (ix2 e c) ⟨List.idxOf (0 : Fin 3) (pairDims N K D E wf).startIndexMap,
        List.idxOf_lt_length_iff.2 (by decide : (0 : Fin 3) ∈ ([0, 1] : List (Fin 3)))⟩ = ix2 e (0 : Fin 2) := by
      funext b; refine Fin.ext ?_
      match b with
      | ⟨0, _⟩ => rfl
      | ⟨1, _⟩ => rfl
    rw [hsi]
    rfl
  | ⟨1, _⟩ =>
    show (pairDims N K D E wf).start (ix2 e c) idx 1 + (pairDims N K D E wf).batchCoord (ix2 e c) 1
      + (pairDims N K D E wf).offCoord (ix2 e c) 1 = _
    rw [GatherDims.batchCoord_eq_zero _ _ _ List.not_mem_nil,
      GatherDims.offCoord_eq_zero _ _ _ (fun h => ((GatherDims.mem_sKept _ _).mp h).1 (by decide : (1 : Fin 3) ∈ ([0, 1] : List (Fin 3))))]
    simp only [Nat.add_zero]
    unfold GatherDims.start
    rw [dif_pos (show (1 : Fin 3) ∈ (pairDims N K D E wf).startIndexMap from (by decide : (1 : Fin 3) ∈ ([0, 1] : List (Fin 3))))]
    have hsi : (pairDims N K D E wf).siIdx (ix2 e c) ⟨List.idxOf (1 : Fin 3) (pairDims N K D E wf).startIndexMap,
        List.idxOf_lt_length_iff.2 (by decide : (1 : Fin 3) ∈ ([0, 1] : List (Fin 3)))⟩ = ix2 e (1 : Fin 2) := by
      funext b; refine Fin.ext ?_
      match b with
      | ⟨0, _⟩ => rfl
      | ⟨1, _⟩ => rfl
    rw [hsi]
    rfl
  | ⟨2, _⟩ =>
    show (pairDims N K D E wf).start (ix2 e c) idx 2 + (pairDims N K D E wf).batchCoord (ix2 e c) 2
      + (pairDims N K D E wf).offCoord (ix2 e c) 2 = c.val
    rw [GatherDims.batchCoord_eq_zero _ _ _ List.not_mem_nil]
    unfold GatherDims.start
    rw [dif_neg (show ¬ (2 : Fin 3) ∈ (pairDims N K D E wf).startIndexMap from (by decide : ¬ (2 : Fin 3) ∈ ([0, 1] : List (Fin 3))))]
    simp only [Nat.add_zero, Nat.zero_add]
    unfold GatherDims.offCoord
    rw [dif_pos (show (2 : Fin 3) ∈ (pairDims N K D E wf).sKept from (GatherDims.mem_sKept _ _).mpr
      ⟨(by decide : ¬ (2 : Fin 3) ∈ ([0, 1] : List (Fin 3))), List.not_mem_nil⟩)]
    rfl

theorem G_eq : gather_S100000x8x64_S100000x2_S100000x64_1_01_n_n_01_1_1164
    = pairDims 100000 8 64 100000 gather_S100000x8x64_S100000x2_S100000x64_1_01_n_n_01_1_1164_wf := rfl

/-! ## The k-th row of the index table, wrapped, paired with the constant k -/

/-- Row `k` of an 8-row table is a one-row slice of it. -/
theorem slicesK (k : Fin 8) : S8x100000.Slices ![k.val, 0] S1x100000 :=
  ⟨rfl, fun a => match a with
    | ⟨0, _⟩ => by show k.val + 1 ≤ 8; omega
    | ⟨1, _⟩ => by show 0 + 100000 ≤ 100000; omega⟩

/-- Row `k` of the index table as a vector. -/
def rowK (a6 : S8x100000.Idx → BitVec 32) (k : Fin 8) : S100000.Idx → BitVec 32 :=
  shapeCast S100000 (extractStridedSlice S1x100000 ![k.val, 0] a6 (slicesK k)) shapeCasts_S1x100000_S100000

theorem rowK_apply (a6 : S8x100000.Idx → BitVec 32) (k : Fin 8) (p : Fin 100000) : rowK a6 k (ix1 p) = a6 (ix2 k p) := by
  unfold rowK
  rw [shapeCast_1a_a_apply]
  exact slice2_axis0_apply k.val a6 (slicesK k) (0 : Fin 1) p k rfl

/-- Row `k` with its negative words wrapped once by 100000. -/
def wrapK (a6 : S8x100000.Idx → BitVec 32) (k : Fin 8) : S100000.Idx → BitVec 32 :=
  select (cmpi .slt (rowK a6 k) (broadcastInDim S100000 ![] bcast_S_S100000 (constantI S_ 32 0#32)))
    (addi (rowK a6 k) (broadcastInDim S100000 ![] bcast_S_S100000 (constantI S_ 32 100000#32))) (rowK a6 k)

theorem wrapK_apply (a6 : S8x100000.Idx → BitVec 32) (k : Fin 8) (p : Fin 100000) :
    wrapK a6 k (ix1 p) = Cert.Spec.wrap 100000#32 (a6 (ix2 k p)) := by
  rw [← rowK_apply a6 k p]; rfl

/-- A vector laid out as a one-column matrix reads the vector. -/
theorem bcast_col_apply {α : Type} (v : S100000.Idx → α) (p : Fin 100000) (z : Fin 1) :
    broadcastInDim S100000x1 ![0] bcast_S100000_S100000x1_0 v (ix2 p z) = v (ix1 p) :=
  broadcastInDim_apply _ bcast_S100000_S100000x1_0 v (ix2 p z) (ix1 p) (fun a => match a with
    | ⟨0, _⟩ => by show p.val = if (100000 : Nat) = 1 then 0 else p.val; rw [if_neg (by decide)])

/-- The [100000, 2] index array of slab `k`: column 0 the wrapped row word, column 1 the constant `k`. -/
def idxK (a6 : S8x100000.Idx → BitVec 32) (k : Fin 8) : S100000x2.Idx → BitVec 32 :=
  concatenate S100000x2 1
    [⟨S100000x1, broadcastInDim S100000x1 ![0] bcast_S100000_S100000x1_0 (wrapK a6 k)⟩,
     ⟨S100000x1, broadcastInDim S100000x1 ![0] bcast_S100000_S100000x1_0
        (id (broadcastInDim S100000 ![] bcast_S_S100000 (constantI S_ 32 (BitVec.ofNat 32 k.val))))⟩]
    concatenates_S100000x1_S100000x1_S100000x2_d1

theorem idxK_col0 (a6 : S8x100000.Idx → BitVec 32) (k : Fin 8) (p : Fin 100000) :
    idxK a6 k (ix2 p (0 : Fin 2)) = Cert.Spec.wrap 100000#32 (a6 (ix2 k p)) := by
  unfold idxK
  rw [concatenate_pair_apply_left (s₁ := S100000x1) (s₂ := S100000x1) 1 _ _ _ (ix2 p (0 : Fin 2)) rfl (ix2 p (0 : Fin 1))
    (fun b => match b with | ⟨0, _⟩ => rfl | ⟨1, _⟩ => rfl), bcast_col_apply, wrapK_apply]

theorem idxK_col1 (a6 : S8x100000.Idx → BitVec 32) (k : Fin 8) (p : Fin 100000) :
    idxK a6 k (ix2 p (1 : Fin 2)) = BitVec.ofNat 32 k.val := by
  unfold idxK
  rw [concatenate_pair_apply_right (s₁ := S100000x1) (s₂ := S100000x1) 1 _ _ _ (ix2 p (1 : Fin 2)) rfl rfl (ix2 p (0 : Fin 1))
    (fun b hb => match b with | ⟨0, _⟩ => rfl | ⟨1, _⟩ => absurd rfl hb) rfl, bcast_col_apply]
  rfl

/-- The constant `k < 8`, read signed and clamped into [0, 7], is `k`. -/
theorem clamp_slab (k : Fin 8) : LibGatherScatter.clampRow 8 (by decide) (BitVec.ofNat 32 k.val) = k := by
  revert k; decide

/-! ## The k-th gather, its slab, the join, and the rows the scatter adds -/

/-- The gather for slab `k`: row `p` is the operand's row `(clamp w_p, k, ·)`. -/
def gathK (x3 : S100000x8x64.Idx → EReal) (a6 : S8x100000.Idx → BitVec 32) (k : Fin 8) : S100000x64.Idx → EReal :=
  Host.gather gather_S100000x8x64_S100000x2_S100000x64_1_01_n_n_01_1_1164 x3 (idxK a6 k)

theorem gathK_apply (x3 : S100000x8x64.Idx → EReal) (a6 : S8x100000.Idx → BitVec 32) (k : Fin 8) (p : Fin 100000) (c : Fin 64) :
    gathK x3 a6 k (ix2 p c)
      = x3 (ix3 (LibGatherScatter.clampRow 100000 (by decide) (Cert.Spec.wrap 100000#32 (a6 (ix2 k p)))) k c) := by
  unfold gathK
  rw [G_eq, gather_pair_apply (by decide) (by decide), idxK_col0, idxK_col1, clamp_slab]

/-- The [100000, 512] features viewed as [100000, 8, 64]. -/
def x3Of (x : S100000x512.Idx → EReal) : S100000x8x64.Idx → EReal :=
  shapeCast S100000x8x64 x shapeCasts_S100000x512_S100000x8x64

theorem x3Of_apply (x : S100000x512.Idx → EReal) (r : Fin 100000) (k : Fin 8) (c : Fin 64) :
    x3Of x (ix3 r k c) = x (ix2 r (⟨k.val * 64 + c.val, by omega⟩ : Fin 512)) :=
  shapeCast_apply x shapeCasts_S100000x512_S100000x8x64 _ _ (by
    rw [Shape.rowMajor_val_two, Shape.rowMajor_val_three]
    show r.val * 512 + (k.val * 64 + c.val) = (r.val * 8 + k.val) * 64 + c.val
    omega)

/-- Slab `k` of the joined array. -/
def slabK (x3 : S100000x8x64.Idx → EReal) (a6 : S8x100000.Idx → BitVec 32) (k : Fin 8) : S1x100000x64.Idx → EReal :=
  broadcastInDim S1x100000x64 ![1, 2] bcast_S100000x64_S1x100000x64_1_2 (gathK x3 a6 k)

theorem slabK_apply (x3 : S100000x8x64.Idx → EReal) (a6 : S8x100000.Idx → BitVec 32) (k : Fin 8) (z : Fin 1) (p : Fin 100000) (c : Fin 64) :
    slabK x3 a6 k (ix3 z p c) = gathK x3 a6 k (ix2 p c) :=
  broadcastInDim_apply _ bcast_S100000x64_S1x100000x64_1_2 _ (ix3 z p c) (ix2 p c) (fun a => match a with
    | ⟨0, _⟩ => by show p.val = if (100000 : Nat) = 1 then 0 else p.val; rw [if_neg (by decide)]
    | ⟨1, _⟩ => by show c.val = if (64 : Nat) = 1 then 0 else c.val; rw [if_neg (by decide)])

/-- The eight slabs joined along a new leading axis. -/
def catOf (x3 : S100000x8x64.Idx → EReal) (a6 : S8x100000.Idx → BitVec 32) : S8x100000x64.Idx → EReal :=
  concatenate S8x100000x64 0 (List.ofFn fun k : Fin 8 => (⟨S1x100000x64, slabK x3 a6 k⟩ : (s : Shape) × (s.Idx → EReal)))
    concatenates_S1x100000x64_S1x100000x64_S1x100000x64_S1x100000x64_S1x100000x64_S1x100000x64_S1x100000x64_S1x100000x64_S8x100000x64_d0

theorem catOf_apply (x3 : S100000x8x64.Idx → EReal) (a6 : S8x100000.Idx → BitVec 32) (k : Fin 8) (p : Fin 100000) (c : Fin 64) :
    catOf x3 a6 (ix3 k p c) = slabK x3 a6 k (ix3 (0 : Fin 1) p c) :=
  concatenate_ofFn_unit_apply 0 (fun k : Fin 8 => slabK x3 a6 k) concatenates_S1x100000x64_S1x100000x64_S1x100000x64_S1x100000x64_S1x100000x64_S1x100000x64_S1x100000x64_S1x100000x64_S8x100000x64_d0 rfl rfl (ix3 k p c) k rfl (ix3 (0 : Fin 1) p c)
    (fun b hb => match b with | ⟨0, _⟩ => absurd rfl hb | ⟨1, _⟩ => rfl | ⟨2, _⟩ => rfl)

/-- The update rows of the scatter: the join flattened to [800000, 64]. -/
def updOf (x : S100000x512.Idx → EReal) (a6 : S8x100000.Idx → BitVec 32) : S800000x64.Idx → EReal :=
  shapeCast S800000x64 (catOf (x3Of x) a6) shapeCasts_S8x100000x64_S800000x64

theorem updOf_apply (x : S100000x512.Idx → EReal) (a6 : S8x100000.Idx → BitVec 32) (e : Fin 800000) (c : Fin 64) :
    updOf x a6 (ix2 e c)
      = x (ix2 (Cert.Spec.inRow a6 e) (⟨(Cert.Spec.ek e).val * 64 + c.val, by have := (Cert.Spec.ek e).isLt; omega⟩ : Fin 512)) := by
  unfold updOf
  rw [shapeCast_apply _ shapeCasts_S8x100000x64_S800000x64 (ix2 e c) (ix3 (Cert.Spec.ek e) (Cert.Spec.ep e) c) (by
    rw [Shape.rowMajor_val_three, Shape.rowMajor_val_two]
    show (e.val / 100000 * 100000 + e.val % 100000) * 64 + c.val = e.val * 64 + c.val
    omega)]
  rw [catOf_apply, slabK_apply, gathK_apply, x3Of_apply]
  rfl

/-! ## The scatter's index column -/

/-- The [8, 100000] output-row table flattened to [800000]. -/
def flat7 (a7 : S8x100000.Idx → BitVec 32) : S800000.Idx → BitVec 32 := shapeCast S800000 a7 shapeCasts_S8x100000_S800000

theorem flat7_apply (a7 : S8x100000.Idx → BitVec 32) (e : Fin 800000) :
    flat7 a7 (ix1 e) = a7 (ix2 (Cert.Spec.ek e) (Cert.Spec.ep e)) :=
  shapeCast_apply a7 shapeCasts_S8x100000_S800000 _ _ (by
    rw [Shape.rowMajor_val_two, Shape.rowMajor_val_one]
    show e.val / 100000 * 100000 + e.val % 100000 = e.val
    omega)

/-- The index column the scatter reads: each flattened word wrapped once by 400000. -/
def sidxOf (a7 : S8x100000.Idx → BitVec 32) : S800000x1.Idx → BitVec 32 :=
  broadcastInDim S800000x1 ![0] bcast_S800000_S800000x1_0
    (select (cmpi .slt (flat7 a7) (broadcastInDim S800000 ![] bcast_S_S800000 (constantI S_ 32 0#32)))
      (addi (flat7 a7) (broadcastInDim S800000 ![] bcast_S_S800000 (constantI S_ 32 400000#32))) (flat7 a7))

theorem sidxOf_eq (a7 : S8x100000.Idx → BitVec 32) : sidxOf a7 = Cert.Spec.sidx a7 := by
  funext j
  unfold sidxOf
  rw [broadcastInDim_apply _ bcast_S800000_S800000x1_0 _ j (ix1 (⟨(j 0).val, idx2_lt0 j⟩ : Fin 800000)) (fun a => match a with
    | ⟨0, _⟩ => by show (j 0).val = if (800000 : Nat) = 1 then 0 else (j 0).val; rw [if_neg (by decide)])]
  show Cert.Spec.wrap 400000#32 (flat7 a7 (ix1 (⟨(j 0).val, idx2_lt0 j⟩ : Fin 800000))) = _
  rw [flat7_apply]
  rfl

open Idealize.ShloMosaic.StableHlo in
/-- The eight-operand join writes the join of its operands' contents. -/
theorem v116_result {F : FTy → Type} [FloatOps F] (hxs hy) (V : Valuation τ sig (Elt F)) :
    (StableHlo.nary (τ := τ) ![main_v108, main_v109, main_v110, main_v111, main_v112, main_v113, main_v114, main_v115] main_v116
      (fun u => concatenate S8x100000x64 0 [⟨S1x100000x64, u 0⟩, ⟨S1x100000x64, u 1⟩, ⟨S1x100000x64, u 2⟩, ⟨S1x100000x64, u 3⟩, ⟨S1x100000x64, u 4⟩, ⟨S1x100000x64, u 5⟩, ⟨S1x100000x64, u 6⟩, ⟨S1x100000x64, u 7⟩] concatenates_S1x100000x64_S1x100000x64_S1x100000x64_S1x100000x64_S1x100000x64_S1x100000x64_S1x100000x64_S1x100000x64_S8x100000x64_d0) hxs hy).result V (no_index (Proc.devRef .tc main_v116))
    = concatenate S8x100000x64 0 [⟨S1x100000x64, V (Proc.devRef .tc main_v108)⟩, ⟨S1x100000x64, V (Proc.devRef .tc main_v109)⟩, ⟨S1x100000x64, V (Proc.devRef .tc main_v110)⟩, ⟨S1x100000x64, V (Proc.devRef .tc main_v111)⟩, ⟨S1x100000x64, V (Proc.devRef .tc main_v112)⟩, ⟨S1x100000x64, V (Proc.devRef .tc main_v113)⟩, ⟨S1x100000x64, V (Proc.devRef .tc main_v114)⟩, ⟨S1x100000x64, V (Proc.devRef .tc main_v115)⟩] concatenates_S1x100000x64_S1x100000x64_S1x100000x64_S1x100000x64_S1x100000x64_S1x100000x64_S1x100000x64_S1x100000x64_S8x100000x64_d0 :=
  (StableHlo.nary_result _ _ _ hxs hy V).trans rfl

/-- Joining eight slabs respects equality of the slabs. -/
theorem cat8_congr {α : Type} {a0 a1 a2 a3 a4 a5 a6 a7 b0 b1 b2 b3 b4 b5 b6 b7 : S1x100000x64.Idx → α}
    (h0 : a0 = b0) (h1 : a1 = b1) (h2 : a2 = b2) (h3 : a3 = b3) (h4 : a4 = b4) (h5 : a5 = b5) (h6 : a6 = b6) (h7 : a7 = b7) :
    concatenate S8x100000x64 0 [⟨S1x100000x64, a0⟩, ⟨S1x100000x64, a1⟩, ⟨S1x100000x64, a2⟩, ⟨S1x100000x64, a3⟩, ⟨S1x100000x64, a4⟩, ⟨S1x100000x64, a5⟩, ⟨S1x100000x64, a6⟩, ⟨S1x100000x64, a7⟩] concatenates_S1x100000x64_S1x100000x64_S1x100000x64_S1x100000x64_S1x100000x64_S1x100000x64_S1x100000x64_S1x100000x64_S8x100000x64_d0
      = concatenate S8x100000x64 0 [⟨S1x100000x64, b0⟩, ⟨S1x100000x64, b1⟩, ⟨S1x100000x64, b2⟩, ⟨S1x100000x64, b3⟩, ⟨S1x100000x64, b4⟩, ⟨S1x100000x64, b5⟩, ⟨S1x100000x64, b6⟩, ⟨S1x100000x64, b7⟩] concatenates_S1x100000x64_S1x100000x64_S1x100000x64_S1x100000x64_S1x100000x64_S1x100000x64_S1x100000x64_S1x100000x64_S8x100000x64_d0 := by
  subst h0 h1 h2 h3 h4 h5 h6 h7; rfl

/-- Joining two index columns respects equality of the columns. -/
theorem cat2_congr {α : Type} {a b a' b' : S100000x1.Idx → α} (ha : a = a') (hb : b = b') :
    concatenate S100000x2 1 [⟨S100000x1, a⟩, ⟨S100000x1, b⟩] concatenates_S100000x1_S100000x1_S100000x2_d1
      = concatenate S100000x2 1 [⟨S100000x1, a'⟩, ⟨S100000x1, b'⟩] concatenates_S100000x1_S100000x1_S100000x2_d1 := by
  subst ha hb; rfl

attribute [local congr] cat8_congr cat2_congr

/-! ## The stretch read back, and its value -/

/-- The zero operand of the scatter. -/
theorem zero_operand :
    (broadcastInDim S400000x64 ![] bcast_S_S400000x64 (constant (F := Ideal) S_ .f32 0x00000000#32) : S400000x64.Idx → EReal)
      = fun _ => (0 : EReal) := by
  funext i
  exact Ideal.ofBits_zero_f32

/-- The update rows, row by row: edge `e`'s row is the features' row `inRow e`, columns `[64 k, 64 k + 64)` for `k = ek e`. -/
theorem updOf_eq (x : S100000x512.Idx → EReal) (a6 : S8x100000.Idx → BitVec 32) :
    updOf x a6 = fun j : Cert.Spec.Su.Idx =>
      x (ix2 (Cert.Spec.inRow a6 ⟨(j 0).val, idx2_lt0 j⟩)
        (⟨(Cert.Spec.ek ⟨(j 0).val, idx2_lt0 j⟩).val * 64 + (j 1).val, by have := (Cert.Spec.ek ⟨(j 0).val, idx2_lt0 j⟩).isLt; have := idx2_lt1 j; omega⟩ : Fin 512)) := by
  funext j
  exact (congrArg (updOf x a6) (eq_ix2 j)).trans (updOf_apply x a6 ⟨(j 0).val, idx2_lt0 j⟩ ⟨(j 1).val, idx2_lt1 j⟩)

set_option maxHeartbeats 40000000 in
open Idealize.ShloMosaic.StableHlo in
/-- What the stretch leaves in its last buffer, as one pure term of the three buffers it starts from. -/
theorem host1_run (W : Valuation τ sig (Elt Ideal)) :
    (StableHlo.after (hostOps1 (F := Ideal)) W (Proc.devRef .tc main_v126) : S400000x64.Idx → EReal)
      = (Host.scatterAdd scatter_S400000x64_S800000x1_S800000x64_1_0_0_1
          (broadcastInDim S400000x64 ![] bcast_S_S400000x64 (constant (F := Ideal) S_ .f32 0x00000000#32))
          (sidxOf (W (Proc.devRef .tc main_arg7) : S8x100000.Idx → BitVec 32))
          (updOf (W (Proc.devRef .tc main_v2) : S100000x512.Idx → EReal) (W (Proc.devRef .tc main_arg6) : S8x100000.Idx → BitVec 32))
          : FVec Ideal S400000x64 .f32) := by
  simp (disch := decide) only [hostOps1, after_cons, after_nil,
      nullary_result', unary_result', binary_result', ternary_result', reshape_result', v116_result,
      nullary_result_ne', unary_result_ne', binary_result_ne', ternary_result_ne', reshape_result_ne', nary_result_ne']
  rfl

theorem host1_v126 (W : Valuation τ sig (Elt Ideal)) :
    (StableHlo.after (hostOps1 (F := Ideal)) W (Proc.devRef .tc main_v126) : S400000x64.Idx → EReal)
      = Cert.Spec.yOf (W (Proc.devRef .tc main_arg7) : S8x100000.Idx → BitVec 32)
          (fun j : Cert.Spec.Su.Idx => (W (Proc.devRef .tc main_v2) : S100000x512.Idx → EReal)
            (ValueIdx.ix2 (Cert.Spec.inRow (W (Proc.devRef .tc main_arg6) : S8x100000.Idx → BitVec 32) ⟨(j 0).val, ValueIdx.idx2_lt0 j⟩)
              (⟨(Cert.Spec.ek ⟨(j 0).val, ValueIdx.idx2_lt0 j⟩).val * 64 + (j 1).val, by have := (Cert.Spec.ek ⟨(j 0).val, ValueIdx.idx2_lt0 j⟩).isLt; have := ValueIdx.idx2_lt1 j; omega⟩ : Fin 512))) := by
  refine Eq.trans (host1_run W) ?_
  unfold Cert.Spec.yOf
  show Ideal.hostScatterAdd Cert.Spec.scat _ _ _ = Ideal.hostScatterAdd Cert.Spec.scat _ _ _
  rw [zero_operand, sidxOf_eq, updOf_eq]

end Cert.KernelIdeal.Fr
end
-- ==== Proof.KI.Host02.lean ====
/-
  What two short stretches of host operations compute, as functions of the buffer contents they start from, over the
  extended reals. The first lays the 8 weight slabs (each 128×64) side by side as one 128×512 matrix. The third turns
  the per-channel column sums and sums of squares of the scattered grid into the batch-norm scale and shift — mean
  `μ = s₀ / N`, scale `γ · rsqrt(s₁ / N − μ² + ε)`, shift `β − μ · scale` — and cuts the 128×64 fuse matrix into its
  upper and lower 64-row halves.
-/
import proofs.«105424_j83674552861285_1_alg».proof.Proof.Gen.KernelIdeal.Launch
import proofs.«105424_j83674552861285_1_alg».proof.Proof.Spec
import Idealize.ShloMosaic.Lib.StableHlo.Run
import Idealize.ShloMosaic.Lib.ValueIdx
import Idealize.ShloMosaic.Lib.Pipeline.Value
import Idealize.ShloMosaic.Lib.IdealHost

set_option maxRecDepth 16384

noncomputable section

namespace Cert.KernelIdeal.Fr

open Cert.KernelIdeal.Gen Idealize.ShloMosaic Idealize.ShloMosaic.TcCoe Idealize.ShloMosaic.ValueIdx

/-! ## The first stretch: the weight slabs laid side by side

The 8 slabs of 128×64 weights are transposed to 128×8×64 and flattened to 128×512: column `j` of the flat matrix is
column `j % 64` of slab `j / 64`. -/

theorem host0_v1 (W : Valuation τ sig (Elt Ideal)) : (StableHlo.after (hostOps0 (F := Ideal)) W (Proc.devRef .tc main_v1) : S128x512.Idx → EReal)
    = fun j => (W (Proc.devRef .tc main_arg2) : S8x128x64.Idx → EReal) (ix3 (⟨(j 1).val / 64, by have := idx2_lt1 j; omega⟩ : Fin 8) (⟨(j 0).val, idx2_lt0 j⟩ : Fin 128) (⟨(j 1).val % 64, Nat.mod_lt _ (by decide)⟩ : Fin 64)) := by
  show StableHlo.after (hostOps0 (F := Ideal)) W (Proc.devRef .tc main_v1) = _
  after_results
  funext j
  show shapeCast S128x512 (transpose S128x8x64 [1, 0, 2] (W (Proc.devRef .tc main_arg2)) transposes_S8x128x64_S128x8x64_1_0_2) shapeCasts_S128x8x64_S128x512 j = _
  have h0 : (j 0).val < 128 := idx2_lt0 j
  have h1 : (j 1).val < 512 := idx2_lt1 j
  -- the flat position (row, column) is position (row, column / 64, column % 64) of the 128×8×64 array
  refine (shapeCast_apply _ shapeCasts_S128x8x64_S128x512 j
    (ix3 (⟨(j 0).val, h0⟩ : Fin 128) (⟨(j 1).val / 64, by omega⟩ : Fin 8) (⟨(j 1).val % 64, Nat.mod_lt _ (by decide)⟩ : Fin 64)) ?_).trans ?_
  · rewrite [Shape.rowMajor_val_three, Shape.rowMajor_val_two]
    show ((j 0).val * 8 + (j 1).val / 64) * 64 + (j 1).val % 64 = (j 0).val * 512 + (j 1).val
    omega
  -- and the transpose swaps the first two coordinates
  · exact transpose_apply [1, 0, 2] _ transposes_S8x128x64_S128x8x64_1_0_2 _ _
      (fun b => match b with | ⟨0, _⟩ => rfl | ⟨1, _⟩ => rfl | ⟨2, _⟩ => rfl)

/-! ## The third stretch: the batch statistics turned into a scale and a shift per channel

From the column sums `s₀` and the sums of squares `s₁` the stretch forms the mean `μ = s₀ / N`, the scale
`γ · rsqrt(s₁ / N − μ² + ε)` and the shift `β − μ · scale`, and cuts the fuse matrix into its two 64-row halves. -/

/-- The host's reciprocal square root at an index is the ideal one of the element. -/
private theorem hostRsqrt_apply {s : Shape} {φ : FTy} (a : FVec Ideal s φ) (i : s.Idx) :
    Host.rsqrt a i = Ideal.rsqrt (a i) := rfl

/-- A scalar broadcast along the channels reads the scalar. -/
private theorem bcast_row {α : Type} (x : S_.Idx → α) (j : S1x64.Idx) :
    broadcastInDim S1x64 (![] : Fin 0 → Fin 2) bcast_S_S1x64 x j = x ix0 := broadcastInDim_scalar_apply bcast_S_S1x64 x j

/-- The two float words by their names. -/
private theorem ofBits_Nf : Ideal.ofBits .f32 0x48C35000#32 = Cert.Spec.Nf := rfl
private theorem ofBits_epsf : Ideal.ofBits .f32 0x3727C5AC#32 = Cert.Spec.epsf := rfl

/-- A 64-vector viewed as a 1×64 row reads the vector at the column. -/
private theorem row_apply {α : Type} (g : S64.Idx → α) (c : Fin 64) :
    shapeCast S1x64 g shapeCasts_S64_S1x64 (ix2 (0 : Fin 1) c) = g (ix1 c) :=
  shapeCast_apply g shapeCasts_S64_S1x64 _ _
    (by rewrite [Shape.rowMajor_val_one, Shape.rowMajor_val_two]; show c.val = 0 * 64 + c.val; omega)

/-- An index of a 1×64 row is its column. -/
private theorem idx_row (j : S1x64.Idx) : ∃ c : Fin 64, j = ix2 (0 : Fin 1) c :=
  ⟨⟨(j 1).val, idx2_lt1 j⟩, funext fun d => match d with
    | ⟨0, _⟩ => Fin.ext (by have := idx2_lt0 j; show (j 0).val = 0; omega)
    | ⟨1, _⟩ => rfl⟩

/-- Channel `c`'s scale weight and shift weight, and its mean. -/
abbrev gam (W : Valuation τ sig (Elt Ideal)) (c : Fin 64) : EReal := (W (Proc.devRef .tc main_arg3) : S64.Idx → EReal) (ix1 c)
abbrev bet (W : Valuation τ sig (Elt Ideal)) (c : Fin 64) : EReal := (W (Proc.devRef .tc main_arg4) : S64.Idx → EReal) (ix1 c)
abbrev mu (W : Valuation τ sig (Elt Ideal)) (c : Fin 64) : EReal := Ideal.div ((W (Proc.devRef .tc main_v127_0) : S1x64.Idx → EReal) (ix2 (0 : Fin 1) c)) Cert.Spec.Nf
/-- Channel `c`'s scale. -/
abbrev sc (W : Valuation τ sig (Elt Ideal)) (c : Fin 64) : EReal := gam W c * Ideal.rsqrt ((Ideal.div ((W (Proc.devRef .tc main_v127_1) : S1x64.Idx → EReal) (ix2 (0 : Fin 1) c)) Cert.Spec.Nf - mu W c * mu W c) + Cert.Spec.epsf)

theorem host2_v138 (W : Valuation τ sig (Elt Ideal)) : (StableHlo.after (hostOps2 (F := Ideal)) W (Proc.devRef .tc main_v138) : S1x64.Idx → EReal) = fun j => sc W ⟨(j 1).val, idx2_lt1 j⟩ := by
  show StableHlo.after (hostOps2 (F := Ideal)) W (Proc.devRef .tc main_v138) = _
  after_results
  funext j
  obtain ⟨c, rfl⟩ := idx_row j
  show mulf (F := Ideal) (shapeCast S1x64 (W (Proc.devRef .tc main_arg3)) shapeCasts_S64_S1x64) _ (ix2 (0 : Fin 1) c) = sc W c
  simp only [mulf_apply, addf_apply, subf_apply, hostDivf_apply, hostRsqrt_apply, bcast_row, constant_apply, ofBits_Nf, ofBits_epsf, row_apply]

set_option maxHeartbeats 1000000 in
theorem host2_v141 (W : Valuation τ sig (Elt Ideal)) : (StableHlo.after (hostOps2 (F := Ideal)) W (Proc.devRef .tc main_v141) : S1x64.Idx → EReal) = fun j => bet W ⟨(j 1).val, idx2_lt1 j⟩ - mu W ⟨(j 1).val, idx2_lt1 j⟩ * sc W ⟨(j 1).val, idx2_lt1 j⟩ := by
  show StableHlo.after (hostOps2 (F := Ideal)) W (Proc.devRef .tc main_v141) = _
  after_results
  funext j
  obtain ⟨c, rfl⟩ := idx_row j
  show subf (F := Ideal) (shapeCast S1x64 (W (Proc.devRef .tc main_arg4)) shapeCasts_S64_S1x64)
      (mulf (Host.divf (W (Proc.devRef .tc main_v127_0)) _) (mulf (shapeCast S1x64 (W (Proc.devRef .tc main_arg3)) shapeCasts_S64_S1x64) _))
      (ix2 (0 : Fin 1) c) = bet W c - mu W c * sc W c
  simp only [mulf_apply, addf_apply, subf_apply, hostDivf_apply, hostRsqrt_apply, bcast_row, constant_apply, ofBits_Nf, ofBits_epsf, row_apply]

theorem host2_v142 (W : Valuation τ sig (Elt Ideal)) : (StableHlo.after (hostOps2 (F := Ideal)) W (Proc.devRef .tc main_v142) : S64x64.Idx → EReal) = fun j => (W (Proc.devRef .tc main_arg5) : S128x64.Idx → EReal) (ix2 (⟨(j 0).val, by have := idx2_lt0 j; omega⟩ : Fin 128) (⟨(j 1).val, idx2_lt1 j⟩ : Fin 64)) := by
  show StableHlo.after (hostOps2 (F := Ideal)) W (Proc.devRef .tc main_v142) = _
  after_results
  funext j
  exact extractStridedSlice_apply (s := S128x64) ![0, 0] _ slices_S128x64_S64x64_0_0 j _ (fun a => match a with
    | ⟨0, _⟩ => by show (j 0).val = 0 + (j 0).val; omega
    | ⟨1, _⟩ => by show (j 1).val = 0 + (j 1).val; omega)

theorem host2_v143 (W : Valuation τ sig (Elt Ideal)) : (StableHlo.after (hostOps2 (F := Ideal)) W (Proc.devRef .tc main_v143) : S64x64.Idx → EReal) = fun j => (W (Proc.devRef .tc main_arg5) : S128x64.Idx → EReal) (ix2 (⟨64 + (j 0).val, by have := idx2_lt0 j; omega⟩ : Fin 128) (⟨(j 1).val, idx2_lt1 j⟩ : Fin 64)) := by
  show StableHlo.after (hostOps2 (F := Ideal)) W (Proc.devRef .tc main_v143) = _
  after_results
  funext j
  exact extractStridedSlice_apply (s := S128x64) ![64, 0] _ slices_S128x64_S64x64_64_0 j _ (fun a => match a with
    | ⟨0, _⟩ => by show 64 + (j 0).val = 64 + (j 0).val; rfl
    | ⟨1, _⟩ => by show (j 1).val = 0 + (j 1).val; omega)

end Cert.KernelIdeal.Fr
-- ==== Proof.KI.Value.lean ====
/-
  The value of the idealized kernel program: the array its third call writes is the specification's kernel-side output
  over the specification's grid.

  The program runs three calls between three stretches of host operations. The first stretch lays the eight 128×64
  weight slabs side by side as one 128×512 matrix; call 0 multiplies the 100000×128 table by it. The second stretch
  gathers, for edge `e = k · 100000 + p`, the 64 columns of slab `k` from the product's row `inRow e` — which is that
  table row times slab `k`, the specification's update row — and scatters the rows into the grid `y`. Call 1 sums each
  channel of `y` and of `y²` over the rows. The third stretch turns the two rows of sums into the scale
  `γ · rsqrt(mean(y²) − μ² + ε)` and the shift `β − μ · scale` and cuts the fuse matrix into its two 64-row halves.
  Call 2 forms `max(y · scale + shift, 0)` against the first half plus the skip features against the second half.
  An array no operation of a stretch writes passes through it unchanged, and an array a call only reads passes
  through the call unchanged; so each of these values reaches the place where it is read.
-/
import proofs.«105424_j83674552861285_1_alg».proof.Proof.KI.Run
import proofs.«105424_j83674552861285_1_alg».proof.Proof.KI.Val0
import proofs.«105424_j83674552861285_1_alg».proof.Proof.KI.Val2
import proofs.«105424_j83674552861285_1_alg».proof.Proof.Spec

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What the calls and the host stretches compute, as functions of explicitly typed arrays -/

/-- Each channel's sum over the 400000 rows, as a one-row matrix. -/
def vColSums (y : S400000x64.Idx → EReal) : S1x64.Idx → EReal :=
  fun j => ∑ r : Fin 400000, y (ix2 r (⟨(j 1).val, idx2_lt1 j⟩ : Fin 64))
/-- Each channel's sum of squares over the 400000 rows, as a one-row matrix. -/
def vColSqSums (y : S400000x64.Idx → EReal) : S1x64.Idx → EReal :=
  fun j => ∑ r : Fin 400000, y (ix2 r (⟨(j 1).val, idx2_lt1 j⟩ : Fin 64)) * y (ix2 r (⟨(j 1).val, idx2_lt1 j⟩ : Fin 64))
/-- The eight weight slabs laid side by side: slab `k` in columns `64 k … 64 k + 63`. -/
def vSlabsFlat (w : S8x128x64.Idx → EReal) : S128x512.Idx → EReal :=
  fun j => w (ix3 (⟨(j 1).val / 64, by have := idx2_lt1 j; omega⟩ : Fin 8) (⟨(j 0).val, idx2_lt0 j⟩ : Fin 128)
    (⟨(j 1).val % 64, Nat.mod_lt _ (by decide)⟩ : Fin 64))
/-- The update rows read off the flat product `p`: edge `e` takes its gathered row's columns of slab `ek e`. -/
def vUpdRows (iin : S8x100000.Idx → BitVec 32) (p : S100000x512.Idx → EReal) : Cert.Spec.Su.Idx → EReal :=
  fun j => p (ix2 (Cert.Spec.inRow iin ⟨(j 0).val, idx2_lt0 j⟩)
    (⟨(Cert.Spec.ek ⟨(j 0).val, idx2_lt0 j⟩).val * 64 + (j 1).val, by
      have := (Cert.Spec.ek ⟨(j 0).val, idx2_lt0 j⟩).isLt; have := idx2_lt1 j; omega⟩ : Fin 512))
/-- The grid scattered from those update rows. -/
def vGridFrom (iout iin : S8x100000.Idx → BitVec 32) (p : S100000x512.Idx → EReal) : S400000x64.Idx → EReal :=
  Cert.Spec.yOf iout (vUpdRows iin p)
/-- The mean of channel `c` from the row of sums `s0`. -/
def vMu (s0 : S1x64.Idx → EReal) (c : Fin 64) : EReal := Ideal.div (s0 (ix2 (0 : Fin 1) c)) Cert.Spec.Nf
/-- The scale of channel `c`: `γ · rsqrt(mean of squares − mean² + ε)`. -/
def vSc (γ : S64.Idx → EReal) (s0 s1 : S1x64.Idx → EReal) (c : Fin 64) : EReal :=
  γ (ix1 c) * Ideal.rsqrt ((Ideal.div (s1 (ix2 (0 : Fin 1) c)) Cert.Spec.Nf - vMu s0 c * vMu s0 c) + Cert.Spec.epsf)
/-- The scale row. -/
def vScaleRow (γ : S64.Idx → EReal) (s0 s1 : S1x64.Idx → EReal) : S1x64.Idx → EReal :=
  fun j => vSc γ s0 s1 ⟨(j 1).val, idx2_lt1 j⟩
/-- The shift row `β − mean · scale`. -/
def vShiftRow (β γ : S64.Idx → EReal) (s0 s1 : S1x64.Idx → EReal) : S1x64.Idx → EReal :=
  fun j => β (ix1 ⟨(j 1).val, idx2_lt1 j⟩) - vMu s0 ⟨(j 1).val, idx2_lt1 j⟩ * vSc γ s0 s1 ⟨(j 1).val, idx2_lt1 j⟩
/-- The first 64 rows of the fuse matrix. -/
def vFuseTop (Wf : S128x64.Idx → EReal) : S64x64.Idx → EReal :=
  fun j => Wf (ix2 (⟨(j 0).val, by have := idx2_lt0 j; omega⟩ : Fin 128) (⟨(j 1).val, idx2_lt1 j⟩ : Fin 64))
/-- The last 64 rows of the fuse matrix. -/
def vFuseBot (Wf : S128x64.Idx → EReal) : S64x64.Idx → EReal :=
  fun j => Wf (ix2 (⟨64 + (j 0).val, by have := idx2_lt0 j; omega⟩ : Fin 128) (⟨(j 1).val, idx2_lt1 j⟩ : Fin 64))

/-! ## The neighbouring facts, as statements -/

def H_val1a : Prop := ∀ (V : (c : Dev nD) → (b : Ref sig .tc) → Buf (Elt Ideal) ((c : Thread nD τ).loc b)) (c : Dev nD),
  (dat1 (F := Ideal) V c).arrAt 1 cfg1.N = vColSums (V c main_v126)
def H_val1b : Prop := ∀ (V : (c : Dev nD) → (b : Ref sig .tc) → Buf (Elt Ideal) ((c : Thread nD τ).loc b)) (c : Dev nD),
  (dat1 (F := Ideal) V c).arrAt 2 cfg1.N = vColSqSums (V c main_v126)
def H_host0 : Prop := ∀ W : Valuation τ sig (Elt Ideal),
  StableHlo.after (hostOps0 (F := Ideal)) W (Proc.devRef .tc main_v1) = vSlabsFlat (W (Proc.devRef .tc main_arg2))
def H_host1 : Prop := ∀ W : Valuation τ sig (Elt Ideal),
  StableHlo.after (hostOps1 (F := Ideal)) W (Proc.devRef .tc main_v126)
    = vGridFrom (W (Proc.devRef .tc main_arg7)) (W (Proc.devRef .tc main_arg6)) (W (Proc.devRef .tc main_v2))
def H_host2_138 : Prop := ∀ W : Valuation τ sig (Elt Ideal),
  StableHlo.after (hostOps2 (F := Ideal)) W (Proc.devRef .tc main_v138)
    = vScaleRow (W (Proc.devRef .tc main_arg3)) (W (Proc.devRef .tc main_v127_0)) (W (Proc.devRef .tc main_v127_1))
def H_host2_141 : Prop := ∀ W : Valuation τ sig (Elt Ideal),
  StableHlo.after (hostOps2 (F := Ideal)) W (Proc.devRef .tc main_v141)
    = vShiftRow (W (Proc.devRef .tc main_arg4)) (W (Proc.devRef .tc main_arg3)) (W (Proc.devRef .tc main_v127_0))
        (W (Proc.devRef .tc main_v127_1))
def H_host2_142 : Prop := ∀ W : Valuation τ sig (Elt Ideal),
  StableHlo.after (hostOps2 (F := Ideal)) W (Proc.devRef .tc main_v142) = vFuseTop (W (Proc.devRef .tc main_arg5))
def H_host2_143 : Prop := ∀ W : Valuation τ sig (Elt Ideal),
  StableHlo.after (hostOps2 (F := Ideal)) W (Proc.devRef .tc main_v143) = vFuseBot (W (Proc.devRef .tc main_arg5))

/-! ## The algebra between the pieces, over any arrays -/

/-- Reading edge `e`'s columns of slab `ek e` off the flat product gives the specification's update row: column
    `64 k + o` of the slabs laid side by side is column `o` of slab `k`. -/
theorem updRows_flat (a : S100000x128.Idx → EReal) (w : S8x128x64.Idx → EReal) (iin : S8x100000.Idx → BitVec 32) :
    vUpdRows iin (prod0 a (vSlabsFlat w)) = Cert.Spec.upd a w iin := by
  funext j
  have hk := (Cert.Spec.ek ⟨(j 0).val, idx2_lt0 j⟩).isLt
  have ho := idx2_lt1 j
  show prod0 a (vSlabsFlat w) (ix2 (Cert.Spec.inRow iin ⟨(j 0).val, idx2_lt0 j⟩)
      (⟨(Cert.Spec.ek ⟨(j 0).val, idx2_lt0 j⟩).val * 64 + (j 1).val, _⟩ : Fin 512))
    = ∑ i : Fin 128, a (ix2 (Cert.Spec.inRow iin ⟨(j 0).val, idx2_lt0 j⟩) i)
        * w (ix3 (Cert.Spec.ek ⟨(j 0).val, idx2_lt0 j⟩) i (⟨(j 1).val, idx2_lt1 j⟩ : Fin 64))
  rw [prod0_apply]
  refine Finset.sum_congr rfl fun i _ => ?_
  show a _ * w _ = a _ * w _
  refine congrArg₂ (fun p q => a p * w q) rfl ?_
  funext b
  refine Fin.ext ?_
  match b with
  | ⟨0, _⟩ =>
    show ((Cert.Spec.ek ⟨(j 0).val, idx2_lt0 j⟩).val * 64 + (j 1).val) / 64 = (Cert.Spec.ek ⟨(j 0).val, idx2_lt0 j⟩).val
    omega
  | ⟨1, _⟩ => rfl
  | ⟨2, _⟩ =>
    show ((Cert.Spec.ek ⟨(j 0).val, idx2_lt0 j⟩).val * 64 + (j 1).val) % 64 = (j 1).val
    omega

/-- The mean read off the row of sums is the specification's mean. -/
theorem vMu_colSums (y : S400000x64.Idx → EReal) (k : Fin 64) : vMu (vColSums y) k = Cert.Spec.mean y k := rfl

/-- The scale read off the two rows of sums is the specification's. -/
theorem vSc_sums (γ : S64.Idx → EReal) (y : S400000x64.Idx → EReal) (k : Fin 64) :
    vSc γ (vColSums y) (vColSqSums y) k = Cert.Spec.scaleK y γ k := rfl

/-- The fused product over the scale and shift rows and the two halves of the fuse matrix is the specification's output. -/
theorem fused_eq (y sk : S400000x64.Idx → EReal) (γ β : S64.Idx → EReal) (Wf : S128x64.Idx → EReal) :
    G2 y sk (vScaleRow γ (vColSums y) (vColSqSums y)) (vShiftRow β γ (vColSums y) (vColSqSums y)) (vFuseTop Wf) (vFuseBot Wf)
      = Cert.Spec.outK y sk γ β Wf := by
  funext j
  show (∑ k : Fin 64, _) + (∑ k : Fin 64, _) = (∑ k : Fin 64, _) + (∑ k : Fin 64, _)
  refine congrArg₂ (fun p q : EReal => p + q) (Finset.sum_congr rfl fun k _ => ?_) (Finset.sum_congr rfl fun k _ => ?_)
  · rfl
  · rfl

/-! ## The buffers at each boundary of the run -/

variable (m : (ℓ : Loc nD τ sig) → Buf (Elt Ideal) ℓ) (ρ : Dev nD → PrngReg)

/-- The specification's grid over the launch arrays. -/
def vY (c : Dev nD) : S400000x64.Idx → EReal :=
  Cert.Spec.yOf (m ((c : Thread nD τ).loc main_arg7)) (Cert.Spec.upd (m ((c : Thread nD τ).loc main_arg0)) (m ((c : Thread nD τ).loc main_arg2)) (m ((c : Thread nD τ).loc main_arg6)))

/-- After call 0 its result is the table against the slabs laid side by side. -/
theorem product_after0 (g0 : H_host0) (c : Dev nD) :
    W2 m ρ c (Proc.devRef .tc main_v2) = prod0 (m ((c : Thread nD τ).loc main_arg0)) (vSlabsFlat (m ((c : Thread nD τ).loc main_arg2))) := by
  refine (W2_arr m ρ c 2).trans ((arrAt0_2 (V1 m ρ) c).trans ?_)
  have e0 : V1 m ρ c main_arg0 = m ((c : Thread nD τ).loc main_arg0) := W1_main_arg0 m ρ c
  have e1 : V1 m ρ c main_v1 = vSlabsFlat (m ((c : Thread nD τ).loc main_arg2)) := g0 (W0 m ρ c)
  rw [e0, e1]

/-- Call 1 enters with the specification's grid. -/
theorem grid_entry1 (g0 : H_host0) (g1 : H_host1) (c : Dev nD) : V3 m ρ c main_v126 = vY m c := by
  have e := g1 (W2 m ρ c)
  rw [W2_main_arg7 m ρ c, W2_main_arg6 m ρ c, product_after0 m ρ g0 c] at e
  unfold vGridFrom at e
  rw [updRows_flat] at e
  exact e

/-- Call 2 enters with the grid call 1 entered with: call 1 only reads it and the third host stretch does not write it. -/
theorem grid_entry2 (c : Dev nD) : V5 m ρ c main_v126 = V3 m ρ c main_v126 :=
  ((StableHlo.after_of_forall_not_mem (b := Proc.devRef .tc main_v126) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide))) :
    W5 m ρ c (Proc.devRef .tc main_v126) = W4 m ρ c (Proc.devRef .tc main_v126))).trans
    ((W4_arr m ρ c 0).trans (((dat1 (V3 m ρ) c).arrAt_in 0 rfl _).trans (A_eq1 (V3 m ρ) c 0)))

/-- After call 1 the first result is the row of the grid's column sums. -/
theorem sums_after1 (h1a : H_val1a) (g0 : H_host0) (g1 : H_host1) (c : Dev nD) :
    W4 m ρ c (Proc.devRef .tc main_v127_0) = vColSums (vY m c) :=
  (W4_arr m ρ c 1).trans ((h1a (V3 m ρ) c).trans (by rw [grid_entry1 m ρ g0 g1 c]))

/-- After call 1 the second result is the row of the grid's column sums of squares. -/
theorem sqsums_after1 (h1b : H_val1b) (g0 : H_host0) (g1 : H_host1) (c : Dev nD) :
    W4 m ρ c (Proc.devRef .tc main_v127_1) = vColSqSums (vY m c) :=
  (W4_arr m ρ c 2).trans ((h1b (V3 m ρ) c).trans (by rw [grid_entry1 m ρ g0 g1 c]))

/-- Call 2 enters with the scale row of the grid's statistics. -/
theorem scale_entry2 (h1a : H_val1a) (h1b : H_val1b) (g0 : H_host0) (g1 : H_host1) (g138 : H_host2_138) (c : Dev nD) :
    V5 m ρ c main_v138 = vScaleRow (m ((c : Thread nD τ).loc main_arg3)) (vColSums (vY m c)) (vColSqSums (vY m c)) := by
  have e := g138 (W4 m ρ c)
  rw [W4_main_arg3 m ρ c, sums_after1 m ρ h1a g0 g1 c, sqsums_after1 m ρ h1b g0 g1 c] at e
  exact e

/-- Call 2 enters with the shift row of the grid's statistics. -/
theorem shift_entry2 (h1a : H_val1a) (h1b : H_val1b) (g0 : H_host0) (g1 : H_host1) (g141 : H_host2_141) (c : Dev nD) :
    V5 m ρ c main_v141
      = vShiftRow (m ((c : Thread nD τ).loc main_arg4)) (m ((c : Thread nD τ).loc main_arg3)) (vColSums (vY m c)) (vColSqSums (vY m c)) := by
  have e := g141 (W4 m ρ c)
  rw [W4_main_arg4 m ρ c, W4_main_arg3 m ρ c, sums_after1 m ρ h1a g0 g1 c, sqsums_after1 m ρ h1b g0 g1 c] at e
  exact e

/-- Call 2 enters with the first half of the fuse matrix … -/
theorem top_entry2 (g142 : H_host2_142) (c : Dev nD) : V5 m ρ c main_v142 = vFuseTop (m ((c : Thread nD τ).loc main_arg5)) := by
  have e := g142 (W4 m ρ c)
  rw [W4_main_arg5 m ρ c] at e
  exact e

/-- … the second half … -/
theorem bot_entry2 (g143 : H_host2_143) (c : Dev nD) : V5 m ρ c main_v143 = vFuseBot (m ((c : Thread nD τ).loc main_arg5)) := by
  have e := g143 (W4 m ρ c)
  rw [W4_main_arg5 m ρ c] at e
  exact e

/-- … and the skip features as launched. -/
theorem skip_entry2 (c : Dev nD) : V5 m ρ c main_arg1 = m ((c : Thread nD τ).loc main_arg1) := W5_main_arg1 m ρ c

/-! ## The result -/

/-- THE KERNEL PROGRAM'S VALUE: the result array after the whole run is the specification's kernel-side output over the
    specification's grid. -/
theorem kernel_value (c : Dev nD)
    (h1a : H_val1a) (h1b : H_val1b) (g0 : H_host0) (g1 : H_host1) (g138 : H_host2_138) (g141 : H_host2_141)
    (g142 : H_host2_142) (g143 : H_host2_143) :
    ((dat2 (F := Ideal) (V5 m ρ) c).arrAt 6 cfg2.N : S400000x64.Idx → EReal)
      = Cert.Spec.outK (Cert.Spec.yOf (m ((c : Thread nD τ).loc main_arg7)) (Cert.Spec.upd (m ((c : Thread nD τ).loc main_arg0)) (m ((c : Thread nD τ).loc main_arg2)) (m ((c : Thread nD τ).loc main_arg6))))
          (m ((c : Thread nD τ).loc main_arg1)) (m ((c : Thread nD τ).loc main_arg3)) (m ((c : Thread nD τ).loc main_arg4)) (m ((c : Thread nD τ).loc main_arg5)) := by
  refine (arrAt2_6 (V5 m ρ) c).trans ?_
  rw [grid_entry2 m ρ c, grid_entry1 m ρ g0 g1 c, skip_entry2 m ρ c, scale_entry2 m ρ h1a h1b g0 g1 g138 c,
    shift_entry2 m ρ h1a h1b g0 g1 g141 c, top_entry2 m ρ g142 c, bot_entry2 m ρ g143 c]
  exact fused_eq (vY m c) (m ((c : Thread nD τ).loc main_arg1)) (m ((c : Thread nD τ).loc main_arg3)) (m ((c : Thread nD τ).loc main_arg4)) (m ((c : Thread nD τ).loc main_arg5))

end Cert.KernelIdeal.Fr

end
-- ==== Proof.RefSide.lean ====
/-
  The reference program's value is the specification.

  Read stage by stage: the index words of the input side are wrapped once by 100000 when negative and name, read signed
  and clamped into [0, 99999], the table row each edge gathers; edge `e = k · 100000 + p` multiplies that row by the
  `k`-th 128×64 weight slab, which is the specification's update row `e`. The output side's words, wrapped once by
  400000, form the scatter's index column, and the scatter adds the update rows into a zero grid: the specification's
  grid. From there each channel's mean and variance over the 400000 rows, the normalisation
  `(y - μ) · rsqrt(σ² + ε) · γ + β`, the maximum with zero, the join with the skip features along the columns and the
  product with the 128×64 fuse matrix are read entry by entry, the grid entering only through its entries.
-/
import proofs.«105424_j83674552861285_1_alg».proof.Proof.Gen.ReferenceIdeal.Run
import proofs.«105424_j83674552861285_1_alg».proof.Proof.Gen.ReferenceIdeal.Read
import proofs.«105424_j83674552861285_1_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-- The reference's gather: operand `[100000, 128]`, one start word per `(k, p)`, whole rows of 128 taken. -/
abbrev gdims : GatherDims S100000x128 S8x100000x1 S8x100000x128 :=
  gather_S100000x128_S8x100000x1_S8x100000x128_2_0_n_n_0_2_1128

/-- Entry `(k, p, i)` of the gather is the table at the row the start word at `(k, p, 0)` names (read signed, clamped
    into `[0, 99999]`), column `i`. -/
theorem gather_apply {α : Type} (x : S100000x128.Idx → α) (idx : IVec S8x100000x1 32) (k : Fin 8) (p : Fin 100000)
    (i : Fin 128) :
    Host.gather gdims x idx (ix3 k p i)
      = x (ix2 (LibGatherScatter.clampRow 100000 (by decide) (idx (ix3 k p (0 : Fin 1)))) i) := by
  unfold Host.gather
  congr 1
  funext a
  refine Fin.ext ?_
  match a with
  | ⟨0, _⟩ =>
    show gdims.start (ix3 k p i) idx 0 + gdims.batchCoord (ix3 k p i) 0 + gdims.offCoord (ix3 k p i) 0 = _
    rw [GatherDims.batchCoord_eq_zero gdims _ _ List.not_mem_nil,
      GatherDims.offCoord_eq_zero gdims _ _ (fun h => ((GatherDims.mem_sKept _ _).mp h).1 (List.mem_singleton.mpr rfl))]
    simp only [Nat.add_zero]
    unfold GatherDims.start
    rw [dif_pos (show (0 : Fin 2) ∈ gdims.startIndexMap from List.mem_singleton.mpr rfl)]
    have hsi : gdims.siIdx (ix3 k p i) ⟨List.idxOf (0 : Fin 2) gdims.startIndexMap,
        List.idxOf_lt_length_iff.2 (List.mem_singleton.mpr rfl)⟩ = ix3 k p (0 : Fin 1) := by
      funext b; refine Fin.ext ?_
      match b with
      | ⟨0, _⟩ => rfl
      | ⟨1, _⟩ => rfl
      | ⟨2, _⟩ => rfl
    rw [hsi]
    rfl
  | ⟨1, _⟩ =>
    show gdims.start (ix3 k p i) idx 1 + gdims.batchCoord (ix3 k p i) 1 + gdims.offCoord (ix3 k p i) 1 = i.val
    rw [GatherDims.batchCoord_eq_zero gdims _ _ List.not_mem_nil]
    unfold GatherDims.start
    rw [dif_neg (show ¬ (1 : Fin 2) ∈ gdims.startIndexMap from (by decide : ¬ (1 : Fin 2) ∈ ([0] : List (Fin 2))))]
    simp only [Nat.add_zero, Nat.zero_add]
    unfold GatherDims.offCoord
    rw [dif_pos (show (1 : Fin 2) ∈ gdims.sKept from (GatherDims.mem_sKept _ _).mpr ⟨(by decide : ¬ (1 : Fin 2) ∈ ([0] : List (Fin 2))), List.not_mem_nil⟩)]
    rfl

/-! ## The update rows -/

/-- The gather's start word at `(k, p)`: the input index word, wrapped once by 100000 if negative. -/
theorem start_word (x6 : (⟨S8x100000, .i32⟩ : BufTy).Contents (Elt Ideal)) (k : Fin 8) (p : Fin 100000) :
    val_main_v5 (F := Ideal) x6 (ix3 k p (0 : Fin 1)) = Cert.Spec.wrap 100000#32 (x6 (ix2 k p)) := by
  have e : idx_main_v5 (ix3 k p (0 : Fin 1)) = ix2 k p :=
    funext fun a => by match a with | ⟨0, _⟩ => rfl | ⟨1, _⟩ => rfl
  rw [val_main_v5_apply, e, val_main_v4_apply, val_main_v1_apply, val_main_v3_apply, val_main_v0_apply,
    val_main_v2_apply, val_main_c_apply, val_main_c_0_apply]
  rfl

/-- The gathered rows at `(k, p, i)`. -/
theorem gathered_apply (x0 : (⟨S100000x128, .f32⟩ : BufTy).Contents (Elt Ideal))
    (x6 : (⟨S8x100000, .i32⟩ : BufTy).Contents (Elt Ideal)) (k : Fin 8) (p : Fin 100000) (i : Fin 128) :
    val_main_v6 (F := Ideal) x0 x6 (ix3 k p i)
      = x0 (ix2 (LibGatherScatter.clampRow 100000 (by decide) (Cert.Spec.wrap 100000#32 (x6 (ix2 k p)))) i) := by
  unfold val_main_v6
  rw [← start_word x6 k p]
  exact gather_apply x0 (val_main_v5 (F := Ideal) x6) k p i

/-- The batched product at `(k, p, o)`: the gathered row `(k, p)` against column `o` of the `k`-th weight slab. -/
theorem slabs_apply (x0 : (⟨S100000x128, .f32⟩ : BufTy).Contents (Elt Ideal))
    (x2 : (⟨S8x128x64, .f32⟩ : BufTy).Contents (Elt Ideal)) (x6 : (⟨S8x100000, .i32⟩ : BufTy).Contents (Elt Ideal))
    (k : Fin 8) (p : Fin 100000) (o : Fin 64) :
    val_main_v7 (F := Ideal) x0 x2 x6 (ix3 k p o)
      = ∑ i : Fin 128, x0 (ix2 (LibGatherScatter.clampRow 100000 (by decide) (Cert.Spec.wrap 100000#32 (x6 (ix2 k p)))) i)
          * x2 (ix3 k i o) := by
  rw [val_main_v7_apply]
  refine Finset.sum_congr rfl fun i _ => ?_
  have el : lidx_main_v7 (ix3 k p o) i = ix3 k p i :=
    funext fun a => by match a with | ⟨0, _⟩ => rfl | ⟨1, _⟩ => rfl | ⟨2, _⟩ => rfl
  have er : ridx_main_v7 (ix3 k p o) i = ix3 k i o :=
    funext fun a => by match a with | ⟨0, _⟩ => rfl | ⟨1, _⟩ => rfl | ⟨2, _⟩ => rfl
  rw [el, er, gathered_apply]

/-- The update rows of the scatter are the specification's: row `e = k · 100000 + p` is gathered row `(k, p)` times slab `k`. -/
theorem updates_eq (x0 : (⟨S100000x128, .f32⟩ : BufTy).Contents (Elt Ideal))
    (x2 : (⟨S8x128x64, .f32⟩ : BufTy).Contents (Elt Ideal)) (x6 : (⟨S8x100000, .i32⟩ : BufTy).Contents (Elt Ideal)) :
    val_main_v10 (F := Ideal) x0 x2 x6 = Cert.Spec.upd x0 x2 x6 := by
  funext j
  have e : idx_main_v10 j = ix3 (Cert.Spec.ek ⟨(j 0).val, idx2_lt0 j⟩) (Cert.Spec.ep ⟨(j 0).val, idx2_lt0 j⟩)
      (⟨(j 1).val, idx2_lt1 j⟩ : Fin 64) := by
    have h0 : (j 0).val < 800000 := idx2_lt0 j
    have h1 : (j 1).val < 64 := idx2_lt1 j
    funext a
    refine Fin.ext ?_
    match a with
    | ⟨0, _⟩ => show ((j 0).val * 64 + (j 1).val) / 6400000 = (j 0).val / 100000; omega
    | ⟨1, _⟩ => show ((j 0).val * 64 + (j 1).val) / 64 % 100000 = (j 0).val % 100000; omega
    | ⟨2, _⟩ => show ((j 0).val * 64 + (j 1).val) % 64 = (j 1).val; omega
  rw [val_main_v10_apply, e, slabs_apply]
  rfl

/-! ## The scatter -/

/-- The scatter's index column: edge `e`'s output word, wrapped once by 400000 if negative. -/
theorem index_column_eq (x7 : (⟨S8x100000, .i32⟩ : BufTy).Contents (Elt Ideal)) :
    val_main_v16 (F := Ideal) x7 = Cert.Spec.sidx x7 := by
  funext j
  have e : idx_main_v9 (idx_main_v16 j)
      = ix2 (Cert.Spec.ek ⟨(j 0).val, idx2_lt0 j⟩) (Cert.Spec.ep ⟨(j 0).val, idx2_lt0 j⟩) :=
    funext fun a => by match a with | ⟨0, _⟩ => rfl | ⟨1, _⟩ => rfl
  rw [val_main_v16_apply, val_main_v15_apply, val_main_v12_apply, val_main_v14_apply, val_main_v9_apply,
    val_main_v11_apply, val_main_v13_apply, val_main_c_1_apply, val_main_c_2_apply, e]
  rfl

/-- The printed dimension numbers of the scatter are the row scatter's. -/
theorem scatter_dims_eq : scatter_S400000x64_S800000x1_S800000x64_1_0_0_1 = Cert.Spec.scat := rfl

/-- The scatter's operand is the zero grid. -/
theorem zero_grid_eq : val_main_v8 (F := Ideal) = fun _ => (0 : EReal) := by
  funext j
  rw [val_main_v8_apply, val_main_cst_apply]
  exact Ideal.ofBits_zero_f32

/-- The scattered grid is the specification's. -/
theorem grid_eq (x0 : (⟨S100000x128, .f32⟩ : BufTy).Contents (Elt Ideal))
    (x2 : (⟨S8x128x64, .f32⟩ : BufTy).Contents (Elt Ideal)) (x6 x7 : (⟨S8x100000, .i32⟩ : BufTy).Contents (Elt Ideal)) :
    val_main_v17 (F := Ideal) x0 x2 x6 x7 = Cert.Spec.yOf x7 (Cert.Spec.upd x0 x2 x6) := by
  unfold val_main_v17 Cert.Spec.yOf
  rw [zero_grid_eq, index_column_eq, updates_eq, scatter_dims_eq]
  rfl

/-! ## From the grid to the output

Every later stage depends on the scattered grid only through its entries. -/

section Rest

variable (x0 : (⟨S100000x128, .f32⟩ : BufTy).Contents (Elt Ideal)) (x1 : (⟨S400000x64, .f32⟩ : BufTy).Contents (Elt Ideal))
  (x2 : (⟨S8x128x64, .f32⟩ : BufTy).Contents (Elt Ideal)) (x3 x4 : (⟨S64, .f32⟩ : BufTy).Contents (Elt Ideal))
  (x5 : (⟨S128x64, .f32⟩ : BufTy).Contents (Elt Ideal)) (x6 x7 : (⟨S8x100000, .i32⟩ : BufTy).Contents (Elt Ideal))

/-- The sum over the 400000 rows of channel `c`. -/
theorem colsum_apply (c : Fin 64) :
    val_main_v18 (F := Ideal) x0 x2 x6 x7 (ix1 c) = Cert.Spec.colsum (val_main_v17 (F := Ideal) x0 x2 x6 x7) c := by
  rw [val_main_v18_apply, val_main_cst_3_apply, Ideal.ofBits_def, Ideal.ofBits_zero_f32, zero_add]
  unfold Cert.Spec.colsum
  refine Finset.sum_congr rfl fun k _ => ?_
  exact congrArg _ (funext fun a => by match a with | ⟨0, _⟩ => rfl | ⟨1, _⟩ => rfl)

/-- The mean of channel `c`. -/
theorem mean_apply (c : Fin 64) :
    val_main_v20 (F := Ideal) x0 x2 x6 x7 (ix1 c) = Cert.Spec.mean (val_main_v17 (F := Ideal) x0 x2 x6 x7) c := by
  rw [val_main_v20_apply, colsum_apply, val_main_v19_apply, val_main_cst_4_apply]
  rfl

/-- The mean, broadcast down the rows (its first use: under the variance). -/
theorem mean_rows_apply (r : Fin 400000) (c : Fin 64) :
    val_main_v22 (F := Ideal) x0 x2 x6 x7 (ix2 r c) = Cert.Spec.mean (val_main_v17 (F := Ideal) x0 x2 x6 x7) c := by
  have e : idx_main_v21 (idx_main_v22 (ix2 r c)) = ix1 c := funext fun a => by match a with | ⟨0, _⟩ => rfl
  rw [val_main_v22_apply, val_main_v21_apply, e, mean_apply]

/-- The mean, broadcast down the rows (its second use: under the normalisation). -/
theorem mean_rows_apply' (r : Fin 400000) (c : Fin 64) :
    val_main_v29 (F := Ideal) x0 x2 x6 x7 (ix2 r c) = Cert.Spec.mean (val_main_v17 (F := Ideal) x0 x2 x6 x7) c := by
  have e : idx_main_v28 (idx_main_v29 (ix2 r c)) = ix1 c := funext fun a => by match a with | ⟨0, _⟩ => rfl
  rw [val_main_v29_apply, val_main_v28_apply, e, mean_apply]

/-- The variance of channel `c`: the mean of the squared deviations. -/
theorem var_apply (c : Fin 64) :
    val_main_v27 (F := Ideal) x0 x2 x6 x7 (ix1 c) = Cert.Spec.varR (val_main_v17 (F := Ideal) x0 x2 x6 x7) c := by
  have hs : ∑ k : Fin 400000, val_main_v24 (F := Ideal) x0 x2 x6 x7 (idx_main_v25 (ix1 c) k)
      = ∑ r : Fin 400000,
          (val_main_v17 (F := Ideal) x0 x2 x6 x7 (ix2 r c) - Cert.Spec.mean (val_main_v17 (F := Ideal) x0 x2 x6 x7) c)
          * (val_main_v17 (F := Ideal) x0 x2 x6 x7 (ix2 r c) - Cert.Spec.mean (val_main_v17 (F := Ideal) x0 x2 x6 x7) c) := by
    refine Finset.sum_congr rfl fun k _ => ?_
    have e : idx_main_v25 (ix1 c) k = ix2 k c := funext fun a => by match a with | ⟨0, _⟩ => rfl | ⟨1, _⟩ => rfl
    rw [e, val_main_v24_apply, val_main_v23_apply, mean_rows_apply]
    rfl
  rw [val_main_v27_apply, val_main_v25_apply, hs, val_main_cst_5_apply, val_main_v26_apply, val_main_cst_6_apply,
    Ideal.hostDivf_def]
  simp only [Ideal.ofBits_def]
  rw [Ideal.ofBits_zero_f32, zero_add]
  rfl

/-- The reciprocal standard deviation of channel `c`. -/
theorem rstd_apply (c : Fin 64) :
    val_main_v33 (F := Ideal) x0 x2 x6 x7 (ix1 c)
      = Ideal.rsqrt (Cert.Spec.varR (val_main_v17 (F := Ideal) x0 x2 x6 x7) c + Cert.Spec.epsf) := by
  rw [val_main_v33_apply, val_main_v32_apply, var_apply, val_main_v31_apply, val_main_cst_7_apply]
  rfl

/-- … broadcast down the rows. -/
theorem rstd_rows_apply (r : Fin 400000) (c : Fin 64) :
    val_main_v35 (F := Ideal) x0 x2 x6 x7 (ix2 r c)
      = Ideal.rsqrt (Cert.Spec.varR (val_main_v17 (F := Ideal) x0 x2 x6 x7) c + Cert.Spec.epsf) := by
  have e : idx_main_v34 (idx_main_v35 (ix2 r c)) = ix1 c := funext fun a => by match a with | ⟨0, _⟩ => rfl
  rw [val_main_v35_apply, val_main_v34_apply, e, rstd_apply]

/-- The scale, broadcast down the rows. -/
theorem scale_rows_apply (r : Fin 400000) (c : Fin 64) : val_main_v38 (F := Ideal) x3 (ix2 r c) = x3 (ix1 c) := by
  have e : idx_main_v37 (idx_main_v38 (ix2 r c)) = ix1 c := funext fun a => by match a with | ⟨0, _⟩ => rfl
  rw [val_main_v38_apply, val_main_v37_apply, e]

/-- The shift, broadcast down the rows. -/
theorem shift_rows_apply (r : Fin 400000) (c : Fin 64) : val_main_v41 (F := Ideal) x4 (ix2 r c) = x4 (ix1 c) := by
  have e : idx_main_v40 (idx_main_v41 (ix2 r c)) = ix1 c := funext fun a => by match a with | ⟨0, _⟩ => rfl
  rw [val_main_v41_apply, val_main_v40_apply, e]

/-- The normalised, rectified entry `(r, c)`. -/
theorem relu_apply (r : Fin 400000) (c : Fin 64) :
    val_main_v43 (F := Ideal) x0 x2 x3 x4 x6 x7 (ix2 r c)
      = Cert.Spec.bnR (val_main_v17 (F := Ideal) x0 x2 x6 x7) x3 x4 r c := by
  rw [val_main_v43_apply, val_main_v42_apply, val_main_v39_apply, val_main_v36_apply, val_main_v30_apply,
    mean_rows_apply', rstd_rows_apply, scale_rows_apply, shift_rows_apply, val_main_call0_v0_apply,
    val_main_call0_cst_apply, Ideal.ofBits_def, Ideal.ofBits_zero_f32]
  rfl

/-- Row `r` of the joined features: the rectified entry for a column below 64, else the skip entry. -/
theorem joined_apply (r : Fin 400000) (k : Fin 128) :
    val_main_v44 (F := Ideal) x0 x1 x2 x3 x4 x6 x7 (ix2 r k)
      = Cert.Spec.zR (val_main_v17 (F := Ideal) x0 x2 x6 x7) x1 x3 x4 r k := by
  unfold val_main_v44 Cert.Spec.zR
  by_cases h : k.val < 64
  · rw [dif_pos h, ← relu_apply]
    exact concatenate_pair_apply_left _ _ _ concatenates_S400000x64_S400000x64_S400000x128_d1 (ix2 r k) rfl
      (ix2 r (⟨k.val, h⟩ : Fin 64)) (fun b => by match b with | ⟨0, _⟩ => rfl | ⟨1, _⟩ => rfl)
  · rw [dif_neg h]
    exact concatenate_pair_apply_right _ _ _ concatenates_S400000x64_S400000x64_S400000x128_d1 (ix2 r k) rfl rfl
      (ix2 r (⟨k.val - 64, by have := k.isLt; omega⟩ : Fin 64))
      (fun b hb => by match b with | ⟨0, _⟩ => rfl | ⟨1, _⟩ => exact absurd rfl hb)
      (by show (k.val - 64) + 64 = k.val; omega)

/-- The reference's output over its own grid. -/
theorem out_eq :
    val_main_v45 (F := Ideal) x0 x1 x2 x3 x4 x5 x6 x7
      = Cert.Spec.outR (val_main_v17 (F := Ideal) x0 x2 x6 x7) x1 x3 x4 x5 := by
  funext i
  rw [val_main_v45_apply]
  show _ = ∑ j : Fin 128, Cert.Spec.zR (val_main_v17 (F := Ideal) x0 x2 x6 x7) x1 x3 x4 ⟨(i 0).val, idx2_lt0 i⟩ j
    * x5 (ix2 j (⟨(i 1).val, idx2_lt1 i⟩ : Fin 64))
  refine Finset.sum_congr rfl fun k _ => ?_
  have el : lidx_main_v45 i k = ix2 (⟨(i 0).val, idx2_lt0 i⟩ : Fin 400000) k :=
    funext fun a => by match a with | ⟨0, _⟩ => rfl | ⟨1, _⟩ => rfl
  have er : ridx_main_v45 i k = ix2 k (⟨(i 1).val, idx2_lt1 i⟩ : Fin 64) :=
    funext fun a => by match a with | ⟨0, _⟩ => rfl | ⟨1, _⟩ => rfl
  rw [el, er, joined_apply]

end Rest

/-- THE REFERENCE'S VALUE: the specification's output over the specification's grid. -/
theorem ref_value (x0 : (⟨Cert.ReferenceIdeal.S100000x128, .f32⟩ : BufTy).Contents (Elt Ideal))
    (x1 : (⟨Cert.ReferenceIdeal.S400000x64, .f32⟩ : BufTy).Contents (Elt Ideal))
    (x2 : (⟨Cert.ReferenceIdeal.S8x128x64, .f32⟩ : BufTy).Contents (Elt Ideal))
    (x3 x4 : (⟨Cert.ReferenceIdeal.S64, .f32⟩ : BufTy).Contents (Elt Ideal))
    (x5 : (⟨Cert.ReferenceIdeal.S128x64, .f32⟩ : BufTy).Contents (Elt Ideal))
    (x6 x7 : (⟨Cert.ReferenceIdeal.S8x100000, .i32⟩ : BufTy).Contents (Elt Ideal)) :
    Cert.ReferenceIdeal.Read.val_main_v45 (F := Ideal) x0 x1 x2 x3 x4 x5 x6 x7
      = Cert.Spec.outR (Cert.Spec.yOf x7 (Cert.Spec.upd x0 x2 x6)) x1 x3 x4 x5 := by
  rw [out_eq, grid_eq]

end Cert.RefSide

end
-- ==== Proof.Algebra.lean ====
/-
  The algebra of the certificate, over the extended reals: with the scattered grid, the scale and the shift all real,
  the kernel's normalisation `y · s + (β - μ · s)`, `s = γ · rsqrt(mean(y²) - μ² + ε)`, is the reference's
  `(y - μ) · rsqrt(σ² + ε) · γ + β`, and the kernel's two half products with the fuse matrix add up to the reference's
  one product over all 128 joined features.

  The steps. The row count's float word denotes exactly `400000`, the number of rows summed over, so the mean is the real
  `μ = (1/N) · Σ_r y_r` and both variances are real; the variance identity `(1/N) · Σ_r y_r² - μ² = (1/N) · Σ_r (y_r - μ)²`
  (which needs the divisor to BE the row count) makes them one real `σ² ≥ 0`. The floor's float word denotes a positive
  real `ε`, so `σ² + ε > 0` and its reciprocal root is real. Then `y · (γ · ρ) + (β - μ · (γ · ρ)) = (y - μ) · ρ · γ + β` is an
  identity of real numbers. The last sum over `Fin 128` splits into its indices below 64 (the normalised features) and
  from 64 on (the skip features): addition in the extended reals is a commutative monoid, so this needs no finiteness of
  the skip features or the fuse matrix.
-/
import Mathlib.Algebra.BigOperators.Fin
import Mathlib.Algebra.Order.BigOperators.Group.Finset
import Mathlib.Tactic.Ring
import Mathlib.Tactic.NormNum
import proofs.«105424_j83674552861285_1_alg».proof.Proof.Spec

noncomputable section

namespace Cert.Spec

open Idealize.ShloMosaic Idealize.ShloMosaic.ValueIdx

/-! ## The two float words -/

/-- The row count's word: sign 0, exponent `145 - 127 = 18`, significand `2^23 + 4411392`, that is
    `12800000 · 2^(-5) = 400000`. -/
theorem Nf_eq : Nf = ((400000 : ℝ) : EReal) := by
  unfold Nf
  simp [Ideal.ofBits, Ideal.ieee, -EReal.coe_mul]; norm_num

/-- The variance floor's word is a normal positive float: it denotes a positive real. -/
theorem epsf_pos : ∃ e : ℝ, 0 < e ∧ epsf = (e : EReal) := by
  unfold epsf
  simp [Ideal.ofBits, Ideal.ieee, -EReal.coe_mul]

/-- A real finite sum, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The real-valued statistics -/

/-- The real column mean `(1/N) · Σ_r y_r`. -/
def μ (y : Sy.Idx → ℝ) (c : Fin 64) : ℝ := (∑ r : Fin 400000, y (ix2 r c)) * (1 / 400000)
/-- The real column variance `(1/N) · Σ_r (y_r - μ)²`. -/
def σ2 (y : Sy.Idx → ℝ) (c : Fin 64) : ℝ :=
  (∑ r : Fin 400000, (y (ix2 r c) - μ y c) * (y (ix2 r c) - μ y c)) * (1 / 400000)

theorem div_Nf (x : EReal) : Ideal.div x Nf = x * ((1 / 400000 : ℝ) : EReal) := by
  rw [Nf_eq]; exact Ideal.div_coe (by norm_num) x

theorem mean_coe (y : Sy.Idx → ℝ) (c : Fin 64) : mean (fun i => (y i : EReal)) c = (μ y c : EReal) := by
  unfold mean colsum μ
  rw [div_Nf, EReal.coe_mul, coe_sum]

theorem varR_coe (y : Sy.Idx → ℝ) (c : Fin 64) : varR (fun i => (y i : EReal)) c = (σ2 y c : EReal) := by
  unfold varR σ2
  rw [div_Nf, mean_coe, EReal.coe_mul, coe_sum]
  simp only [EReal.coe_mul, EReal.coe_sub]

/-- The variance identity: the mean of the squares less the squared mean is the mean squared deviation. It uses
    that the divisor `400000` is the number of rows summed over. -/
theorem var_identity (f : Fin 400000 → ℝ) (m : ℝ) (hm : m = (∑ r, f r) * (1 / 400000)) :
    (∑ r, f r * f r) * (1 / 400000) - m * m = (∑ r, (f r - m) * (f r - m)) * (1 / 400000) := by
  have h : ∀ r, (f r - m) * (f r - m) = f r * f r - 2 * m * f r + m * m := fun r => by ring
  simp only [h, Finset.sum_add_distrib, Finset.sum_sub_distrib, ← Finset.mul_sum, Finset.sum_const, Finset.card_univ,
    Fintype.card_fin, nsmul_eq_mul, Nat.cast_ofNat]
  have hS : (∑ r, f r) = 400000 * m := by rw [hm]; ring
  rw [hS]; ring

theorem varK_coe (y : Sy.Idx → ℝ) (c : Fin 64) : varK (fun i => (y i : EReal)) c = (σ2 y c : EReal) := by
  unfold varK sqsum
  rw [div_Nf, mean_coe]
  have : (∑ r : Fin 400000, ((y (ix2 r c) : ℝ) : EReal) * ((y (ix2 r c) : ℝ) : EReal))
      = ((∑ r : Fin 400000, y (ix2 r c) * y (ix2 r c) : ℝ) : EReal) := by
    rw [coe_sum]; simp only [EReal.coe_mul]
  rw [this, ← EReal.coe_mul, ← EReal.coe_mul, ← EReal.coe_sub]
  exact congrArg _ (var_identity (fun r => y (ix2 r c)) (μ y c) rfl)

theorem σ2_nonneg (y : Sy.Idx → ℝ) (c : Fin 64) : 0 ≤ σ2 y c :=
  mul_nonneg (Finset.sum_nonneg fun r _ => mul_self_nonneg _) (by norm_num)

/-- The reciprocal root of a positive real is real. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-! ## The two normalisations agree entry by entry -/

theorem bn_eq (y : Sy.Idx → ℝ) (γ β : Sc.Idx → ℝ) (r : Fin 400000) (c : Fin 64) :
    bnK (fun i => (y i : EReal)) (fun i => (γ i : EReal)) (fun i => (β i : EReal)) r c
      = bnR (fun i => (y i : EReal)) (fun i => (γ i : EReal)) (fun i => (β i : EReal)) r c := by
  obtain ⟨e, he, hE⟩ := epsf_pos
  have hv : 0 < σ2 y c + e := add_pos_of_nonneg_of_pos (σ2_nonneg y c) he
  unfold bnK bnR shiftK scaleK
  rw [varK_coe, varR_coe, mean_coe, hE, ← EReal.coe_add, rsqrt_pos hv]
  simp only [← EReal.coe_mul, ← EReal.coe_sub, ← EReal.coe_add]
  congr 2
  ring

/-! ## The product with the fuse matrix, split into its two halves -/

theorem outK_eq_outR (y : Sy.Idx → ℝ) (sk : Sy.Idx → EReal) (γ β : Sc.Idx → ℝ) (Wf : Swf.Idx → EReal) :
    outK (fun i => (y i : EReal)) sk (fun i => (γ i : EReal)) (fun i => (β i : EReal)) Wf
      = outR (fun i => (y i : EReal)) sk (fun i => (γ i : EReal)) (fun i => (β i : EReal)) Wf := by
  funext i
  unfold outK outR
  rw [Fin.sum_univ_add (a := 64) (b := 64)]
  refine congrArg₂ (· + ·) (Finset.sum_congr rfl fun j _ => ?_) (Finset.sum_congr rfl fun j _ => ?_)
  · have hj : (Fin.castAdd 64 j : Fin (64 + 64)).val < 64 := j.isLt
    rw [zR, dif_pos hj, bn_eq]
    rfl
  · have hj : ¬ (Fin.natAdd 64 j : Fin (64 + 64)).val < 64 := by simp [Fin.natAdd]
    rw [zR, dif_neg hj]
    have hk : (⟨(Fin.natAdd 64 j : Fin (64 + 64)).val - 64, by simp [Fin.natAdd]⟩ : Fin 64) = j :=
      Fin.ext (by simp [Fin.natAdd])
    rw [hk]
    rfl

end Cert.Spec

end
-- ==== Proof.YReal.lean ====
/-
  Two facts about reals inside the extended reals.

  (1) The scattered grid of real update rows onto zeros is real: each entry is a finite sum, over the edges whose output
  word names that row, of finite sums of products of reals.
  (2) The printed precondition "every float input is finite" gives real-valued witnesses for the inputs.
-/
import Mathlib.Data.EReal.Basic
import Mathlib.Algebra.BigOperators.Group.Finset.Basic
import Idealize.ShloMosaic.Lib.ReduceAll
import proofs.«105424_j83674552861285_1_alg».proof.Pre_finite_inputs
import proofs.«105424_j83674552861285_1_alg».proof.Proof.Spec

noncomputable section

namespace Cert.Spec

open Idealize.ShloMosaic Idealize.ShloMosaic.ValueIdx

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entry `(n, d)` of the scattered grid of real updates, as a real number. -/
def yReal (x : Sx.Idx → ℝ) (W : Sw.Idx → ℝ) (iin iout : Si.Idx → BitVec 32) (n : Fin 400000) (d : Fin 64) : ℝ :=
  ∑ e ∈ Finset.univ.filter (fun e : Fin 800000 => (sidx iout (ix2 e (0 : Fin 1))).toInt = (n.val : ℤ)),
    ∑ k : Fin 128, x (ix2 (inRow iin e) k) * W (ix3 (ek e) k d)

theorem yOf_real_apply (x : Sx.Idx → ℝ) (W : Sw.Idx → ℝ) (iin iout : Si.Idx → BitVec 32) (n : Fin 400000) (d : Fin 64) :
    yOf iout (upd (fun i => (x i : EReal)) (fun i => (W i : EReal)) iin) (ix2 n d) = (yReal x W iin iout n d : EReal) := by
  unfold yOf
  rw [show (scat : ScatterDims Sy Ss Su) = LibGatherScatter.scatRowsDims 400000 800000 64 scat_wf from rfl,
    LibGatherScatter.scatterAdd_rows_apply scat_wf, zero_add]
  unfold yReal
  rw [coe_finset_sum]
  refine Finset.sum_congr rfl (fun e _ => ?_)
  rw [coe_finset_sum]
  refine Finset.sum_congr rfl (fun k _ => ?_)
  rw [EReal.coe_mul]

theorem yOf_real (x : Sx.Idx → ℝ) (W : Sw.Idx → ℝ) (iin iout : Si.Idx → BitVec 32) :
    ∃ y : Sy.Idx → ℝ, yOf iout (upd (fun i => (x i : EReal)) (fun i => (W i : EReal)) iin) = fun i => (y i : EReal) := by
  refine ⟨fun i => yReal x W iin iout ⟨(i 0).val, idx2_lt0 i⟩ ⟨(i 1).val, idx2_lt1 i⟩, ?_⟩
  funext i
  exact (congrArg _ (eq_ix2 i)).trans (yOf_real_apply x W iin iout ⟨(i 0).val, idx2_lt0 i⟩ ⟨(i 1).val, idx2_lt1 i⟩)

end Cert.Spec

namespace Cert.Fin

open Idealize.ShloMosaic Idealize.ShloMosaic.ValueIdx

instance : Subsingleton Cert.Pre_finite_inputs.S_.Idx := ⟨fun a b => funext fun d => d.elim0⟩

/-- The float word `0x7F800000` denotes `+∞`. -/
theorem inf_word : Ideal.ofBits .f32 0x7F800000#32 = (⊤ : EReal) := by
  simp [Ideal.ofBits, Ideal.ieee]

/-- An extended real whose absolute value `max v (-v)` is strictly below `+∞` is a real. -/
theorem real_of_abs_lt_inf (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | top => simp [Ideal.cmp] at h
  | coe r => exact ⟨r, rfl⟩

/-- An array all of whose entries have absolute value strictly below `+∞` is an array of reals. -/
theorem real_of_all {s : Shape} (a : s.Idx → EReal)
    (hall : ∀ i, Ideal.cmp .olt (max (a i) (-(a i))) (Ideal.ofBits .f32 0x7F800000#32) = 1#1) :
    ∃ x : s.Idx → ℝ, a = fun i => (x i : EReal) := by
  choose x hx using fun i => real_of_abs_lt_inf (a i) (hall i)
  exact ⟨x, funext hx⟩

theorem real_of_pre [Cert.Pre_finite_inputs.Facts]
    (a0 : FVec Ideal Cert.Pre_finite_inputs.S100000x128 .f32) (a1 : FVec Ideal Cert.Pre_finite_inputs.S400000x64 .f32) (a2 : FVec Ideal Cert.Pre_finite_inputs.S8x128x64 .f32) (a3 a4 : FVec Ideal Cert.Pre_finite_inputs.S64 .f32) (a5 : FVec Ideal Cert.Pre_finite_inputs.S128x64 .f32) (a6 a7 : IVec Cert.Pre_finite_inputs.S8x100000 32)
    (h : Cert.Pre_finite_inputs.fn (F := Ideal) a0 a1 a2 a3 a4 a5 a6 a7 = fun _ => 1#1) :
    (∃ x : Cert.Spec.Sx.Idx → ℝ, a0 = fun i => (x i : EReal)) ∧ (∃ W : Cert.Spec.Sw.Idx → ℝ, a2 = fun i => (W i : EReal))
      ∧ (∃ g : Cert.Spec.Sc.Idx → ℝ, a3 = fun i => (g i : EReal)) ∧ (∃ b : Cert.Spec.Sc.Idx → ℝ, a4 = fun i => (b i : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨e0, _⟩, e2⟩, e3⟩, e4⟩, _⟩ := h0
  refine ⟨real_of_all (s := Cert.Spec.Sx) a0 (fun i => ?_), real_of_all (s := Cert.Spec.Sw) a2 (fun i => ?_),
    real_of_all (s := Cert.Spec.Sc) a3 (fun i => ?_), real_of_all (s := Cert.Spec.Sc) a4 (fun i => ?_)⟩
  · exact Host.reduce_andi_all _ _ _ _ _ e0 i
  · exact Host.reduce_andi_all _ _ _ _ _ e2 i
  · exact Host.reduce_andi_all _ _ _ _ _ e3 i
  · exact Host.reduce_andi_all _ _ _ _ _ e4 i

end Cert.Fin

end
-- ==== Proof.Bridge.lean ====
/-
  The two normalisations agree on finite inputs: with the input rows, the weight slabs, γ and β real, the scattered grid is
  real, and on a real grid `(y − μ)·r·γ + β = y·(γ·r) + (β − μ·(γ·r))` with `r = rsqrt(σ² + ε)`, `σ² = mean((y − μ)²) = mean(y²) − μ²`;
  the skip features and the fuse matrix may be any extended reals, since splitting a sum needs no finiteness.
-/
import proofs.«105424_j83674552861285_1_alg».proof.Proof.Algebra
import proofs.«105424_j83674552861285_1_alg».proof.Proof.YReal

noncomputable section

namespace Cert.Spec

open Idealize.ShloMosaic

theorem outR_eq_outK_of_real (a0 : Sx.Idx → EReal) (a1 : Sy.Idx → EReal) (a2 : Sw.Idx → EReal) (a3 a4 : Sc.Idx → EReal)
    (a5 : Swf.Idx → EReal) (a6 a7 : Si.Idx → BitVec 32)
    (hx : ∃ x : Sx.Idx → ℝ, a0 = fun i => (x i : EReal)) (hW : ∃ W : Sw.Idx → ℝ, a2 = fun i => (W i : EReal))
    (hg : ∃ g : Sc.Idx → ℝ, a3 = fun i => (g i : EReal)) (hb : ∃ b : Sc.Idx → ℝ, a4 = fun i => (b i : EReal)) :
    outR (yOf a7 (upd a0 a2 a6)) a1 a3 a4 a5 = outK (yOf a7 (upd a0 a2 a6)) a1 a3 a4 a5 := by
  obtain ⟨x, rfl⟩ := hx
  obtain ⟨W, rfl⟩ := hW
  obtain ⟨g, rfl⟩ := hg
  obtain ⟨b, rfl⟩ := hb
  obtain ⟨y, hy⟩ := yOf_real x W a6 a7
  rw [hy]
  exact (outK_eq_outR y a1 g b a5).symm

end Cert.Spec

end
-- ==== Proof.lean ====
/-
  A sparse inverse convolution (gather rows, multiply by a weight slab per kernel offset, scatter-add into a voxel grid),
  batch normalisation with max(·, 0), a join with skip features and a 1×1 convolution, computed by three tiled kernels
  among host gathers and one host scatter, against the plain reference.

  The frames: each program is followed from its launch memory through its stretches — host operations applied in
  order, a kernel call leaving its arrays at what its write-backs fold to — and no stretch writes an argument.
  The value: at the extended reals the first call is the product `x · [W₀ | … | W₇]`, so gathering a row of it and taking
  the k-th 64 columns is the reference's "gather the row of x, then multiply by W_k"; both programs scatter the same
  update rows at the same index column; the second call's two accumulators are the column sums of `y` and `y²` over all
  400000 rows; and on finite inputs `(y − μ)·r·γ + β = y·(γ·r) + (β − μ·γ·r)` with `mean((y − μ)²) = mean(y²) − μ²`, while the
  last product splits over the 64 normalised and the 64 skip columns with no finiteness needed.
-/
import proofs.«105424_j83674552861285_1_alg».proof.Defs
import proofs.«105424_j83674552861285_1_alg».proof.Proof.Gen.Kernel
import proofs.«105424_j83674552861285_1_alg».proof.Proof.Gen.KernelIdeal
import proofs.«105424_j83674552861285_1_alg».proof.Proof.Gen.ReferenceIdeal
import proofs.«105424_j83674552861285_1_alg».proof.Proof.Gen.Pre_finite_inputs
import proofs.«105424_j83674552861285_1_alg».proof.Proof.KB.Run
import proofs.«105424_j83674552861285_1_alg».proof.Proof.KI.Run
import proofs.«105424_j83674552861285_1_alg».proof.Proof.KI.Val0
import proofs.«105424_j83674552861285_1_alg».proof.Proof.KI.Val1
import proofs.«105424_j83674552861285_1_alg».proof.Proof.KI.Val2
import proofs.«105424_j83674552861285_1_alg».proof.Proof.KI.Host1
import proofs.«105424_j83674552861285_1_alg».proof.Proof.KI.Host02
import proofs.«105424_j83674552861285_1_alg».proof.Proof.KI.Value
import proofs.«105424_j83674552861285_1_alg».proof.Proof.RefSide
import proofs.«105424_j83674552861285_1_alg».proof.Proof.Bridge
import Idealize.ShloMosaic.Adequacy
import Idealize.ShloMosaic.Init

noncomputable section

namespace Cert.Proof

open Idealize.ShloMosaic Idealize.SL.Sem Idealize.ShloMosaic.TcCoe

/-- The idealized kernel's result on core `c`: the kernel-form normalisation of the specification's grid. -/
def G (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v144) :=
  Cert.Spec.outK (Cert.Spec.yOf (m ((c.tc : Thread Cert.KernelIdeal.nD Cert.KernelIdeal.τ).loc Cert.KernelIdeal.main_arg7))
      (Cert.Spec.upd (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg6))))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- The idealized kernel's result array after the run is `G`. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Fr.dat2 (F := Ideal) (Cert.KernelIdeal.Fr.V5 m ρ) c).arrAt 6 Cert.KernelIdeal.cfg2.N = G m c :=
  Cert.KernelIdeal.Fr.kernel_value m ρ c (fun V c => Cert.KernelIdeal.Fr.arrAt1_1 V c) (fun V c => Cert.KernelIdeal.Fr.arrAt1_2 V c)
    (fun W => Cert.KernelIdeal.Fr.host0_v1 W) (fun W => Cert.KernelIdeal.Fr.host1_v126 W) (fun W => Cert.KernelIdeal.Fr.host2_v138 W)
    (fun W => Cert.KernelIdeal.Fr.host2_v141 W) (fun W => Cert.KernelIdeal.Fr.host2_v142 W) (fun W => Cert.KernelIdeal.Fr.host2_v143 W)

/-- The reference's result on finite inputs is the same function. -/
theorem reference_result [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v45 m' c = G m c := by
  rw [Cert.ReferenceIdeal.Read.val_main_v45_eq, h0, h1, h2, h3, h4, h5, h6, h7, Cert.RefSide.ref_value]
  obtain ⟨hx, hW, hg, hb⟩ := Cert.Fin.real_of_pre _ _ _ _ _ _ _ _ (hpre c)
  exact Cert.Spec.outR_eq_outK_of_real _ _ _ _ _ _ _ _ hx hW hg hb

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.Value.run (F := Ideal) m ρ),
  trivial,
  fun m ρ m' ρ' hpre hagree => ⟨fun c => G m c,
    (θ_run Cert.KernelIdeal.defs _ _).mono (fun _ h c => ⟨(h c).1.trans (kernel_result m ρ c), (h c).2⟩) (Cert.KernelIdeal.Fr.run_named (F := Ideal) m ρ),
    (θ_run Cert.ReferenceIdeal.defs _ _).mono (fun _ h c => ⟨(h c).1.trans (reference_result m m' c hpre (hagree c).1 (hagree c).2.1 (hagree c).2.2.1 (hagree c).2.2.2.1 (hagree c).2.2.2.2.1 (hagree c).2.2.2.2.2.1 (hagree c).2.2.2.2.2.2.1 (hagree c).2.2.2.2.2.2.2), (h c).2⟩)
      (Cert.ReferenceIdeal.Value.run (F := Ideal) m' ρ')⟩⟩

end Cert.Proof

end
